-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100x512 : Shape := ⟨3, ![8, 100, 512]⟩
abbrev S512x32000 : Shape := ⟨2, ![512, 32000]⟩
abbrev S32000 : Shape := ⟨1, ![32000]⟩
abbrev S8x100x400 : Shape := ⟨3, ![8, 100, 400]⟩
abbrev S8x100x1 : Shape := ⟨3, ![8, 100, 1]⟩
abbrev S8x400x8 : Shape := ⟨3, ![8, 400, 8]⟩
abbrev S_ : Shape := ⟨0, ![]⟩

class Facts : Prop where
  bcast_S_S8x100x512 : S_.BroadcastsInDim S8x100x512 (![] : Fin 0 → Fin S8x100x512.rank)
  reducesTo_S8x100x512_S_d0_1_2 : S8x100x512.ReducesTo [0, 1, 2] S_
  h_S_ : 0 < S_.numel
  bcast_S_S512x32000 : S_.BroadcastsInDim S512x32000 (![] : Fin 0 → Fin S512x32000.rank)
  reducesTo_S512x32000_S_d0_1 : S512x32000.ReducesTo [0, 1] S_
  bcast_S_S32000 : S_.BroadcastsInDim S32000 (![] : Fin 0 → Fin S32000.rank)
  reducesTo_S32000_S_d0 : S32000.ReducesTo [0] S_
  bcast_S_S8x100x400 : S_.BroadcastsInDim S8x100x400 (![] : Fin 0 → Fin S8x100x400.rank)
  reducesTo_S8x100x400_S_d0_1_2 : S8x100x400.ReducesTo [0, 1, 2] S_
  bcast_S_S8x100x1 : S_.BroadcastsInDim S8x100x1 (![] : Fin 0 → Fin S8x100x1.rank)
  reducesTo_S8x100x1_S_d0_1_2 : S8x100x1.ReducesTo [0, 1, 2] S_
  bcast_S_S8x400x8 : S_.BroadcastsInDim S8x400x8 (![] : Fin 0 → Fin S8x400x8.rank)
  reducesTo_S8x400x8_S_d0_1_2 : S8x400x8.ReducesTo [0, 1, 2] S_

variable [Facts]

def fn_part2 {F : FTy → Type} [FloatOps F] (main_arg7 : IVec S8x400x8 32) (main_v33 : IVec S_ 1) : IVec S_ 1 :=
  let main_c_12 : IVec S_ 32 := constantI S_ 32 0#32
  let main_v34 : IVec S8x400x8 32 := broadcastInDim S8x400x8 ![] bcast_S_S8x400x8 main_c_12
  let main_v35 : IVec S8x400x8 1 := cmpi .sge main_arg7 main_v34
  let main_c_13 : IVec S_ 1 := constantI S_ 1 1#1
  let main_v36 : IVec S_ 1 := (fun x v => Host.reduce IntOp.andi x v reducesTo_S8x400x8_S_d0_1_2 h_S_) main_v35 main_c_13
  let main_v37 : IVec S_ 1 := andi main_v33 main_v36
  main_v37

def fn_part1 {F : FTy → Type} [FloatOps F] (main_arg4 : FVec F S8x100x1 .f32) (main_arg5 : FVec F S8x400x8 .f32) (main_arg6 : FVec F S8x400x8 .f32) (main_arg7 : IVec S8x400x8 32) (main_v13 : IVec S_ 1) (main_v16 : IVec S8x100x400 1) : IVec S_ 1 :=
  let main_c_5 : IVec S_ 1 := constantI S_ 1 1#1
  let main_v17 : IVec S_ 1 := (fun x v => Host.reduce IntOp.andi x v reducesTo_S8x100x400_S_d0_1_2 h_S_) main_v16 main_c_5
  let main_v18 : IVec S_ 1 := andi main_v13 main_v17
  let main_v19 : FVec F S8x100x1 .f32 := Host.absf main_arg4
  let main_cst_6 : FVec F S_ .f32 := constant S_ .f32 0x7F800000#32
  let main_v20 : FVec F S8x100x1 .f32 := broadcastInDim S8x100x1 ![] bcast_S_S8x100x1 main_cst_6
  let main_v21 : IVec S8x100x1 1 := cmpf .olt main_v19 main_v20
  let main_c_7 : IVec S_ 1 := constantI S_ 1 1#1
  let main_v22 : IVec S_ 1 := (fun x v => Host.reduce IntOp.andi x v reducesTo_S8x100x1_S_d0_1_2 h_S_) main_v21 main_c_7
  let main_v23 : IVec S_ 1 := andi main_v18 main_v22
  let main_v24 : FVec F S8x400x8 .f32 := Host.absf main_arg5
  let main_cst_8 : FVec F S_ .f32 := constant S_ .f32 0x7F800000#32
  let main_v25 : FVec F S8x400x8 .f32 := broadcastInDim S8x400x8 ![] bcast_S_S8x400x8 main_cst_8
  let main_v26 : IVec S8x400x8 1 := cmpf .olt main_v24 main_v25
  let main_c_9 : IVec S_ 1 := constantI S_ 1 1#1
  let main_v27 : IVec S_ 1 := (fun x v => Host.reduce IntOp.andi x v reducesTo_S8x400x8_S_d0_1_2 h_S_) main_v26 main_c_9
  let main_v28 : IVec S_ 1 := andi main_v23 main_v27
  let main_v29 : FVec F S8x400x8 .f32 := Host.absf main_arg6
  let main_cst_10 : FVec F S_ .f32 := constant S_ .f32 0x7F800000#32
  let main_v30 : FVec F S8x400x8 .f32 := broadcastInDim S8x400x8 ![] bcast_S_S8x400x8 main_cst_10
  let main_v31 : IVec S8x400x8 1 := cmpf .olt main_v29 main_v30
  let main_c_11 : IVec S_ 1 := constantI S_ 1 1#1
  let main_v32 : IVec S_ 1 := (fun x v => Host.reduce IntOp.andi x v reducesTo_S8x400x8_S_d0_1_2 h_S_) main_v31 main_c_11
  let main_v33 : IVec S_ 1 := andi main_v28 main_v32
  fn_part2 (F := F) main_arg7 main_v33

def fn {F : FTy → Type} [FloatOps F] (main_arg0 : FVec F S8x100x512 .f32) (main_arg1 : FVec F S512x32000 .f32) (main_arg2 : FVec F S32000 .f32) (main_arg3 : FVec F S8x100x400 .f32) (main_arg4 : FVec F S8x100x1 .f32) (main_arg5 : FVec F S8x400x8 .f32) (main_arg6 : FVec F S8x400x8 .f32) (main_arg7 : IVec S8x400x8 32) : IVec S_ 1 :=
  let main_v0 : FVec F S8x100x512 .f32 := Host.absf main_arg0
  let main_cst : FVec F S_ .f32 := constant S_ .f32 0x7F800000#32
  let main_v1 : FVec F S8x100x512 .f32 := broadcastInDim S8x100x512 ![] bcast_S_S8x100x512 main_cst
  let main_v2 : IVec S8x100x512 1 := cmpf .olt main_v0 main_v1
  let main_c : IVec S_ 1 := constantI S_ 1 1#1
  let main_v3 : IVec S_ 1 := (fun x v => Host.reduce IntOp.andi x v reducesTo_S8x100x512_S_d0_1_2 h_S_) main_v2 main_c
  let main_v4 : FVec F S512x32000 .f32 := Host.absf main_arg1
  let main_cst_0 : FVec F S_ .f32 := constant S_ .f32 0x7F800000#32
  let main_v5 : FVec F S512x32000 .f32 := broadcastInDim S512x32000 ![] bcast_S_S512x32000 main_cst_0
  let main_v6 : IVec S512x32000 1 := cmpf .olt main_v4 main_v5
  let main_c_1 : IVec S_ 1 := constantI S_ 1 1#1
  let main_v7 : IVec S_ 1 := (fun x v => Host.reduce IntOp.andi x v reducesTo_S512x32000_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S8x100x400 .f32 := Host.absf main_arg3
  let main_cst_4 : FVec F S_ .f32 := constant S_ .f32 0x7F800000#32
  let main_v15 : FVec F S8x100x400 .f32 := broadcastInDim S8x100x400 ![] bcast_S_S8x100x400 main_cst_4
  let main_v16 : IVec S8x100x400 1 := cmpf .olt main_v14 main_v15
  fn_part1 (F := F) main_arg4 main_arg5 main_arg6 main_arg7 main_v13 main_v16
-- ==== Kernel.lean ====
abbrev S8x100x512 : Shape := ⟨3, ![8, 100, 512]⟩
abbrev S512x32000 : Shape := ⟨2, ![512, 32000]⟩
abbrev S32000 : Shape := ⟨1, ![32000]⟩
abbrev S8x100x400 : Shape := ⟨3, ![8, 100, 400]⟩
abbrev S8x100x1 : Shape := ⟨3, ![8, 100, 1]⟩
abbrev S8x400x8 : Shape := ⟨3, ![8, 400, 8]⟩
abbrev S1x32000 : Shape := ⟨2, ![1, 32000]⟩
abbrev S800x512 : Shape := ⟨2, ![800, 512]⟩
abbrev S800x32000 : Shape := ⟨2, ![800, 32000]⟩
abbrev S800x1 : Shape := ⟨2, ![800, 1]⟩
abbrev S400x512 : Shape := ⟨2, ![400, 512]⟩
abbrev S512x1280 : Shape := ⟨2, ![512, 1280]⟩
abbrev S1x1280 : Shape := ⟨2, ![1, 1280]⟩
abbrev S400x1280 : Shape := ⟨2, ![400, 1280]⟩
abbrev S400x1 : Shape := ⟨2, ![400, 1]⟩
abbrev S400 : Shape := ⟨1, ![400]⟩
abbrev S8x100x32000 : Shape := ⟨3, ![8, 100, 32000]⟩
abbrev S1x100x1280 : Shape := ⟨3, ![1, 100, 1280]⟩
abbrev S1x100x1 : Shape := ⟨3, ![1, 100, 1]⟩
abbrev S1x100x400 : Shape := ⟨3, ![1, 100, 400]⟩
abbrev S1x400x8 : Shape := ⟨3, ![1, 400, 8]⟩
abbrev S100x1280 : Shape := ⟨2, ![100, 1280]⟩
abbrev S100x1 : Shape := ⟨2, ![100, 1]⟩
abbrev S400x8 : Shape := ⟨2, ![400, 8]⟩
abbrev S100x400 : Shape := ⟨2, ![100, 400]⟩

abbrev nBuf : Space → Nat
  | .hbm => 15
  | .vmem => 27
  | .smem => 0
  | _ => 0

abbrev bufTy : (tb : Table) → Fin (tcTables nBuf tb) → BufTy
  | .hbm, ⟨0, _⟩ => ⟨S8x100x512, .f32⟩
  | .hbm, ⟨1, _⟩ => ⟨S512x32000, .f32⟩
  | .hbm, ⟨2, _⟩ => ⟨S32000, .f32⟩
  | .hbm, ⟨3, _⟩ => ⟨S8x100x400, .f32⟩
  | .hbm, ⟨4, _⟩ => ⟨S8x100x1, .f32⟩
  | .hbm, ⟨5, _⟩ => ⟨S8x400x8, .f32⟩
  | .hbm, ⟨6, _⟩ => ⟨S8x400x8, .f32⟩
  | .hbm, ⟨7, _⟩ => ⟨S8x400x8, .i32⟩
  | .hbm, ⟨8, _⟩ => ⟨S1x32000, .f32⟩
  | .hbm, ⟨9, _⟩ => ⟨S800x512, .f32⟩
  | .hbm, ⟨10, _⟩ => ⟨S800x32000, .f32⟩
  | .hbm, ⟨11, _⟩ => ⟨S800x1, .f32⟩
  | .hbm, ⟨12, _⟩ => ⟨S8x100x32000, .f32⟩
  | .hbm, ⟨13, _⟩ => ⟨S8x100x1, .f32⟩
  | .hbm, ⟨14, _⟩ => ⟨S8x100x32000, .f32⟩
  | .local _ .vmem, ⟨0, _⟩ => ⟨S400x512, .f32⟩
  | .local _ .vmem, ⟨1, _⟩ => ⟨S400x512, .f32⟩
  | .local _ .vmem, ⟨2, _⟩ => ⟨S512x1280, .f32⟩
  | .local _ .vmem, ⟨3, _⟩ => ⟨S512x1280, .f32⟩
  | .local _ .vmem, ⟨4, _⟩ => ⟨S1x1280, .f32⟩
  | .local _ .vmem, ⟨5, _⟩ => ⟨S1x1280, .f32⟩
  | .local _ .vmem, ⟨6, _⟩ => ⟨S400x1280, .f32⟩
  | .local _ .vmem, ⟨7, _⟩ => ⟨S400x1280, .f32⟩
  | .local _ .vmem, ⟨8, _⟩ => ⟨S400x1, .f32⟩
  | .local _ .vmem, ⟨9, _⟩ => ⟨S400x1, .f32⟩
  | .local _ .vmem, ⟨10, _⟩ => ⟨S400x1, .f32⟩
  | .local _ .vmem, ⟨11, _⟩ => ⟨S1x100x1280, .f32⟩
  | .local _ .vmem, ⟨12, _⟩ => ⟨S1x100x1280, .f32⟩
  | .local _ .vmem, ⟨13, _⟩ => ⟨S1x100x1, .f32⟩
  | .local _ .vmem, ⟨14, _⟩ => ⟨S1x100x1, .f32⟩
  | .local _ .vmem, ⟨15, _⟩ => ⟨S1x100x400, .f32⟩
  | .local _ .vmem, ⟨16, _⟩ => ⟨S1x100x400, .f32⟩
  | .local _ .vmem, ⟨17, _⟩ => ⟨S1x100x1, .f32⟩
  | .local _ .vmem, ⟨18, _⟩ => ⟨S1x100x1, .f32⟩
  | .local _ .vmem, ⟨19, _⟩ => ⟨S1x400x8, .f32⟩
  | .local _ .vmem, ⟨20, _⟩ => ⟨S1x400x8, .f32⟩
  | .local _ .vmem, ⟨21, _⟩ => ⟨S1x400x8, .f32⟩
  | .local _ .vmem, ⟨22, _⟩ => ⟨S1x400x8, .f32⟩
  | .local _ .vmem, ⟨23, _⟩ => ⟨S1x400x8, .i32⟩
  | .local _ .vmem, ⟨24, _⟩ => ⟨S1x400x8, .i32⟩
  | .local _ .vmem, ⟨25, _⟩ => ⟨S1x100x1280, .f32⟩
  | .local _ .vmem, ⟨26, _⟩ => ⟨S1x100x1280, .f32⟩
  | _, _ => ⟨S8x100x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S400x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x100x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x100x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x100x400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x100x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x400x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x400x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x400x8 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x100x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S32000_S1x32000 : S32000.ShapeCasts S1x32000
  shapeCasts_S8x100x512_S800x512 : S8x100x512.ShapeCasts S800x512
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S400x512_S400x512_0_0 : ∀ a, (![0, 0] : Fin 2 → Nat) a + S400x512.size a ≤ S400x512.size a
  h_S400x512 : 0 < S400x512.numel
  shapeCasts_S400x512_S400x512 : S400x512.ShapeCasts S400x512
  bitsLt_bf16_f32 : FTy.bits .bf16 < FTy.bits .f32
  inb_S512x1280_S512x1280_0_0 : ∀ a, (![0, 0] : Fin 2 → Nat) a + S512x1280.size a ≤ S512x1280.size a
  h_S512x1280 : 0 < S512x1280.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S400x1280 : S1x1280.Broadcasts S400x1280
  inb_S400x1280_S400x1280_0_0 : ∀ a, (![0, 0] : Fin 2 → Nat) a + S400x1280.size a ≤ S400x1280.size a
  h_S400x1280 : 0 < S400x1280.numel
  reduces_S400x1280_S400 : S400x1280.Reduces [1] S400
  shapeCasts_S400_S400x1 : S400.ShapeCasts S400x1
  shapeCasts_S800x32000_S8x100x32000 : S800x32000.ShapeCasts S8x100x32000
  shapeCasts_S800x1_S8x100x1 : S800x1.ShapeCasts S8x100x1
  inb_S1x100x1280_S1x100x1280_0_0_0 : ∀ a, (![0, 0, 0] : Fin 3 → Nat) a + S1x100x1280.size a ≤ S1x100x1280.size a
  h_S1x100x1280 : 0 < S1x100x1280.numel
  shapeCasts_S1x100x1280_S100x1280 : S1x100x1280.ShapeCasts S100x1280
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  broadcasts_S100x1_S100x1280 : S100x1.Broadcasts S100x1280
  inb_S1x400x8_S1x400x8_0_0_0 : ∀ a, (![0, 0, 0] : Fin 3 → Nat) a + S1x400x8.size a ≤ S1x400x8.size a
  h_S1x400x8 : 0 < S1x400x8.numel
  shapeCasts_S1x400x8_S400x8 : S1x400x8.ShapeCasts S400x8
  natLt_1_32 : 1 < 32
  iota_S400x1280_d1_w32 : S400x1280.Iotas .tc 32 [1]
  slices_S400x8_o0_0_S400x1 : S400x8.Slices ![0, 0] S400x1
  shapeCasts_S400x1_S400 : S400x1.ShapeCasts S400
  broadcasts_S400x1_S400x1280 : S400x1.Broadcasts S400x1280
  slices_S400x8_o0_1_S400x1 : S400x8.Slices ![0, 1] S400x1
  slices_S400x8_o0_2_S400x1 : S400x8.Slices ![0, 2] S400x1
  slices_S400x8_o0_3_S400x1 : S400x8.Slices ![0, 3] S400x1
  slices_S400x8_o0_4_S400x1 : S400x8.Slices ![0, 4] S400x1
  slices_S400x8_o0_5_S400x1 : S400x8.Slices ![0, 5] S400x1
  slices_S400x8_o0_6_S400x1 : S400x8.Slices ![0, 6] S400x1
  slices_S400x8_o0_7_S400x1 : S400x8.Slices ![0, 7] S400x1
  inb_S1x100x400_S1x100x400_0_0_0 : ∀ a, (![0, 0, 0] : Fin 3 → Nat) a + S1x100x400.size a ≤ S1x100x400.size a
  h_S1x100x400 : 0 < S1x100x400.numel
  shapeCasts_S1x100x400_S100x400 : S1x100x400.ShapeCasts S100x400
  shapeCasts_S100x1280_S1x100x1280 : S100x1280.ShapeCasts S1x100x1280
  dot_S400x512_S512x1280_S400x1280_1_0_0_1_n_n_wf : DotDims.WF S400x512 S512x1280 S400x1280 [1] [0] [0] [1] [] []
  dot_S100x400_S400x1280_S100x1280_1_0_0_1_n_n_wf : DotDims.WF S100x400 S400x1280 S100x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S800x512.size a
  hwx0_0 : ∀ i : grid0.Coords, EltTy.bits .f32 = 32 ∨ (Rect.block (s := S800x512) S400x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x32000.size a
  hwx0_1 : ∀ i : grid0.Coords, EltTy.bits .f32 = 32 ∨ (Rect.block (s := S512x32000) S512x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1280.size a ≤ S800x32000.size a
  hwx0_3 : ∀ i : grid0.Coords, EltTy.bits .f32 = 32 ∨ (Rect.block (s := S800x32000) S400x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S800x1.size a
  hwx0_4 : ∀ i : grid0.Coords, EltTy.bits .f32 = 32 ∨ (Rect.block (s := S800x1) S400x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x100x1280.size a ≤ S8x100x32000.size a
  hwx1_0 : ∀ i : grid1.Coords, EltTy.bits .f32 = 32 ∨ (Rect.block (s := S8x100x32000) S1x100x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x100x1.size a ≤ S8x100x1.size a
  hwx1_1 : ∀ i : grid1.Coords, EltTy.bits .f32 = 32 ∨ (Rect.block (s := S8x100x1) S1x100x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x100x400.size a ≤ S8x100x400.size a
  hwx1_2 : ∀ i : grid1.Coords, EltTy.bits .f32 = 32 ∨ (Rect.block (s := S8x100x400) S1x100x400.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x100x1.size a ≤ S8x100x1.size a
  hwx1_3 : ∀ i : grid1.Coords, EltTy.bits .f32 = 32 ∨ (Rect.block (s := S8x100x1) S1x100x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x400x8.size a ≤ S8x400x8.size a
  hwx1_4 : ∀ i : grid1.Coords, EltTy.bits .f32 = 32 ∨ (Rect.block (s := S8x400x8) S1x400x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x400x8.size a ≤ S8x400x8.size a
  hwx1_5 : ∀ i : grid1.Coords, EltTy.bits .f32 = 32 ∨ (Rect.block (s := S8x400x8) S1x400x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x400x8.size a ≤ S8x400x8.size a
  hwx1_6 : ∀ i : grid1.Coords, EltTy.bits .i32 = 32 ∨ (Rect.block (s := S8x400x8) S1x400x8.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x100x1280.size a ≤ S8x100x32000.size a
  hwx1_7 : ∀ i : grid1.Coords, EltTy.bits .f32 = 32 ∨ (Rect.block (s := S8x100x32000) S1x100x1280.size (cc1_transform_7 i) (hinb1_7 i)).WholeWords (EltTy.packing .f32)

variable [Facts₀]

def dot_S400x512_S512x1280_S400x1280_1_0_0_1_n_n : DotDims S400x512 S512x1280 S400x1280 where
  lhsContracting := [1]
  rhsContracting := [0]
  lhsNonContracting := [0]
  rhsNonContracting := [1]
  lhsBatch := []
  rhsBatch := []
  wf := dot_S400x512_S512x1280_S400x1280_1_0_0_1_n_n_wf
def dot_S100x400_S400x1280_S100x1280_1_0_0_1_n_n : DotDims S100x400 S400x1280 S100x1280 where
  lhsContracting := [1]
  rhsContracting := [0]
  lhsNonContracting := [0]
  rhsNonContracting := [1]
  lhsBatch := []
  rhsBatch := []
  wf := dot_S100x400_S400x1280_S100x1280_1_0_0_1_n_n_wf

abbrev win0_0 : Pipeline.Window sig grid0 :=
  Pipeline.Window.ofSpec (Memref.whole main_v1) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S400x1280.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S400x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3) S1x100x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x100x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x100x400.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x100x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x400x8.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1x400x8.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1x400x8.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x100x1280.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x100x512 : Shape := ⟨3, ![8, 100, 512]⟩
abbrev S512x32000 : Shape := ⟨2, ![512, 32000]⟩
abbrev S32000 : Shape := ⟨1, ![32000]⟩
abbrev S8x100x400 : Shape := ⟨3, ![8, 100, 400]⟩
abbrev S8x100x1 : Shape := ⟨3, ![8, 100, 1]⟩
abbrev S8x400x8 : Shape := ⟨3, ![8, 400, 8]⟩
abbrev S8x100x32000 : Shape := ⟨3, ![8, 100, 32000]⟩
abbrev S1x1x32000 : Shape := ⟨3, ![1, 1, 32000]⟩
abbrev S_ : Shape := ⟨0, ![]⟩
abbrev S8x100 : Shape := ⟨2, ![8, 100]⟩
abbrev S8 : Shape := ⟨1, ![8]⟩
abbrev S8x1x1 : Shape := ⟨3, ![8, 1, 1]⟩
abbrev S400 : Shape := ⟨1, ![400]⟩
abbrev S1x400x1 : Shape := ⟨3, ![1, 400, 1]⟩
abbrev S8x400x32000 : Shape := ⟨3, ![8, 400, 32000]⟩
abbrev S8x400x8x1 : Shape := ⟨4, ![8, 400, 8, 1]⟩
abbrev S8x400x8x3 : Shape := ⟨4, ![8, 400, 8, 3]⟩

abbrev nBuf : Space → Nat
  | .hbm => 75
  | .vmem => 0
  | .smem => 0
  | _ => 0

abbrev bufTy : (tb : Table) → Fin (tcTables nBuf tb) → BufTy
  | .hbm, ⟨0, _⟩ => ⟨S8x100x512, .f32⟩
  | .hbm, ⟨1, _⟩ => ⟨S512x32000, .f32⟩
  | .hbm, ⟨2, _⟩ => ⟨S32000, .f32⟩
  | .hbm, ⟨3, _⟩ => ⟨S8x100x400, .f32⟩
  | .hbm, ⟨4, _⟩ => ⟨S8x100x1, .f32⟩
  | .hbm, ⟨5, _⟩ => ⟨S8x400x8, .f32⟩
  | .hbm, ⟨6, _⟩ => ⟨S8x400x8, .f32⟩
  | .hbm, ⟨7, _⟩ => ⟨S8x400x8, .i32⟩
  | .hbm, ⟨8, _⟩ => ⟨S8x100x32000, .f32⟩
  | .hbm, ⟨9, _⟩ => ⟨S1x1x32000, .f32⟩
  | .hbm, ⟨10, _⟩ => ⟨S8x100x32000, .f32⟩
  | .hbm, ⟨11, _⟩ => ⟨S8x100x32000, .f32⟩
  | .hbm, ⟨12, _⟩ => ⟨S_, .f32⟩
  | .hbm, ⟨13, _⟩ => ⟨S8x100, .f32⟩
  | .hbm, ⟨14, _⟩ => ⟨S_, .f32⟩
  | .hbm, ⟨15, _⟩ => ⟨S8x100, .f32⟩
  | .hbm, ⟨16, _⟩ => ⟨S8x100, .f32⟩
  | .hbm, ⟨17, _⟩ => ⟨S8x100x1, .f32⟩
  | .hbm, ⟨18, _⟩ => ⟨S8x100x32000, .f32⟩
  | .hbm, ⟨19, _⟩ => ⟨S8x100x32000, .f32⟩
  | .hbm, ⟨20, _⟩ => ⟨S8x100x32000, .f32⟩
  | .hbm, ⟨21, _⟩ => ⟨S_, .f32⟩
  | .hbm, ⟨22, _⟩ => ⟨S8x100, .f32⟩
  | .hbm, ⟨23, _⟩ => ⟨S8x100x1, .f32⟩
  | .hbm, ⟨24, _⟩ => ⟨S8x100x32000, .f32⟩
  | .hbm, ⟨25, _⟩ => ⟨S8x100x32000, .f32⟩
  | .hbm, ⟨26, _⟩ => ⟨S_, .f32⟩
  | .hbm, ⟨27, _⟩ => ⟨S8x400x8, .f32⟩
  | .hbm, ⟨28, _⟩ => ⟨S8x400x8, .i1⟩
  | .hbm, ⟨29, _⟩ => ⟨S8x400x8, .f32⟩
  | .hbm, ⟨30, _⟩ => ⟨S8x400x8, .f32⟩
  | .hbm, ⟨31, _⟩ => ⟨S8, .i32⟩
  | .hbm, ⟨32, _⟩ => ⟨S8x1x1, .i32⟩
  | .hbm, ⟨33, _⟩ => ⟨S400, .i32⟩
  | .hbm, ⟨34, _⟩ => ⟨S1x400x1, .i32⟩
  | .hbm, ⟨35, _⟩ => ⟨S_, .f32⟩
  | .hbm, ⟨36, _⟩ => ⟨S8x400x32000, .f32⟩
  | .hbm, ⟨37, _⟩ => ⟨S_, .i32⟩
  | .hbm, ⟨38, _⟩ => ⟨S8x1x1, .i32⟩
  | .hbm, ⟨39, _⟩ => ⟨S8x1x1, .i1⟩
  | .hbm, ⟨40, _⟩ => ⟨S_, .i32⟩
  | .hbm, ⟨41, _⟩ => ⟨S8x1x1, .i32⟩
  | .hbm, ⟨42, _⟩ => ⟨S8x1x1, .i32⟩
  | .hbm, ⟨43, _⟩ => ⟨S8x1x1, .i32⟩
  | .hbm, ⟨44, _⟩ => ⟨S_, .i32⟩
  | .hbm, ⟨45, _⟩ => ⟨S1x400x1, .i32⟩
  | .hbm, ⟨46, _⟩ => ⟨S1x400x1, .i1⟩
  | .hbm, ⟨47, _⟩ => ⟨S_, .i32⟩
  | .hbm, ⟨48, _⟩ => ⟨S1x400x1, .i32⟩
  | .hbm, ⟨49, _⟩ => ⟨S1x400x1, .i32⟩
  | .hbm, ⟨50, _⟩ => ⟨S1x400x1, .i32⟩
  | .hbm, ⟨51, _⟩ => ⟨S_, .i32⟩
  | .hbm, ⟨52, _⟩ => ⟨S8x400x8, .i32⟩
  | .hbm, ⟨53, _⟩ => ⟨S8x400x8, .i1⟩
  | .hbm, ⟨54, _⟩ => ⟨S_, .i32⟩
  | .hbm, ⟨55, _⟩ => ⟨S8x400x8, .i32⟩
  | .hbm, ⟨56, _⟩ => ⟨S8x400x8, .i32⟩
  | .hbm, ⟨57, _⟩ => ⟨S8x400x8, .i32⟩
  | .hbm, ⟨58, _⟩ => ⟨S8x400x8, .i32⟩
  | .hbm, ⟨59, _⟩ => ⟨S8x400x8, .i32⟩
  | .hbm, ⟨60, _⟩ => ⟨S8x400x8x1, .i32⟩
  | .hbm, ⟨61, _⟩ => ⟨S8x400x8x1, .i32⟩
  | .hbm, ⟨62, _⟩ => ⟨S8x400x8x1, .i32⟩
  | .hbm, ⟨63, _⟩ => ⟨S8x400x8x3, .i32⟩
  | .hbm, ⟨64, _⟩ => ⟨S8x400x32000, .f32⟩
  | .hbm, ⟨65, _⟩ => ⟨S8x100x32000, .f32⟩
  | .hbm, ⟨66, _⟩ => ⟨S8x100x32000, .f32⟩
  | .hbm, ⟨67, _⟩ => ⟨S8x100x32000, .f32⟩
  | .hbm, ⟨68, _⟩ => ⟨S_, .f32⟩
  | .hbm, ⟨69, _⟩ => ⟨S8x100x1, .f32⟩
  | .hbm, ⟨70, _⟩ => ⟨S8x100x1, .f32⟩
  | .hbm, ⟨71, _⟩ => ⟨S8x100x32000, .f32⟩
  | .hbm, ⟨72, _⟩ => ⟨S8x100x32000, .f32⟩
  | .hbm, ⟨73, _⟩ => ⟨S8x100x32000, .f32⟩
  | .hbm, ⟨74, _⟩ => ⟨S8x100x32000, .f32⟩
  | _, _ => ⟨S8x100x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x100x32000_0_1_2 : S1x1x32000.BroadcastsInDim S8x100x32000 (![0, 1, 2] : Fin 3 → Fin S8x100x32000.rank)
  reducesTo_S8x100x32000_S8x100_d2 : S8x100x32000.ReducesTo [2] S8x100
  h_S_ : 0 < S_.numel
  bcast_S_S8x100 : S_.BroadcastsInDim S8x100 (![] : Fin 0 → Fin S8x100.rank)
  bcast_S8x100_S8x100x1_0_1 : S8x100.BroadcastsInDim S8x100x1 (![0, 1] : Fin 2 → Fin S8x100x1.rank)
  bcast_S8x100x1_S8x100x32000_0_1_2 : S8x100x1.BroadcastsInDim S8x100x32000 (![0, 1, 2] : Fin 3 → Fin S8x100x32000.rank)
  bcast_S_S8x400x8 : S_.BroadcastsInDim S8x400x8 (![] : Fin 0 → Fin S8x400x8.rank)
  bcast_S8_S8x1x1_0 : S8.BroadcastsInDim S8x1x1 (![0] : Fin 1 → Fin S8x1x1.rank)
  bcast_S400_S1x400x1_1 : S400.BroadcastsInDim S1x400x1 (![1] : Fin 1 → Fin S1x400x1.rank)
  bcast_S_S8x400x32000 : S_.BroadcastsInDim S8x400x32000 (![] : Fin 0 → Fin S8x400x32000.rank)
  bcast_S_S8x1x1 : S_.BroadcastsInDim S8x1x1 (![] : Fin 0 → Fin S8x1x1.rank)
  bcast_S_S1x400x1 : S_.BroadcastsInDim S1x400x1 (![] : Fin 0 → Fin S1x400x1.rank)
  bcast_S8x1x1_S8x400x8_0_1_2 : S8x1x1.BroadcastsInDim S8x400x8 (![0, 1, 2] : Fin 3 → Fin S8x400x8.rank)
  bcast_S1x400x1_S8x400x8_0_1_2 : S1x400x1.BroadcastsInDim S8x400x8 (![0, 1, 2] : Fin 3 → Fin S8x400x8.rank)
  bcast_S8x400x8_S8x400x8x1_0_1_2 : S8x400x8.BroadcastsInDim S8x400x8x1 (![0, 1, 2] : Fin 3 → Fin S8x400x8x1.rank)
  concatenates_S8x400x8x1_S8x400x8x1_S8x400x8x1_S8x400x8x3_d3 : Shape.Concatenates [S8x400x8x1, S8x400x8x1, S8x400x8x1] S8x400x8x3 3
  bcast_S_S8x100x1 : S_.BroadcastsInDim S8x100x1 (![] : Fin 0 → Fin S8x100x1.rank)
  dot_S8x100x512_S512x32000_S8x100x32000_2_0_01_1_n_n_wf : DotDims.WF S8x100x512 S512x32000 S8x100x32000 [2] [0] [0, 1] [1] [] []
  scatter_S8x400x32000_S8x400x8x3_S8x400x8_n_012_012_3_wf : ScatterDims.WF S8x400x32000 S8x400x8x3 S8x400x8 [] [0, 1, 2] [0, 1, 2] 3
  dot_S8x100x400_S8x400x32000_S8x100x32000_2_1_1_2_0_0_wf : DotDims.WF S8x100x400 S8x400x32000 S8x100x32000 [2] [1] [1] [2] [0] [0]

variable [Facts₀]

def dot_S8x100x512_S512x32000_S8x100x32000_2_0_01_1_n_n : DotDims S8x100x512 S512x32000 S8x100x32000 where
  lhsContracting := [2]
  rhsContracting := [0]
  lhsNonContracting := [0, 1]
  rhsNonContracting := [1]
  lhsBatch := []
  rhsBatch := []
  wf := dot_S8x100x512_S512x32000_S8x100x32000_2_0_01_1_n_n_wf
def scatter_S8x400x32000_S8x400x8x3_S8x400x8_n_012_012_3 : ScatterDims S8x400x32000 S8x400x8x3 S8x400x8 where
  updateWindowDims := []
  insertedWindowDims := [0, 1, 2]
  scatterDimsToOperandDims := [0, 1, 2]
  indexVectorDim := 3
  wf := scatter_S8x400x32000_S8x400x8x3_S8x400x8_n_012_012_3_wf
def dot_S8x100x400_S8x400x32000_S8x100x32000_2_1_1_2_0_0 : DotDims S8x100x400 S8x400x32000 S8x100x32000 where
  lhsContracting := [2]
  rhsContracting := [1]
  lhsNonContracting := [1]
  rhsNonContracting := [2]
  lhsBatch := [0]
  rhsBatch := [0]
  wf := dot_S8x100x400_S8x400x32000_S8x100x32000_2_1_1_2_0_0_wf

class Facts : Prop extends Facts₀ where

variable [Facts]
-- ==== Proof.R0Runs.lean ====
import proofs.«429191_j17652315587030_3_alg».proof.Proof.Gen.KernelIdeal.Launch
import proofs.«429191_j17652315587030_3_alg».proof.Proof.Gen.KernelIdeal.Skeleton
import proofs.«429191_j17652315587030_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (exponentials and their running row sums) on any staging memrefs, case by case

The body branches twice on the second grid coordinate: at its first value it zeroes the row-sum scratch before
accumulating, at its last value it copies the scratch into the row-sum output. Three combinations occur on the grid
(first, middle, last); in each the body's stores are found by running it. -/

/-- "The second coordinate is 0": the scratch is zeroed first. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)
/-- "The second coordinate is 24": the scratch is copied out. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-- The three inputs and the exponentials' output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The row-sum output is idle, and not written back, except at the last value of the second coordinate. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point t, as the pipeline passes it, and its wholeness. -/
abbrev ms0_0 (t : Fin cfg0.N) : Memref sig .tc .vmem S400x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x1 .f32 := win0_4.stage (cfg0.slots t 4)
abbrev hs0_4 (t : Fin cfg0.N) : (ms0_4 t).IsWhole := hstage0_4 ((cfg0.slots t 4).cast nbuf0_4)
/-- The row-sum scratch: a whole scoped buffer of the kernel's own. -/
abbrev scM0 : Memref sig .tc .vmem S400x1 .f32 := Memref.whole cc0_scratch0
/-- Views through which the outputs' and the scratch's contents are stated. -/
abbrev VO0_3 : View sig .tc .vmem S400x1280 .f32 := (Memref.whole cc0_stg3_0 : Memref sig .tc .vmem S400x1280 .f32).view
abbrev VO0_4 : View sig .tc .vmem S400x1 .f32 := (Memref.whole cc0_stg4_0 : Memref sig .tc .vmem S400x1 .f32).view
abbrev VS0 : View sig .tc .vmem S400x1 .f32 := scM0.view

set_option maxHeartbeats 2000000 in
/-- FIRST value of the second coordinate: the scratch (at anything) is zeroed, the exponentials are stored, their row
    sums are added to the scratch; the row-sum output is not touched. The stores are what the run finds. -/
noncomputable def kernelRun0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i)
    (x0 : Vec F S400x512 .f32) (x1 : Vec F S512x1280 .f32) (x2 : Vec F S1x1280 .f32) :
    Σ' (L3 : List (View.Piece (Elt F) S400x1280 .f32)), { LS : List (View.Piece (Elt F) S400x1 .f32) //
      ∀ (X4 : sProp 𝕄) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ X4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ X4 ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, fun X4 E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, H4, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    iexists _; iexact HS

set_option maxHeartbeats 2000000 in
/-- A MIDDLE value of the second coordinate: the exponentials are stored and their row sums added to the scratch, which
    holds what the point before left; the row-sum output is not touched. -/
noncomputable def kernelRun0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i)
    (x0 : Vec F S400x512 .f32) (x1 : Vec F S512x1280 .f32) (x2 : Vec F S1x1280 .f32) (xs : Vec F S400x1 .f32) :
    Σ' (L3 : List (View.Piece (Elt F) S400x1280 .f32)), { LS : List (View.Piece (Elt F) S400x1 .f32) //
      ∀ (X4 : sProp 𝕄) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ X4 ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ X4 ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, fun X4 E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, H4, ⟨%fs, %hfs, HS⟩, Hk⟩
    obtain rfl := harg2.eq_unread hf0; obtain rfl := harg3.eq_unread hf1; obtain rfl := harg4.eq_unread hf2
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    iexists _; iexact HS

set_option maxHeartbeats 2000000 in
/-- The LAST value of the second coordinate: as in the middle, and then the scratch is copied into the row-sum output. -/
noncomputable def kernelRun0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i)
    (x0 : Vec F S400x512 .f32) (x1 : Vec F S512x1280 .f32) (x2 : Vec F S1x1280 .f32) (xs : Vec F S400x1 .f32) :
    Σ' (L3 : List (View.Piece (Elt F) S400x1280 .f32)) (L4 : List (View.Piece (Elt F) S400x1 .f32)), { LS : List (View.Piece (Elt F) S400x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, ?_, fun E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.KernelIdeal.Hand

end
-- ==== Proof.R0Body.lean ====
import proofs.«429191_j17652315587030_3_alg».proof.Proof.Gen.KernelIdeal.Launch
import proofs.«429191_j17652315587030_3_alg».proof.Proof.Gen.KernelIdeal.Skeleton
import proofs.«429191_j17652315587030_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: what its buffers hold point by point, its proof data and its body obligation

Stated at a parameter V: the TensorCore's buffer contents when the region is entered. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

theorem cover0_A_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) (y : S400x1280.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S400x1280.size (by sl_kernel_rfl) y
def out0_A_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) : Vec F S400x1280 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem scover0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) (y : S400x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S400x1.size (by sl_kernel_rfl) y
def sout0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) : Vec F S400x1 .f32 :=
  VS0.read (Elt F) (VS0.writes (Elt F) VS0.junk (kernelRun0_A c i arg2 harg2 arg3 harg3 arg4 harg4 arg5 harg5 arg6 harg6 arg7 harg7 hc0 hc1 x0 x1 x2).2.1)

theorem cover0_B_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) (y : S400x1280.Idx) :
    ∃ pc ∈ (kernelRun0_B c i arg2 harg2 arg3 harg3 arg4 harg4 arg5 harg5 arg6 harg6 arg7 harg7 hc0 hc1 x0 x1 x2 xs).1, y ∈ pc.1.set :=
  View.cover_of_tiledL (kernelRun0_B c i arg2 harg2 arg3 harg3 arg4 harg4 arg5 harg5 arg6 harg6 arg7 harg7 hc0 hc1 x0 x1 x2 xs).1 S400x1280.size (by sl_kernel_rfl) y
def out0_B_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) : Vec F S400x1280 .f32 :=
  VO0_3.read (Elt F) (VO0_3.writes (Elt F) VO0_3.junk (kernelRun0_B c i arg2 harg2 arg3 harg3 arg4 harg4 arg5 harg5 arg6 harg6 arg7 harg7 hc0 hc1 x0 x1 x2 xs).1)
theorem scover0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) (y : S400x1.Idx) :
    ∃ pc ∈ (kernelRun0_B c i arg2 harg2 arg3 harg3 arg4 harg4 arg5 harg5 arg6 harg6 arg7 harg7 hc0 hc1 x0 x1 x2 xs).2.1, y ∈ pc.1.set :=
  View.cover_of_tiledL (kernelRun0_B c i arg2 harg2 arg3 harg3 arg4 harg4 arg5 harg5 arg6 harg6 arg7 harg7 hc0 hc1 x0 x1 x2 xs).2.1 S400x1.size (by sl_kernel_rfl) y
def sout0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) : Vec F S400x1 .f32 :=
  VS0.read (Elt F) (VS0.writes (Elt F) VS0.junk (kernelRun0_B c i arg2 harg2 arg3 harg3 arg4 harg4 arg5 harg5 arg6 harg6 arg7 harg7 hc0 hc1 x0 x1 x2 xs).2.1)

theorem cover0_C_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1280.Idx) :
    ∃ pc ∈ (kernelRun0_C c i arg2 harg2 arg3 harg3 arg4 harg4 arg5 harg5 arg6 harg6 arg7 harg7 hc0 hc1 x0 x1 x2 xs).1, y ∈ pc.1.set :=
  View.cover_of_tiledL (kernelRun0_C c i arg2 harg2 arg3 harg3 arg4 harg4 arg5 harg5 arg6 harg6 arg7 harg7 hc0 hc1 x0 x1 x2 xs).1 S400x1280.size (by sl_kernel_rfl) y
def out0_C_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1280 .f32 :=
  VO0_3.read (Elt F) (VO0_3.writes (Elt F) VO0_3.junk (kernelRun0_C c i arg2 harg2 arg3 harg3 arg4 harg4 arg5 harg5 arg6 harg6 arg7 harg7 hc0 hc1 x0 x1 x2 xs).1)
theorem cover0_C_4 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1.Idx) :
    ∃ pc ∈ (kernelRun0_C c i arg2 harg2 arg3 harg3 arg4 harg4 arg5 harg5 arg6 harg6 arg7 harg7 hc0 hc1 x0 x1 x2 xs).2.1, y ∈ pc.1.set :=
  View.cover_of_tiledL (kernelRun0_C c i arg2 harg2 arg3 harg3 arg4 harg4 arg5 harg5 arg6 harg6 arg7 harg7 hc0 hc1 x0 x1 x2 xs).2.1 S400x1.size (by sl_kernel_rfl) y
def out0_C_4 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1 .f32 :=
  VO0_4.read (Elt F) (VO0_4.writes (Elt F) VO0_4.junk (kernelRun0_C c i arg2 harg2 arg3 harg3 arg4 harg4 arg5 harg5 arg6 harg6 arg7 harg7 hc0 hc1 x0 x1 x2 xs).2.1)
theorem scover0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1.Idx) :
    ∃ pc ∈ (kernelRun0_C c i arg2 harg2 arg3 harg3 arg4 harg4 arg5 harg5 arg6 harg6 arg7 harg7 hc0 hc1 x0 x1 x2 xs).2.2.1, y ∈ pc.1.set :=
  View.cover_of_tiledL (kernelRun0_C c i arg2 harg2 arg3 harg3 arg4 harg4 arg5 harg5 arg6 harg6 arg7 harg7 hc0 hc1 x0 x1 x2 xs).2.2.1 S400x1.size (by sl_kernel_rfl) y
def sout0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1 .f32 :=
  VS0.read (Elt F) (VS0.writes (Elt F) VS0.junk (kernelRun0_C c i arg2 harg2 arg3 harg3 arg4 harg4 arg5 harg5 arg6 harg6 arg7 harg7 hc0 hc1 x0 x1 x2 xs).2.2.1)

/-! ## What the buffers hold after each point -/

/-- After the body at position n: the exponentials' staging buffer, the row-sum output's staging buffer (only consulted
    at the last value of the second coordinate; elsewhere a placeholder) and the row-sum scratch, which every case but
    the first computes from what the point before left in it. -/
def outsAt0 (c : Dev nD) : (n : ℕ) → n < cfg0.N → Vec F S400x1280 .f32 × Vec F S400x1 .f32 × Vec F S400x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core other than this kernel's staging buffers and its scratch, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant with the scratch as a memref owned at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

/-- Before position n: at the very start the class's invariant (the scratch at anything); afterwards the scratch at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ Rest0 c) ∗ (∃ r, prngReg c r)) := by
  cases n with
  | zero => exact absurd rfl hz
  | succ n => rfl

/-! ## The proof data -/

/-- The arrays as the region finds them; after the body at point t each input's buffer at its block and the outputs'
    at outsAt0's components; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.R0Obl.lean ====
import proofs.«429191_j17652315587030_3_alg».proof.Proof.Gen.KernelIdeal.Launch
import proofs.«429191_j17652315587030_3_alg».proof.Proof.Gen.KernelIdeal.Skeleton
import proofs.«429191_j17652315587030_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.R0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation, at a generic point -/

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the point's position in its row of 25 says which case
    it is in; the invariant hands the body the scratch at what the point before left (at anything at the very first
    point) and takes it back at this point's contents; the row-sum output's buffer is handed back untouched except in
    the last case; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 25 = 0
  · have h1 : ¬t.val % 25 = 24 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold out0_A_3 sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, H4⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_A _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 _ _ _ _ _ _ _ _ _ _ _ _ _ _ _ _ _ _ _)
      iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_A _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 _ _ _ _ _ _ _ _ _ _ _ _ _ _ _ _ _ _ _)
      iexact H4
  · have hz : t.val ≠ 0 := fun e => h0 (by rw [e])
    by_cases h1 : t.val % 25 = 24
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 _ _ _ _ _ _ _ _ _ _ _ _ _ _ _ _ _ _ _ _)
      unfold owns; iexists _; isplitr
      swap; · iexact H4
      ipureintro; exact View.read_writes_of_cover _ _ _ _ _ (cover0_C_4 _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_B _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 _ _ _ _ _ _ _ _ _ _ _ _ _ _ _ _ _ _ _ _)
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.R1Body.lean ====
import proofs.«429191_j17652315587030_3_alg».proof.Proof.Gen.KernelIdeal.Launch
import proofs.«429191_j17652315587030_3_alg».proof.Proof.Gen.KernelIdeal.Skeleton
import proofs.«429191_j17652315587030_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the blend and its logarithm): its run, its proof data and its body obligation

The body has no branch and keeps nothing between points: it loads its seven input blocks and stores the output block
once. Its proof data are stated at a parameter V: the TensorCore's buffer contents when the region is entered. -/

abbrev ms1_0 (t : Fin cfg1.N) : Memref sig .tc .vmem S1x100x1280 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x100x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x100x400 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x100x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x400x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x400x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x400x8 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x100x1280 .f32 := win1_7.stage (cfg1.slots t 7)
abbrev hs1_7 (t : Fin cfg1.N) : (ms1_7 t).IsWhole := hstage1_7 ((cfg1.slots t 7).cast nbuf1_7)
/-- A view through which the output's contents are stated. -/
abbrev VO1_7 : View sig .tc .vmem S1x100x1280 .f32 := (Memref.whole cc1_stg7_0 : Memref sig .tc .vmem S1x100x1280 .f32).view

/-- No window of this kernel is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel

set_option maxHeartbeats 2000000 in
/-- The body on whole staging memrefs, the inputs' at their contents and the output's at anything, runs to the
    continuation holding the inputs' as they were and the output's with the body's one store written: the store is
    what the run finds. -/
noncomputable def kernelRun1 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole)
    (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) :
    { L : List (View.Piece (Elt F) S1x100x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc1__blend_kernel i arg2 harg2 arg3 harg3 arg4 harg4 arg5 harg5 arg6 harg6 arg7 harg7 arg8 harg8 arg9 harg9) K } := by
  refine ⟨?_, fun E K => ?run⟩
  case run =>
    simp only [cc1__blend_kernel_eq_skeleton]; unfold cc1__blend_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

theorem cover1_7 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole) (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) (y : S1x100x1280.Idx) :
    ∃ pc ∈ (kernelRun1 c i arg2 harg2 arg3 harg3 arg4 harg4 arg5 harg5 arg6 harg6 arg7 harg7 arg8 harg8 arg9 harg9 x0 x1 x2 x3 x4 x5 x6).1, y ∈ pc.1.set :=
  View.cover_of_tiledL (kernelRun1 c i arg2 harg2 arg3 harg3 arg4 harg4 arg5 harg5 arg6 harg6 arg7 harg7 arg8 harg8 arg9 harg9 x0 x1 x2 x3 x4 x5 x6).1 S1x100x1280.size (by sl_kernel_rfl) y
/-- What the body leaves in the output's staging buffer: its store read back. -/
def out1_7 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole) (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) : Vec F S1x100x1280 .f32 :=
  VO1_7.read (Elt F) (VO1_7.writes (Elt F) VO1_7.junk (kernelRun1 c i arg2 harg2 arg3 harg3 arg4 harg4 arg5 harg5 arg6 harg6 arg7 harg7 arg8 harg8 arg9 harg9 x0 x1 x2 x3 x4 x5 x6).1)

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output block point t stores. -/
def outAt1 (c : Dev nD) (t : Fin cfg1.N) : Vec F S1x100x1280 .f32 :=
  out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-- The arrays as the region finds them; after the body each input's buffer at its block and the output's at the stored
    block; the class's invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks, so the run applies; the invariant and the core's
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outAt1 out1_7 owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«429191_j17652315587030_3_alg».proof.Proof.Gen.KernelIdeal.Launch
import proofs.«429191_j17652315587030_3_alg».proof.Proof.Gen.KernelIdeal.Skeleton
import proofs.«429191_j17652315587030_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.Gen.KernelIdeal.Regions
import proofs.«429191_j17652315587030_3_alg».proof.Proof.R0Obl
import proofs.«429191_j17652315587030_3_alg».proof.Proof.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments (two reshapes, the first kernel's region, two reshapes, the second kernel's region)
from the launch to the return, with the contents of every unscoped buffer named at each boundary -/

variable (m : (ℓ : Loc nD τ sig) → Buf (Elt F) ℓ) (ρ : Dev nD → PrngReg)

/-- Core c's buffers at launch. -/
abbrev B0 : Dev nD → Valuation τ sig (Elt F) := fun c b => m (c, b)
/-- After the first two reshapes (the first region's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- After the next two reshapes (the second region's entry). -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b
/-- At the second region's exit. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-! ## The arguments end as launched: no reshape and no region writes one -/

theorem B4_main_arg0 (c : Dev nD) : B4 m c (Proc.devRef .tc main_arg0) = m ((c : Thread nD τ).loc main_arg0) :=
  calc B4 m c (Proc.devRef .tc main_arg0) = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1) = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 1).trans (((dat0 (U1 m) c).arrAt_in 1 rfl _).trans (A_eq0 (U1 m) c 1))
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2) = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3) = B3 m c (Proc.devRef .tc main_arg3) := (B4_arr m c 2).trans (((dat1 (U3 m) c).arrAt_in 2 rfl _).trans (A_eq1 (U3 m) c 2))
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4) = B3 m c (Proc.devRef .tc main_arg4) := (B4_arr m c 3).trans (((dat1 (U3 m) c).arrAt_in 3 rfl _).trans (A_eq1 (U3 m) c 3))
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5) = B3 m c (Proc.devRef .tc main_arg5) := (B4_arr m c 4).trans (((dat1 (U3 m) c).arrAt_in 4 rfl _).trans (A_eq1 (U3 m) c 4))
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6) = B3 m c (Proc.devRef .tc main_arg6) := (B4_arr m c 5).trans (((dat1 (U3 m) c).arrAt_in 5 rfl _).trans (A_eq1 (U3 m) c 5))
    _ = B2 m c (Proc.devRef .tc main_arg6) := StableHlo.after_of_writes_sub hostOps1 _ hostOps1_writes (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7) = B3 m c (Proc.devRef .tc main_arg7) := (B4_arr m c 6).trans (((dat1 (U3 m) c).arrAt_in 6 rfl _).trans (A_eq1 (U3 m) c 6))
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl

/-- The result's buffer ends at what the second region's write-backs leave. -/
theorem B4_main_v5 (c : Dev nD) : B4 m c (Proc.devRef .tc main_v5) = (dat1 (U3 m) c).arrAt 7 cfg1.N := B4_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B4 m c) ∗ ∃ r, prngReg c r)

set_option backward.isDefEq.respectTransparency.types false in
/-- The first kernel's region over the thread state: entered from every unscoped buffer at the boundary's contents, left
    at the next boundary's; its arrays split out of the unscoped buffers and put back at what the pipeline leaves; the
    generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at the boundary's contents, left
    at the next boundary's; its arrays split out of the unscoped buffers and put back at what the pipeline leaves; the
    generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and in every final state each unscoped buffer holds what the fold through the four
    segments names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The same with the nine buffers the claims read: the result at what the second region's write-backs leave, each
    argument as launched. -/
theorem run_main : θ_run defs (onTc (τ := τ) (main (F := F))) ⟨m, fun _ => 0, ρ⟩ (fun r => ∀ c : Dev nD,
      r.2.mem ((c.tc : Thread nD τ).loc main_v5) = (dat1 (U3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v5 (by decide))).trans (B4_main_v5 m c),
    (h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.BitsR0Runs.lean ====
import proofs.«429191_j17652315587030_3_alg».proof.Proof.Gen.Kernel.Launch
import proofs.«429191_j17652315587030_3_alg».proof.Proof.Gen.Kernel.Skeleton
import proofs.«429191_j17652315587030_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (exponentials and their running row sums) on any staging memrefs, case by case

The body branches twice on the second grid coordinate: at its first value it zeroes the row-sum scratch before
accumulating, at its last value it copies the scratch into the row-sum output. Three combinations occur on the grid
(first, middle, last); in each the body's stores are found by running it. -/

/-- "The second coordinate is 0": the scratch is zeroed first. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)
/-- "The second coordinate is 24": the scratch is copied out. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-- The three inputs and the exponentials' output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The row-sum output is idle, and not written back, except at the last value of the second coordinate. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point t, as the pipeline passes it, and its wholeness. -/
abbrev ms0_0 (t : Fin cfg0.N) : Memref sig .tc .vmem S400x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x1 .f32 := win0_4.stage (cfg0.slots t 4)
abbrev hs0_4 (t : Fin cfg0.N) : (ms0_4 t).IsWhole := hstage0_4 ((cfg0.slots t 4).cast nbuf0_4)
/-- The row-sum scratch: a whole scoped buffer of the kernel's own. -/
abbrev scM0 : Memref sig .tc .vmem S400x1 .f32 := Memref.whole cc0_scratch0
/-- Views through which the outputs' and the scratch's contents are stated. -/
abbrev VO0_3 : View sig .tc .vmem S400x1280 .f32 := (Memref.whole cc0_stg3_0 : Memref sig .tc .vmem S400x1280 .f32).view
abbrev VO0_4 : View sig .tc .vmem S400x1 .f32 := (Memref.whole cc0_stg4_0 : Memref sig .tc .vmem S400x1 .f32).view
abbrev VS0 : View sig .tc .vmem S400x1 .f32 := scM0.view

set_option maxHeartbeats 2000000 in
/-- FIRST value of the second coordinate: the scratch (at anything) is zeroed, the exponentials are stored, their row
    sums are added to the scratch; the row-sum output is not touched. The stores are what the run finds. -/
noncomputable def kernelRun0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i)
    (x0 : Vec F S400x512 .f32) (x1 : Vec F S512x1280 .f32) (x2 : Vec F S1x1280 .f32) :
    Σ' (L3 : List (View.Piece (Elt F) S400x1280 .f32)), { LS : List (View.Piece (Elt F) S400x1 .f32) //
      ∀ (X4 : sProp 𝕄) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ X4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ X4 ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, fun X4 E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, H4, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    iexists _; iexact HS

set_option maxHeartbeats 2000000 in
/-- A MIDDLE value of the second coordinate: the exponentials are stored and their row sums added to the scratch, which
    holds what the point before left; the row-sum output is not touched. -/
noncomputable def kernelRun0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i)
    (x0 : Vec F S400x512 .f32) (x1 : Vec F S512x1280 .f32) (x2 : Vec F S1x1280 .f32) (xs : Vec F S400x1 .f32) :
    Σ' (L3 : List (View.Piece (Elt F) S400x1280 .f32)), { LS : List (View.Piece (Elt F) S400x1 .f32) //
      ∀ (X4 : sProp 𝕄) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ X4 ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ X4 ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, fun X4 E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, H4, ⟨%fs, %hfs, HS⟩, Hk⟩
    obtain rfl := harg2.eq_unread hf0; obtain rfl := harg3.eq_unread hf1; obtain rfl := harg4.eq_unread hf2
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    iexists _; iexact HS

set_option maxHeartbeats 2000000 in
/-- The LAST value of the second coordinate: as in the middle, and then the scratch is copied into the row-sum output. -/
noncomputable def kernelRun0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i)
    (x0 : Vec F S400x512 .f32) (x1 : Vec F S512x1280 .f32) (x2 : Vec F S1x1280 .f32) (xs : Vec F S400x1 .f32) :
    Σ' (L3 : List (View.Piece (Elt F) S400x1280 .f32)) (L4 : List (View.Piece (Elt F) S400x1 .f32)), { LS : List (View.Piece (Elt F) S400x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__gen_kernel i arg2 harg2 arg3 harg3 arg4 harg4 arg5 harg5 arg6 harg6 arg7 harg7) K } := by
  refine ⟨?_, ?_, ?_, fun E K => ?run⟩
  case run =>
    simp only [cc0__gen_kernel_eq_skeleton]; unfold cc0__gen_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.Kernel.Hand

end
-- ==== Proof.BitsR0Body.lean ====
import proofs.«429191_j17652315587030_3_alg».proof.Proof.Gen.Kernel.Launch
import proofs.«429191_j17652315587030_3_alg».proof.Proof.Gen.Kernel.Skeleton
import proofs.«429191_j17652315587030_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.BitsR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: what its buffers hold point by point, its proof data and its body obligation

Stated at a parameter V: the TensorCore's buffer contents when the region is entered. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

theorem cover0_A_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) (y : S400x1280.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S400x1280.size (by sl_kernel_rfl) y
def out0_A_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) : Vec F S400x1280 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem scover0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) (y : S400x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S400x1.size (by sl_kernel_rfl) y
def sout0_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i) (x0 : Vec F S400x512 .f32) (x1 : Vec F S512x1280 .f32) (x2 : Vec F S1x1280 .f32) : Vec F S400x1 .f32 :=
  VS0.read (Elt F) (VS0.writes (Elt F) VS0.junk (kernelRun0_A c i arg2 harg2 arg3 harg3 arg4 harg4 arg5 harg5 arg6 harg6 arg7 harg7 hc0 hc1 x0 x1 x2).2.1)

theorem cover0_B_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) (y : S400x1280.Idx) :
    ∃ pc ∈ (kernelRun0_B c i arg2 harg2 arg3 harg3 arg4 harg4 arg5 harg5 arg6 harg6 arg7 harg7 hc0 hc1 x0 x1 x2 xs).1, y ∈ pc.1.set :=
  View.cover_of_tiledL (kernelRun0_B c i arg2 harg2 arg3 harg3 arg4 harg4 arg5 harg5 arg6 harg6 arg7 harg7 hc0 hc1 x0 x1 x2 xs).1 S400x1280.size (by sl_kernel_rfl) y
def out0_B_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) : Vec F S400x1280 .f32 :=
  VO0_3.read (Elt F) (VO0_3.writes (Elt F) VO0_3.junk (kernelRun0_B c i arg2 harg2 arg3 harg3 arg4 harg4 arg5 harg5 arg6 harg6 arg7 harg7 hc0 hc1 x0 x1 x2 xs).1)
theorem scover0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) (y : S400x1.Idx) :
    ∃ pc ∈ (kernelRun0_B c i arg2 harg2 arg3 harg3 arg4 harg4 arg5 harg5 arg6 harg6 arg7 harg7 hc0 hc1 x0 x1 x2 xs).2.1, y ∈ pc.1.set :=
  View.cover_of_tiledL (kernelRun0_B c i arg2 harg2 arg3 harg3 arg4 harg4 arg5 harg5 arg6 harg6 arg7 harg7 hc0 hc1 x0 x1 x2 xs).2.1 S400x1.size (by sl_kernel_rfl) y
def sout0_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i) (x0 : Vec F S400x512 .f32) (x1 : Vec F S512x1280 .f32) (x2 : Vec F S1x1280 .f32) (xs : Vec F S400x1 .f32) : Vec F S400x1 .f32 :=
  VS0.read (Elt F) (VS0.writes (Elt F) VS0.junk (kernelRun0_B c i arg2 harg2 arg3 harg3 arg4 harg4 arg5 harg5 arg6 harg6 arg7 harg7 hc0 hc1 x0 x1 x2 xs).2.1)

theorem cover0_C_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1280.Idx) :
    ∃ pc ∈ (kernelRun0_C c i arg2 harg2 arg3 harg3 arg4 harg4 arg5 harg5 arg6 harg6 arg7 harg7 hc0 hc1 x0 x1 x2 xs).1, y ∈ pc.1.set :=
  View.cover_of_tiledL (kernelRun0_C c i arg2 harg2 arg3 harg3 arg4 harg4 arg5 harg5 arg6 harg6 arg7 harg7 hc0 hc1 x0 x1 x2 xs).1 S400x1280.size (by sl_kernel_rfl) y
def out0_C_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1280 .f32 :=
  VO0_3.read (Elt F) (VO0_3.writes (Elt F) VO0_3.junk (kernelRun0_C c i arg2 harg2 arg3 harg3 arg4 harg4 arg5 harg5 arg6 harg6 arg7 harg7 hc0 hc1 x0 x1 x2 xs).1)
theorem cover0_C_4 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1.Idx) :
    ∃ pc ∈ (kernelRun0_C c i arg2 harg2 arg3 harg3 arg4 harg4 arg5 harg5 arg6 harg6 arg7 harg7 hc0 hc1 x0 x1 x2 xs).2.1, y ∈ pc.1.set :=
  View.cover_of_tiledL (kernelRun0_C c i arg2 harg2 arg3 harg3 arg4 harg4 arg5 harg5 arg6 harg6 arg7 harg7 hc0 hc1 x0 x1 x2 xs).2.1 S400x1.size (by sl_kernel_rfl) y
def out0_C_4 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1 .f32 :=
  VO0_4.read (Elt F) (VO0_4.writes (Elt F) VO0_4.junk (kernelRun0_C c i arg2 harg2 arg3 harg3 arg4 harg4 arg5 harg5 arg6 harg6 arg7 harg7 hc0 hc1 x0 x1 x2 xs).2.1)
theorem scover0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) (y : S400x1.Idx) :
    ∃ pc ∈ (kernelRun0_C c i arg2 harg2 arg3 harg3 arg4 harg4 arg5 harg5 arg6 harg6 arg7 harg7 hc0 hc1 x0 x1 x2 xs).2.2.1, y ∈ pc.1.set :=
  View.cover_of_tiledL (kernelRun0_C c i arg2 harg2 arg3 harg3 arg4 harg4 arg5 harg5 arg6 harg6 arg7 harg7 hc0 hc1 x0 x1 x2 xs).2.2.1 S400x1.size (by sl_kernel_rfl) y
def sout0_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i) (x0 : Vec F S400x512 .f32) (x1 : Vec F S512x1280 .f32) (x2 : Vec F S1x1280 .f32) (xs : Vec F S400x1 .f32) : Vec F S400x1 .f32 :=
  VS0.read (Elt F) (VS0.writes (Elt F) VS0.junk (kernelRun0_C c i arg2 harg2 arg3 harg3 arg4 harg4 arg5 harg5 arg6 harg6 arg7 harg7 hc0 hc1 x0 x1 x2 xs).2.2.1)

/-! ## What the buffers hold after each point -/

/-- After the body at position n: the exponentials' staging buffer, the row-sum output's staging buffer (only consulted
    at the last value of the second coordinate; elsewhere a placeholder) and the row-sum scratch, which every case but
    the first computes from what the point before left in it. -/
def outsAt0 (c : Dev nD) : (n : ℕ) → n < cfg0.N → Vec F S400x1280 .f32 × Vec F S400x1 .f32 × Vec F S400x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core other than this kernel's staging buffers and its scratch, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class's invariant with the scratch as a memref owned at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

/-- Before position n: at the very start the class's invariant (the scratch at anything); afterwards the scratch at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ Rest0 c) ∗ (∃ r, prngReg c r)) := by
  cases n with
  | zero => exact absurd rfl hz
  | succ n => rfl

/-! ## The proof data -/

/-- The arrays as the region finds them; after the body at point t each input's buffer at its block and the outputs'
    at outsAt0's components; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.BitsR0Obl.lean ====
import proofs.«429191_j17652315587030_3_alg».proof.Proof.Gen.Kernel.Launch
import proofs.«429191_j17652315587030_3_alg».proof.Proof.Gen.Kernel.Skeleton
import proofs.«429191_j17652315587030_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.BitsR0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation, at a generic point -/

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the point's position in its row of 25 says which case
    it is in; the invariant hands the body the scratch at what the point before left (at anything at the very first
    point) and takes it back at this point's contents; the row-sum output's buffer is handed back untouched except in
    the last case; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 25 = 0
  · have h1 : ¬t.val % 25 = 24 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold out0_A_3 sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, H4⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_A _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 _ _ _ _ _ _ _ _ _ _ _ _ _ _ _ _ _ _ _)
      iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_A _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 _ _ _ _ _ _ _ _ _ _ _ _ _ _ _ _ _ _ _)
      iexact H4
  · have hz : t.val ≠ 0 := fun e => h0 (by rw [e])
    by_cases h1 : t.val % 25 = 24
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 _ _ _ _ _ _ _ _ _ _ _ _ _ _ _ _ _ _ _ _)
      unfold owns; iexists _; isplitr
      swap; · iexact H4
      ipureintro; exact View.read_writes_of_cover _ _ _ _ _ (cover0_C_4 _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS HR Hg]
      · isplitl [HS HR]
        · isplitl [HS]
          · unfold owns; iexists _; isplitr
            swap; · iexact HS
            ipureintro; exact View.read_writes_of_cover _ _ _ _ _ (scover0_B _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 _ _ _ _ _ _ _ _ _ _ _ _ _ _ _ _ _ _ _ _)
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.BitsR1Body.lean ====
import proofs.«429191_j17652315587030_3_alg».proof.Proof.Gen.Kernel.Launch
import proofs.«429191_j17652315587030_3_alg».proof.Proof.Gen.Kernel.Skeleton
import proofs.«429191_j17652315587030_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the blend and its logarithm): its run, its proof data and its body obligation

The body has no branch and keeps nothing between points: it loads its seven input blocks and stores the output block
once. Its proof data are stated at a parameter V: the TensorCore's buffer contents when the region is entered. -/

abbrev ms1_0 (t : Fin cfg1.N) : Memref sig .tc .vmem S1x100x1280 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x100x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x100x400 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x100x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x400x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x400x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x400x8 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x100x1280 .f32 := win1_7.stage (cfg1.slots t 7)
abbrev hs1_7 (t : Fin cfg1.N) : (ms1_7 t).IsWhole := hstage1_7 ((cfg1.slots t 7).cast nbuf1_7)
/-- A view through which the output's contents are stated. -/
abbrev VO1_7 : View sig .tc .vmem S1x100x1280 .f32 := (Memref.whole cc1_stg7_0 : Memref sig .tc .vmem S1x100x1280 .f32).view

/-- No window of this kernel is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel

set_option maxHeartbeats 2000000 in
/-- The body on whole staging memrefs, the inputs' at their contents and the output's at anything, runs to the
    continuation holding the inputs' as they were and the output's with the body's one store written: the store is
    what the run finds. -/
noncomputable def kernelRun1 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole)
    (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) :
    { L : List (View.Piece (Elt F) S1x100x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L)) -∗ K ⟨⟩))
          ⊢ wp frame (wpE (defs₀ (F := F)) Variants.none c none) E (cc1__blend_kernel i arg2 harg2 arg3 harg3 arg4 harg4 arg5 harg5 arg6 harg6 arg7 harg7 arg8 harg8 arg9 harg9) K } := by
  refine ⟨?_, fun E K => ?run⟩
  case run =>
    simp only [cc1__blend_kernel_eq_skeleton]; unfold cc1__blend_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

theorem cover1_7 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole) (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) (y : S1x100x1280.Idx) :
    ∃ pc ∈ (kernelRun1 c i arg2 harg2 arg3 harg3 arg4 harg4 arg5 harg5 arg6 harg6 arg7 harg7 arg8 harg8 arg9 harg9 x0 x1 x2 x3 x4 x5 x6).1, y ∈ pc.1.set :=
  View.cover_of_tiledL (kernelRun1 c i arg2 harg2 arg3 harg3 arg4 harg4 arg5 harg5 arg6 harg6 arg7 harg7 arg8 harg8 arg9 harg9 x0 x1 x2 x3 x4 x5 x6).1 S1x100x1280.size (by sl_kernel_rfl) y
/-- What the body leaves in the output's staging buffer: its store read back. -/
def out1_7 (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole) (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) : Vec F S1x100x1280 .f32 :=
  VO1_7.read (Elt F) (VO1_7.writes (Elt F) VO1_7.junk (kernelRun1 c i arg2 harg2 arg3 harg3 arg4 harg4 arg5 harg5 arg6 harg6 arg7 harg7 arg8 harg8 arg9 harg9 x0 x1 x2 x3 x4 x5 x6).1)

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output block point t stores. -/
def outAt1 (c : Dev nD) (t : Fin cfg1.N) : Vec F S1x100x1280 .f32 :=
  out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-- The arrays as the region finds them; after the body each input's buffer at its block and the output's at the stored
    block; the class's invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks, so the run applies; the invariant and the core's
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outAt1 out1_7 owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«429191_j17652315587030_3_alg».proof.Proof.Gen.Kernel.Launch
import proofs.«429191_j17652315587030_3_alg».proof.Proof.Gen.Kernel.Skeleton
import proofs.«429191_j17652315587030_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429191_j17652315587030_3_alg».proof.Proof.Gen.Kernel.Regions
import proofs.«429191_j17652315587030_3_alg».proof.Proof.BitsR0Obl
import proofs.«429191_j17652315587030_3_alg».proof.Proof.BitsR1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments (two reshapes, the first kernel's region, two reshapes, the second kernel's region)
from the launch to the return, with the contents of every unscoped buffer named at each boundary -/

variable (m : (ℓ : Loc nD τ sig) → Buf (Elt F) ℓ) (ρ : Dev nD → PrngReg)

/-- Core c's buffers at launch. -/
abbrev B0 : Dev nD → Valuation τ sig (Elt F) := fun c b => m (c, b)
/-- After the first two reshapes (the first region's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- After the next two reshapes (the second region's entry). -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b
/-- At the second region's exit. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-! ## The arguments end as launched: no reshape and no region writes one -/

theorem B4_main_arg0 (c : Dev nD) : B4 m c (Proc.devRef .tc main_arg0) = m ((c : Thread nD τ).loc main_arg0) :=
  calc B4 m c (Proc.devRef .tc main_arg0) = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1) = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 1).trans (((dat0 (U1 m) c).arrAt_in 1 rfl _).trans (A_eq0 (U1 m) c 1))
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2) = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3) = B3 m c (Proc.devRef .tc main_arg3) := (B4_arr m c 2).trans (((dat1 (U3 m) c).arrAt_in 2 rfl _).trans (A_eq1 (U3 m) c 2))
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4) = B3 m c (Proc.devRef .tc main_arg4) := (B4_arr m c 3).trans (((dat1 (U3 m) c).arrAt_in 3 rfl _).trans (A_eq1 (U3 m) c 3))
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5) = B3 m c (Proc.devRef .tc main_arg5) := (B4_arr m c 4).trans (((dat1 (U3 m) c).arrAt_in 4 rfl _).trans (A_eq1 (U3 m) c 4))
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6) = B3 m c (Proc.devRef .tc main_arg6) := (B4_arr m c 5).trans (((dat1 (U3 m) c).arrAt_in 5 rfl _).trans (A_eq1 (U3 m) c 5))
    _ = B2 m c (Proc.devRef .tc main_arg6) := StableHlo.after_of_writes_sub hostOps1 _ hostOps1_writes (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7) = B3 m c (Proc.devRef .tc main_arg7) := (B4_arr m c 6).trans (((dat1 (U3 m) c).arrAt_in 6 rfl _).trans (A_eq1 (U3 m) c 6))
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl

/-- The result's buffer ends at what the second region's write-backs leave. -/
theorem B4_main_v5 (c : Dev nD) : B4 m c (Proc.devRef .tc main_v5) = (dat1 (U3 m) c).arrAt 7 cfg1.N := B4_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B4 m c) ∗ ∃ r, prngReg c r)

set_option backward.isDefEq.respectTransparency.types false in
/-- The first kernel's region over the thread state: entered from every unscoped buffer at the boundary's contents, left
    at the next boundary's; its arrays split out of the unscoped buffers and put back at what the pipeline leaves; the
    generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at the boundary's contents, left
    at the next boundary's; its arrays split out of the unscoped buffers and put back at what the pipeline leaves; the
    generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- At the compiled mesh, from any memory with zero counters, every weakly fair execution of @main on the TensorCores
    terminates, nothing faulting, and in every final state each unscoped buffer holds what the fold through the four
    segments names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The same with the nine buffers the claims read: the result at what the second region's write-backs leave, each
    argument as launched. -/
theorem run_main : θ_run defs (onTc (τ := τ) (main (F := F))) ⟨m, fun _ => 0, ρ⟩ (fun r => ∀ c : Dev nD,
      r.2.mem ((c.tc : Thread nD τ).loc main_v5) = (dat1 (U3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v5 (by decide))).trans (B4_main_v5 m c),
    (h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Hand

end
-- ==== Proof.Spec.lean ====
/-
  The function both programs compute, index by index, on the extended reals.

  For a batch b, a decoder step t and a vocabulary entry v:
    logit b t v  = sum over h of dec[b,t,h] * W[h,v], plus bias[v]
    expo  b t v  = exp (logit b t v)
    total b t    = sum over all v of expo b t v                  (the softmax normaliser, unshifted)
    gate  b s k  = trans[b,s,k] if probs[b,s,k] exceeds the threshold literal, else trans[b,s,k] * 0
    copy  b s v  = sum over the eight slots k of gate b s k where idx[b,s,k] = v, and 0 elsewhere
    mix   b t v  = sum over s of weights[b,t,s] * copy b s v
    out   b t v  = log ( p[b,t] * mix b t v + (1 - p[b,t]) * (expo b t v / total b t) )
  The threshold and the one are kept as their f32 bit patterns read at the exact instance.
-/
import Idealize.ShloMosaic.PureOps.Ideal
import Idealize.ShloMosaic.Lib.ValueIdx

noncomputable section

open scoped BigOperators

namespace Cert.Spec

open Idealize.ShloMosaic Idealize.ShloMosaic.ValueIdx

abbrev SDec : Shape := ⟨3, ![8, 100, 512]⟩
abbrev SW : Shape := ⟨2, ![512, 32000]⟩
abbrev SB : Shape := ⟨1, ![32000]⟩
abbrev SWt : Shape := ⟨3, ![8, 100, 400]⟩
abbrev SP : Shape := ⟨3, ![8, 100, 1]⟩
abbrev SK : Shape := ⟨3, ![8, 400, 8]⟩
abbrev SOut : Shape := ⟨3, ![8, 100, 32000]⟩

/-- The threshold the source probabilities are compared with: the f32 nearest 0.05, exactly. -/
def thr : EReal := Ideal.ofBits .f32 0x3D4CCCCD#32
/-- The f32 one. -/
def one : EReal := Ideal.ofBits .f32 0x3F800000#32

variable (dec : SDec.Idx → EReal) (W : SW.Idx → EReal) (bias : SB.Idx → EReal) (wts : SWt.Idx → EReal)
  (p : SP.Idx → EReal) (tr : SK.Idx → EReal) (pr : SK.Idx → EReal) (idx : SK.Idx → BitVec 32)

/-- The generator's logit. -/
def logit (b : Fin 8) (t : Fin 100) (v : Fin 32000) : EReal :=
  (∑ h : Fin 512, dec (ix3 b t h) * W (ix2 h v)) + bias (ix1 v)

/-- Its exponential. -/
def expo (b : Fin 8) (t : Fin 100) (v : Fin 32000) : EReal := Ideal.exp (logit dec W bias b t v)

/-- The sum of the exponentials over the vocabulary. -/
def total (b : Fin 8) (t : Fin 100) : EReal := ∑ v : Fin 32000, expo dec W bias b t v

/-- A translation probability, kept where the source probability exceeds the threshold and multiplied by zero elsewhere. -/
def gate (b : Fin 8) (s : Fin 400) (k : Fin 8) : EReal :=
  tr (ix3 b s k) * (if thr < pr (ix3 b s k) then (1 : EReal) else 0)

/-- The copy mass source position s sends to vocabulary entry v. -/
def copy (b : Fin 8) (s : Fin 400) (v : Fin 32000) : EReal :=
  ∑ k : Fin 8, if (idx (ix3 b s k)).toInt = (v.val : ℤ) then gate tr pr b s k else 0

/-- The copy distribution blended through the attention weights. -/
def mix (b : Fin 8) (t : Fin 100) (v : Fin 32000) : EReal :=
  ∑ s : Fin 400, wts (ix3 b t s) * copy tr pr idx b s v

/-- The result at batch b, step t, vocabulary entry v. -/
def out (b : Fin 8) (t : Fin 100) (v : Fin 32000) : EReal :=
  Ideal.log (p (ix3 b t 0) * mix wts tr pr idx b t v
    + (one - p (ix3 b t 0)) * Ideal.div (expo dec W bias b t v) (total dec W bias b t))

/-- The whole result array. -/
def G : SOut.Idx → EReal := fun i => out dec W bias wts p tr pr idx (i 0) (i 1) (i 2)

end Cert.Spec

end
-- ==== Proof.RefSoftmax.lean ====
/-
  The reference's softmax against the specification's unshifted quotient.

  The reference computes, for a batch b, a step t and a vocabulary entry v, with L v the logit,
    M = max (-∞) (the maximum over v of L v)         and        exp (L v - M) / (0 + ∑ v', exp (L v' - M)).
  The specification has exp (L v) / ∑ v', exp (L v'). When every input is a real number every logit is a
  real number, so M is one too (the maximum of finitely many reals over a nonempty range), and
  exp (l - μ) = exp l / exp μ: the common factor exp μ cancels between numerator and denominator.
-/
import proofs.«429191_j17652315587030_3_alg».proof.Proof.Gen.ReferenceIdeal.Read
import proofs.«429191_j17652315587030_3_alg».proof.Proof.Spec
import Idealize.ShloMosaic.PureOps.Reduce
import Idealize.ShloMosaic.PureOps.Ideal.Laws

noncomputable section

open scoped BigOperators

namespace Cert.RefSoftmax

open Cert.ReferenceIdeal Cert.ReferenceIdeal.Gen Cert.ReferenceIdeal.Read Idealize.ShloMosaic Idealize.ShloMosaic.ValueIdx

/-! ## Extended reals that are reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a : ℝ) {y : ℝ} (h : y ≠ 0) : Ideal.div (a : EReal) (y : EReal) = ((a / y : ℝ) : EReal) := by
  rw [Ideal.div_coe h, ← EReal.coe_mul, mul_one_div]

/-- The maximum, from -∞, of finitely many reals over a nonempty range is a real. -/
theorem fold_max_real {ι : Type*} (g : ι → ℝ) (s : Finset ι) (hs : s.Nonempty) :
    ∃ mu : ℝ, s.fold max (⊥ : EReal) (fun k => (g k : EReal)) = (mu : EReal) := by
  classical
  induction hs using Finset.Nonempty.cons_induction with
  | singleton a => exact ⟨g a, by simp⟩
  | cons a s ha hs ih =>
    obtain ⟨mu, hmu⟩ := ih
    refine ⟨max (g a) mu, ?_⟩
    rw [Finset.fold_cons, hmu]
    exact (EReal.coe_strictMono.monotone.map_max).symm

/-- THE CANCELLATION: shifting every exponent by one real leaves the normalised exponential unchanged. -/
theorem softmax_shift {ι : Type*} [Fintype ι] [Nonempty ι] (l : ι → ℝ) (mu : ℝ) (v : ι) :
    Ideal.div (Ideal.exp ((l v : EReal) - (mu : EReal))) (0 + ∑ k, Ideal.exp ((l k : EReal) - (mu : EReal)))
      = Ideal.div (Ideal.exp (l v : EReal)) (∑ k, Ideal.exp (l k : EReal)) := by
  have hpos : ∀ g : ι → ℝ, (0 : ℝ) < ∑ k, Real.exp (g k) := fun g =>
    Finset.sum_pos (fun k _ => Real.exp_pos _) Finset.univ_nonempty
  have e1 : ∀ k, Ideal.exp ((l k : EReal) - (mu : EReal)) = ((Real.exp (l k - mu) : ℝ) : EReal) := fun k => by
    rw [← EReal.coe_sub, Ideal.exp_coe]
  have e2 : ∀ k, Ideal.exp (l k : EReal) = ((Real.exp (l k) : ℝ) : EReal) := fun k => Ideal.exp_coe _
  simp only [e1, e2]
  rw [zero_add, ← coe_sum, ← coe_sum, div_coe_coe _ (hpos _).ne', div_coe_coe _ (hpos _).ne']
  refine congrArg _ ?_
  simp only [Real.exp_sub]
  rw [← Finset.sum_div, div_div_div_cancel_right₀ (Real.exp_pos mu).ne']

/-! ## The two literals -/

/-- The f32 pattern FF800000 is -∞. -/
theorem negInf_bits : Ideal.ofBits .f32 0xFF800000#32 = (⊥ : EReal) := by
  simp [Ideal.ofBits, Ideal.ieee]

/-- The f32 pattern 00000000 is zero. -/
theorem zero_bits : Ideal.ofBits .f32 0x00000000#32 = (0 : EReal) := by
  simp [Ideal.ofBits, Ideal.ieee]

/-! ## The logit -/

section
variable (x0 : (⟨S8x100x512, .f32⟩ : BufTy).Contents (Elt Ideal)) (x1 : (⟨S512x32000, .f32⟩ : BufTy).Contents (Elt Ideal))
  (x2 : (⟨S32000, .f32⟩ : BufTy).Contents (Elt Ideal))

/-- The reference's sum of the product and the broadcast bias, at (b, t, v), is the specification's logit. -/
theorem v3_eq_logit (b : Fin 8) (t : Fin 100) (v : Fin 32000) :
    val_main_v3 (F := Ideal) x0 x1 x2 (ix3 b t v) = Cert.Spec.logit x0 x1 x2 b t v := by
  rw [val_main_v3_apply, val_main_v0_apply, val_main_v2_apply, val_main_v1_apply]
  have el : ∀ k : Fin 512, lidx_main_v0 (ix3 b t v) k = ix3 b t k := fun k => funext fun a => by
    match a with
    | ⟨0, _⟩ => rfl
    | ⟨1, _⟩ => rfl
    | ⟨2, _⟩ => rfl
  have er : ∀ k : Fin 512, ridx_main_v0 (ix3 b t v) k = ix2 k v := fun k => funext fun a => by
    match a with
    | ⟨0, _⟩ => rfl
    | ⟨1, _⟩ => rfl
  have eb : idx_main_v1 (idx_main_v2 (ix3 b t v)) = ix1 v := funext fun a => by
    match a with
    | ⟨0, _⟩ => rfl
  simp only [el, er, eb]
  rfl

/-- With real inputs the logit is a real number. -/
theorem logit_real (h0 : ∀ i, ∃ r : ℝ, x0 i = (r : EReal)) (h1 : ∀ i, ∃ r : ℝ, x1 i = (r : EReal))
    (h2 : ∀ i, ∃ r : ℝ, x2 i = (r : EReal)) (b : Fin 8) (t : Fin 100) (v : Fin 32000) :
    ∃ r : ℝ, Cert.Spec.logit x0 x1 x2 b t v = (r : EReal) := by
  choose r0 hr0 using h0
  choose r1 hr1 using h1
  choose r2 hr2 using h2
  refine ⟨(∑ h : Fin 512, r0 (ix3 b t h) * r1 (ix2 h v)) + r2 (ix1 v), ?_⟩
  unfold Cert.Spec.logit
  simp only [hr0, hr1, hr2]
  rw [EReal.coe_add, coe_sum]
  simp only [EReal.coe_mul]

end

/-! ## The maximum -/

section
variable (x0 : (⟨S8x100x512, .f32⟩ : BufTy).Contents (Elt Ideal)) (x1 : (⟨S512x32000, .f32⟩ : BufTy).Contents (Elt Ideal))
  (x2 : (⟨S32000, .f32⟩ : BufTy).Contents (Elt Ideal))

/-- The fold of the maximum from -∞ along the vocabulary axis of an array of reals is, at every (b, t), a real. -/
theorem reduce_max_real (g : S8x100x32000.Idx → ℝ) (j : S8x100.Idx) :
    ∃ mu : ℝ, Host.reduce (FloatOps.maximumf (F := Ideal) (φ := .f32)) (fun i => (g i : EReal))
      (val_main_cst (F := Ideal)) reducesTo_S8x100x32000_S8x100_d2 h_S_ j = (mu : EReal) := by
  have hR : S8x100x32000.Reduces [2] S8x100 := by decide
  obtain ⟨mu, hmu⟩ := fold_max_real (fun k : Fin (S8x100x32000.size 2) => g (hR.lift j k)) Finset.univ
    ⟨⟨0, by decide⟩, Finset.mem_univ _⟩
  refine ⟨mu, ?_⟩
  rw [Host.reduce_eq_fold_single (FloatOps.maximumf (F := Ideal) (φ := .f32)) _ _ reducesTo_S8x100x32000_S8x100_d2 hR h_S_]
  rw [val_main_cst_apply]
  refine Eq.trans ?_ hmu
  show Finset.fold max (Ideal.ofBits .f32 0xFF800000#32) _ _ = _
  rw [negInf_bits]
  rfl

/-- With real inputs the reference's row maximum is a real number. -/
theorem v6_real (h0 : ∀ i, ∃ r : ℝ, x0 i = (r : EReal)) (h1 : ∀ i, ∃ r : ℝ, x1 i = (r : EReal))
    (h2 : ∀ i, ∃ r : ℝ, x2 i = (r : EReal)) (b : Fin 8) (t : Fin 100) :
    ∃ mu : ℝ, val_main_v6 (F := Ideal) x0 x1 x2 (ix2 b t) = (mu : EReal) := by
  have hx : ∀ i, ∃ r : ℝ, val_main_v3 (F := Ideal) x0 x1 x2 i = (r : EReal) := fun i => by
    obtain ⟨b, t, v, rfl⟩ : ∃ b t v, i = ix3 b t v := ⟨i 0, i 1, i 2, eq_ix3 i⟩
    rw [v3_eq_logit]
    exact logit_real x0 x1 x2 h0 h1 h2 b t v
  choose g hg using hx
  rw [val_main_v6_apply, val_main_v5_apply, val_main_cst_0_apply]
  unfold val_main_v4
  have hy : val_main_v3 (F := Ideal) x0 x1 x2 = fun i => (g i : EReal) := funext hg
  rw [hy]
  obtain ⟨mu, hmu⟩ := reduce_max_real g (ix2 b t)
  refine ⟨mu, ?_⟩
  rw [hmu]
  show max (Ideal.ofBits .f32 0xFF800000#32) (mu : EReal) = _
  rw [negInf_bits, max_eq_right bot_le]

/-! ## The quotient -/

/-- THE REFERENCE'S SOFTMAX IS THE SPECIFICATION'S QUOTIENT, at every (b, t, v), when the inputs are reals. -/
theorem softmax_eq (h0 : ∀ i, ∃ r : ℝ, x0 i = (r : EReal)) (h1 : ∀ i, ∃ r : ℝ, x1 i = (r : EReal))
    (h2 : ∀ i, ∃ r : ℝ, x2 i = (r : EReal)) (b : Fin 8) (t : Fin 100) (v : Fin 32000) :
    val_main_v14 (F := Ideal) x0 x1 x2 (ix3 b t v)
      = Ideal.div (Cert.Spec.expo x0 x1 x2 b t v) (Cert.Spec.total x0 x1 x2 b t) := by
  obtain ⟨mu, hmu⟩ := v6_real x0 x1 x2 h0 h1 h2 b t
  have hL : ∀ k : Fin 32000, ∃ r : ℝ, Cert.Spec.logit x0 x1 x2 b t k = (r : EReal) := fun k =>
    logit_real x0 x1 x2 h0 h1 h2 b t k
  choose l hl using hL
  have h10 : ∀ k : Fin 32000, val_main_v10 (F := Ideal) x0 x1 x2 (ix3 b t k)
      = Ideal.exp ((l k : EReal) - (mu : EReal)) := fun k => by
    rw [val_main_v10_apply, val_main_v9_apply, val_main_v8_apply, val_main_v7_apply, v3_eq_logit, hl]
    have e : idx_main_v7 (idx_main_v8 (ix3 b t k)) = ix2 b t := funext fun a => by
      match a with
      | ⟨0, _⟩ => rfl
      | ⟨1, _⟩ => rfl
    rw [e, hmu]
    rfl
  rw [val_main_v14_apply, val_main_v13_apply, val_main_v12_apply, val_main_v11_apply, val_main_cst_1_apply]
  have e12 : idx_main_v12 (idx_main_v13 (ix3 b t v)) = ix2 b t := funext fun a => by
    match a with
    | ⟨0, _⟩ => rfl
    | ⟨1, _⟩ => rfl
  rw [e12]
  have e11 : ∀ k : Fin 32000, idx_main_v11 (ix2 b t) k = ix3 b t k := fun k => funext fun a => by
    match a with
    | ⟨0, _⟩ => rfl
    | ⟨1, _⟩ => rfl
    | ⟨2, _⟩ => rfl
  simp only [e11, h10]
  show Ideal.div _ (Ideal.ofBits .f32 0x00000000#32 + _) = _
  rw [zero_bits]
  unfold Cert.Spec.total Cert.Spec.expo
  simp only [hl]
  haveI : Nonempty (Fin 32000) := ⟨⟨0, by decide⟩⟩
  exact softmax_shift l mu v

end

end Cert.RefSoftmax

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.RefCopy.lean ====
import proofs.«429191_j17652315587030_3_alg».proof.Proof.Gen.ReferenceIdeal.Read
import proofs.«429191_j17652315587030_3_alg».proof.Proof.Spec
import proofs.«429191_j17652315587030_3_alg».proof.Proof.LibScatterLand

/-!
  The reference's copy distribution and its blend through the attention weights, element by element.

  The reference accumulates the gated translation probabilities into a zero array with one scatter whose
  body adds: update (b', s', k) is sent to operand element (b', s', idx[b', s', k]). So element (b, s, v)
  receives exactly the updates (b, s, k) over the eight slots k with idx[b, s, k] = v, and an update whose
  index is not below the vocabulary size lands nowhere. The scatter indices are a concatenation of three
  arrays along a last axis of size three: the batch number and the source position (each an iota, never
  negative, so the wrap-around of negative indices leaves it as it is) and the vocabulary indices, which
  the wrap-around leaves as they are because they are non-negative by hypothesis. The update is the
  translation probability times the bit "the source probability exceeds the threshold" read as 0 or 1.
  The blend is the dot product over the source positions.
-/

noncomputable section

open scoped BigOperators

namespace Cert.RefCopy

open Cert.ReferenceIdeal Cert.ReferenceIdeal.Read Idealize.ShloMosaic Idealize.ShloMosaic.ValueIdx

/-! ## The scatter's dimension numbers: no window, the start read off the index vector -/

/-- The scatter's dimension numbers. -/
abbrev D := scatter_S8x400x32000_S8x400x8x3_S8x400x8_n_012_012_3

/-- Every operand axis is an inserted window axis: the window coordinate is zero. -/
theorem window_zero (j : S8x400x8.Idx) (a : Fin 3) : D.window j a = 0 := by
  unfold ScatterDims.window
  rw [dif_neg]
  intro h
  have : D.sKept = [] := by decide
  rw [this] at h
  cases h

/-! The start on operand axis `a` for update (b, s, k) is component `a` of the index vector at (b, s, k). -/

theorem start_0 (b : Fin 8) (s : Fin 400) (k : Fin 8) (idx : IVec S8x400x8x3 32) :
    D.start (ix3 b s k) idx 0 = (idx (ix4 b s k (0 : Fin 3))).toInt := by
  unfold ScatterDims.start
  rw [dif_pos (by decide)]
  refine congrArg (fun z => (idx z).toInt) (funext fun e => Fin.ext ?_)
  match e with
  | ⟨0, _⟩ => rfl
  | ⟨1, _⟩ => rfl
  | ⟨2, _⟩ => rfl
  | ⟨3, _⟩ => rfl

theorem start_1 (b : Fin 8) (s : Fin 400) (k : Fin 8) (idx : IVec S8x400x8x3 32) :
    D.start (ix3 b s k) idx 1 = (idx (ix4 b s k (1 : Fin 3))).toInt := by
  unfold ScatterDims.start
  rw [dif_pos (by decide)]
  refine congrArg (fun z => (idx z).toInt) (funext fun e => Fin.ext ?_)
  match e with
  | ⟨0, _⟩ => rfl
  | ⟨1, _⟩ => rfl
  | ⟨2, _⟩ => rfl
  | ⟨3, _⟩ => rfl

theorem start_2 (b : Fin 8) (s : Fin 400) (k : Fin 8) (idx : IVec S8x400x8x3 32) :
    D.start (ix3 b s k) idx 2 = (idx (ix4 b s k (2 : Fin 3))).toInt := by
  unfold ScatterDims.start
  rw [dif_pos (by decide)]
  refine congrArg (fun z => (idx z).toInt) (funext fun e => Fin.ext ?_)
  match e with
  | ⟨0, _⟩ => rfl
  | ⟨1, _⟩ => rfl
  | ⟨2, _⟩ => rfl
  | ⟨3, _⟩ => rfl

/-! ## The index vector: a concatenation of three arrays along the last axis -/

theorem v44_at0 (x7 : (⟨S8x400x8, .i32⟩ : BufTy).Contents (Elt Ideal)) (b : Fin 8) (s : Fin 400) (k : Fin 8) :
    val_main_v44 (F := Ideal) x7 (ix4 b s k (0 : Fin 3)) = val_main_v41 (F := Ideal) (ix4 b s k (0 : Fin 1)) := by
  unfold val_main_v44
  refine concatenate_apply_piece (t := S8x400x8x3) (3 : Fin 4) _ _ (ix4 b s k (0 : Fin 3)) 0 ?_ S8x400x8x1 _ ?_ rfl 0 ?_
    (ix4 b s k (0 : Fin 1)) ?_ ?_
  · show (0 : Nat) < 3
    omega
  · rfl
  · rfl
  · intro e he
    match e with
    | ⟨0, _⟩ => rfl
    | ⟨1, _⟩ => rfl
    | ⟨2, _⟩ => rfl
    | ⟨3, _⟩ => exact absurd rfl he
  · rfl

theorem v44_at1 (x7 : (⟨S8x400x8, .i32⟩ : BufTy).Contents (Elt Ideal)) (b : Fin 8) (s : Fin 400) (k : Fin 8) :
    val_main_v44 (F := Ideal) x7 (ix4 b s k (1 : Fin 3)) = val_main_v42 (F := Ideal) (ix4 b s k (0 : Fin 1)) := by
  unfold val_main_v44
  refine concatenate_apply_piece (t := S8x400x8x3) (3 : Fin 4) _ _ (ix4 b s k (1 : Fin 3)) 1 ?_ S8x400x8x1 _ ?_ rfl 1 ?_
    (ix4 b s k (0 : Fin 1)) ?_ ?_
  · show (1 : Nat) < 3
    omega
  · rfl
  · rfl
  · intro e he
    match e with
    | ⟨0, _⟩ => rfl
    | ⟨1, _⟩ => rfl
    | ⟨2, _⟩ => rfl
    | ⟨3, _⟩ => exact absurd rfl he
  · rfl

theorem v44_at2 (x7 : (⟨S8x400x8, .i32⟩ : BufTy).Contents (Elt Ideal)) (b : Fin 8) (s : Fin 400) (k : Fin 8) :
    val_main_v44 (F := Ideal) x7 (ix4 b s k (2 : Fin 3)) = val_main_v43 (F := Ideal) x7 (ix4 b s k (0 : Fin 1)) := by
  unfold val_main_v44
  refine concatenate_apply_piece (t := S8x400x8x3) (3 : Fin 4) _ _ (ix4 b s k (2 : Fin 3)) 2 ?_ S8x400x8x1 _ ?_ rfl 2 ?_
    (ix4 b s k (0 : Fin 1)) ?_ ?_
  · show (2 : Nat) < 3
    omega
  · rfl
  · rfl
  · intro e he
    match e with
    | ⟨0, _⟩ => rfl
    | ⟨1, _⟩ => rfl
    | ⟨2, _⟩ => rfl
    | ⟨3, _⟩ => exact absurd rfl he
  · rfl

/-! ## The three arrays: an iota that is never negative, and the non-negative vocabulary indices -/

/-- A natural number below 2³¹ as a 32-bit word reads back signed as itself. -/
theorem toInt_ofNat_small (n : Nat) (h : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- A word that is non-negative read signed is not below zero. -/
theorem cmpi_slt_zero_of_nonneg (x : BitVec 32) (h : 0 ≤ x.toInt) : IntOp.cmpi .slt x 0#32 = 0#1 := by
  have hs : x.slt 0#32 = false := decide_eq_false (by rw [BitVec.toInt_zero]; omega)
  show BitVec.ofBool (x.slt 0#32) = 0#1
  rw [hs]; rfl

/-- The batch component of the index vector is the batch number. -/
theorem v41_at (b : Fin 8) (s : Fin 400) (k : Fin 8) :
    val_main_v41 (F := Ideal) (ix4 b s k (0 : Fin 1)) = BitVec.ofNat 32 b.val := by
  rw [val_main_v41_apply, val_main_v39_apply, val_main_v28_apply, val_main_v25_apply, val_main_v24_apply,
    val_main_c_apply, val_main_v20_apply, val_main_v19_apply]
  show Scalar.select (IntOp.cmpi .slt (BitVec.ofNat 32 b.val) 0#32) _ (BitVec.ofNat 32 b.val) = BitVec.ofNat 32 b.val
  rw [cmpi_slt_zero_of_nonneg _ (by rw [toInt_ofNat_small _ (by omega)]; omega), select_zero]

/-- The position component of the index vector is the source position. -/
theorem v42_at (b : Fin 8) (s : Fin 400) (k : Fin 8) :
    val_main_v42 (F := Ideal) (ix4 b s k (0 : Fin 1)) = BitVec.ofNat 32 s.val := by
  rw [val_main_v42_apply, val_main_v40_apply, val_main_v33_apply, val_main_v30_apply, val_main_v29_apply,
    val_main_c_5_apply, val_main_v22_apply, val_main_v21_apply]
  show Scalar.select (IntOp.cmpi .slt (BitVec.ofNat 32 s.val) 0#32) _ (BitVec.ofNat 32 s.val) = BitVec.ofNat 32 s.val
  rw [cmpi_slt_zero_of_nonneg _ (by rw [toInt_ofNat_small _ (by omega)]; omega), select_zero]

/-- The vocabulary component of the index vector is the vocabulary index itself when that is non-negative. -/
theorem v43_at (x7 : (⟨S8x400x8, .i32⟩ : BufTy).Contents (Elt Ideal)) (b : Fin 8) (s : Fin 400) (k : Fin 8)
    (h : 0 ≤ (x7 (ix3 b s k)).toInt) :
    val_main_v43 (F := Ideal) x7 (ix4 b s k (0 : Fin 1)) = x7 (ix3 b s k) := by
  have e : idx_main_v43 (ix4 b s k (0 : Fin 1)) = ix3 b s k :=
    funext fun a => by match a with | ⟨0, _⟩ => rfl | ⟨1, _⟩ => rfl | ⟨2, _⟩ => rfl
  rw [val_main_v43_apply, e, val_main_v38_apply, val_main_v35_apply, val_main_v34_apply, val_main_c_7_apply,
    cmpi_slt_zero_of_nonneg _ h, select_zero]

/-! ## Where an update lands -/

/-- Update (b', s', k) lands on element (b, s, v) exactly when b' = b, s' = s and the vocabulary index at
    (b', s', k) is v. -/
theorem lands_iff (x7 : (⟨S8x400x8, .i32⟩ : BufTy).Contents (Elt Ideal)) (h7 : ∀ i, 0 ≤ (x7 i).toInt)
    (b' b : Fin 8) (s' s : Fin 400) (k : Fin 8) (v : Fin 32000) :
    D.resultIdx? (ix3 b' s' k) (val_main_v44 (F := Ideal) x7) = some (ix3 b s v) ↔
      (b' = b ∧ s' = s ∧ (x7 (ix3 b' s' k)).toInt = (v.val : ℤ)) := by
  rw [ScatterLand.resultIdx?_eq_some_iff]
  have e0 : D.start (ix3 b' s' k) (val_main_v44 (F := Ideal) x7) 0 + ((D.window (ix3 b' s' k) 0 : ℕ) : ℤ) = (b'.val : ℤ) := by
    rw [window_zero, start_0, v44_at0, v41_at, toInt_ofNat_small _ (by omega)]; simp
  have e1 : D.start (ix3 b' s' k) (val_main_v44 (F := Ideal) x7) 1 + ((D.window (ix3 b' s' k) 1 : ℕ) : ℤ) = (s'.val : ℤ) := by
    rw [window_zero, start_1, v44_at1, v42_at, toInt_ofNat_small _ (by omega)]; simp
  have e2 : D.start (ix3 b' s' k) (val_main_v44 (F := Ideal) x7) 2 + ((D.window (ix3 b' s' k) 2 : ℕ) : ℤ)
      = (x7 (ix3 b' s' k)).toInt := by
    rw [window_zero, start_2, v44_at2, v43_at x7 b' s' k (h7 _)]; simp
  constructor
  · intro h
    have h0 := h 0
    have h1 := h 1
    have h2 := h 2
    rw [e0] at h0
    rw [e1] at h1
    rw [e2] at h2
    have h0' : (b'.val : ℤ) = (b.val : ℤ) := h0
    have h1' : (s'.val : ℤ) = (s.val : ℤ) := h1
    exact ⟨Fin.ext (by omega), Fin.ext (by omega), h2⟩
  · rintro ⟨rfl, rfl, hq⟩ a
    match a with
    | ⟨0, _⟩ => exact e0
    | ⟨1, _⟩ => exact e1
    | ⟨2, _⟩ => exact e2.trans hq

/-! ## The update: the gated translation probability -/

/-- The update at (b, s, k) is the translation probability where the source probability exceeds the
    threshold, and the translation probability times zero elsewhere. -/
theorem v18_at (x5 x6 : (⟨S8x400x8, .f32⟩ : BufTy).Contents (Elt Ideal)) (b : Fin 8) (s : Fin 400) (k : Fin 8) :
    val_main_v18 (F := Ideal) x5 x6 (ix3 b s k) = Cert.Spec.gate x5 x6 b s k := by
  rw [val_main_v18_apply, val_main_v17_apply, val_main_v16_apply, val_main_v15_apply, val_main_cst_2_apply]
  show x5 (ix3 b s k) * (((Ideal.cmp .ogt (x6 (ix3 b s k)) (Ideal.ofBits .f32 0x3D4CCCCD#32)).toNat : ℝ) : EReal) = _
  unfold Cert.Spec.gate Cert.Spec.thr
  by_cases h : Ideal.ofBits .f32 0x3D4CCCCD#32 < x6 (ix3 b s k)
  · rw [if_pos h]
    have e : Ideal.cmp .ogt (x6 (ix3 b s k)) (Ideal.ofBits .f32 0x3D4CCCCD#32) = 1#1 := by
      show BitVec.ofBool (decide (_ < _)) = 1#1
      rw [decide_eq_true h]; rfl
    rw [e]; simp
  · rw [if_neg h]
    have e : Ideal.cmp .ogt (x6 (ix3 b s k)) (Ideal.ofBits .f32 0x3D4CCCCD#32) = 0#1 := by
      show BitVec.ofBool (decide (_ < _)) = 0#1
      rw [decide_eq_false h]; rfl
    rw [e]; simp

/-! ## A sum over the updates that land on one element is a sum over the eight slots -/

/-- If the updates selected by `P` are those at batch b and position s whose slot satisfies `Q`, the sum over
    the selected updates is the sum over the slots of the update where `Q` holds and zero elsewhere. -/
theorem sum_filter_slot {M : Type} [AddCommMonoid M] (b : Fin 8) (s : Fin 400) (Q : Fin 8 → Prop) [DecidablePred Q]
    (P : S8x400x8.Idx → Prop) [DecidablePred P]
    (hP : ∀ (b' : Fin 8) (s' : Fin 400) (k : Fin 8), P (ix3 b' s' k) ↔ (b' = b ∧ s' = s ∧ Q k)) (f : S8x400x8.Idx → M) :
    ∑ j ∈ Finset.univ.filter P, f j = ∑ k : Fin 8, if Q k then f (ix3 b s k) else 0 := by
  have himg : Finset.univ.filter P = (Finset.univ.filter Q).image (fun k => (ix3 b s k : S8x400x8.Idx)) := by
    ext j
    obtain ⟨b', s', k, rfl⟩ : ∃ (b' : Fin 8) (s' : Fin 400) (k : Fin 8), j = ix3 b' s' k := ⟨j 0, j 1, j 2, eq_ix3 j⟩
    simp only [Finset.mem_filter, Finset.mem_univ, true_and, Finset.mem_image]
    rw [hP]
    constructor
    · rintro ⟨rfl, rfl, hq⟩
      exact ⟨k, hq, rfl⟩
    · rintro ⟨k', hq, he⟩
      have h0 : b = b' := congrFun he 0
      have h1 : s = s' := congrFun he 1
      have h2 : k' = k := congrFun he 2
      subst h0; subst h1; subst h2
      exact ⟨rfl, rfl, hq⟩
  rw [himg, Finset.sum_image, Finset.sum_filter]
  intro k _ k' _ h
  exact congrFun h 2

/-! ## The two results -/

/-- The scattered array at (b, s, v) is the copy mass source position s sends to vocabulary entry v. -/
theorem copy_eq (x5 x6 : (⟨S8x400x8, .f32⟩ : BufTy).Contents (Elt Ideal)) (x7 : (⟨S8x400x8, .i32⟩ : BufTy).Contents (Elt Ideal))
    (h7 : ∀ i, 0 ≤ (x7 i).toInt) (b : Fin 8) (s : Fin 400) (v : Fin 32000) :
    val_main_v45 (F := Ideal) x5 x6 x7 (ix3 b s v) = Cert.Spec.copy x5 x6 x7 b s v := by
  unfold val_main_v45
  simp only [Host.scatterAdd, Ideal.hostScatterAdd_def]
  unfold Ideal.hostScatterAdd
  rw [val_main_v23_apply, val_main_cst_3_apply]
  show Ideal.ofBits .f32 0x00000000#32 + _ = _
  rw [Ideal.ofBits_zero_f32, zero_add]
  rw [sum_filter_slot b s (fun k => (x7 (ix3 b s k)).toInt = (v.val : ℤ)) _ (fun b' s' k => by
    rw [lands_iff x7 h7]
    constructor
    · rintro ⟨rfl, rfl, hq⟩; exact ⟨rfl, rfl, hq⟩
    · rintro ⟨rfl, rfl, hq⟩; exact ⟨rfl, rfl, hq⟩)]
  unfold Cert.Spec.copy
  refine Finset.sum_congr rfl fun k _ => ?_
  rw [v18_at]

/-- The blend at (b, t, v) is the sum over the source positions of the weight times the copy mass. -/
theorem mix_eq (x3 : (⟨S8x100x400, .f32⟩ : BufTy).Contents (Elt Ideal)) (x5 x6 : (⟨S8x400x8, .f32⟩ : BufTy).Contents (Elt Ideal))
    (x7 : (⟨S8x400x8, .i32⟩ : BufTy).Contents (Elt Ideal))
    (h7 : ∀ i, 0 ≤ (x7 i).toInt) (b : Fin 8) (t : Fin 100) (v : Fin 32000) :
    val_main_v46 (F := Ideal) x3 x5 x6 x7 (ix3 b t v) = Cert.Spec.mix x3 x5 x6 x7 b t v := by
  rw [val_main_v46_apply]
  unfold Cert.Spec.mix
  refine Finset.sum_congr rfl fun k _ => ?_
  have el : lidx_main_v46 (ix3 b t v) k = ix3 b t k :=
    funext fun a => by match a with | ⟨0, _⟩ => rfl | ⟨1, _⟩ => rfl | ⟨2, _⟩ => rfl
  have er : ridx_main_v46 (ix3 b t v) k = ix3 b k v :=
    funext fun a => by match a with | ⟨0, _⟩ => rfl | ⟨1, _⟩ => rfl | ⟨2, _⟩ => rfl
  rw [el, er, copy_eq x5 x6 x7 h7]

end Cert.RefCopy

end
-- ==== Proof.RefValue.lean ====
/-
  The reference's result, index by index, is the specification's function.

  At (b, t, v) the reference computes log (p * mix + (one - p) * softmax): the gate p = p[b,t,0] broadcast along the
  vocabulary, the blended copy mass mix, the f32 one, and the softmax of the logits. The copy mass is the
  specification's by the scatter's reading, the softmax is the specification's quotient expo / total when the three
  float inputs of the generator are reals; the remaining operations are read at the index one by one.
-/
import proofs.«429191_j17652315587030_3_alg».proof.Proof.RefSoftmax
import proofs.«429191_j17652315587030_3_alg».proof.Proof.RefCopy

noncomputable section

open scoped BigOperators

namespace Cert.RefValue

open Cert.ReferenceIdeal Cert.ReferenceIdeal.Read Idealize.ShloMosaic Idealize.ShloMosaic.ValueIdx

/-- THE REFERENCE IS THE SPECIFICATION: with real generator inputs and no negative copy index, the reference's result
    array is G. -/
theorem ref_eq_G
    (x0 : (⟨S8x100x512, .f32⟩ : BufTy).Contents (Elt Ideal)) (x1 : (⟨S512x32000, .f32⟩ : BufTy).Contents (Elt Ideal)) (x2 : (⟨S32000, .f32⟩ : BufTy).Contents (Elt Ideal))
    (x3 : (⟨S8x100x400, .f32⟩ : BufTy).Contents (Elt Ideal)) (x4 : (⟨S8x100x1, .f32⟩ : BufTy).Contents (Elt Ideal)) (x5 x6 : (⟨S8x400x8, .f32⟩ : BufTy).Contents (Elt Ideal)) (x7 : (⟨S8x400x8, .i32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) (h7 : ∀ i, 0 ≤ (x7 i).toInt) :
    val_main_v54 (F := Ideal) x0 x1 x2 x3 x4 x5 x6 x7 = Cert.Spec.G x0 x1 x2 x3 x4 x5 x6 x7 := by
  funext i
  obtain ⟨b, t, v, rfl⟩ : ∃ b t v, i = ix3 b t v := ⟨i 0, i 1, i 2, eq_ix3 i⟩
  have e47 : idx_main_v47 (ix3 b t v) = ix3 b t 0 := funext fun a => by
    match a with
    | ⟨0, _⟩ => rfl
    | ⟨1, _⟩ => rfl
    | ⟨2, _⟩ => rfl
  have e51 : idx_main_v51 (ix3 b t v) = ix3 b t 0 := funext fun a => by
    match a with
    | ⟨0, _⟩ => rfl
    | ⟨1, _⟩ => rfl
    | ⟨2, _⟩ => rfl
  rw [val_main_v54_apply, val_main_v53_apply, val_main_v48_apply, val_main_v47_apply, val_main_v52_apply,
    val_main_v51_apply, val_main_v50_apply, val_main_v49_apply, val_main_cst_9_apply, e47, e51,
    Cert.RefCopy.mix_eq x3 x5 x6 x7 h7 b t v, Cert.RefSoftmax.softmax_eq x0 x1 x2 h0 h1 h2 b t v]
  rfl

end Cert.RefValue

end
-- ==== Proof.PreFacts.lean ====
/-
  The precondition read back. The printed predicate is the conjunction of seven facts "every entry of a float
  array has absolute value below +∞" and one fact "every entry of the integer array, read signed, is at least 0";
  it is stated as: the printed function equals the all-ones i1 scalar. An extended real x with max x (-x) < ⊤ is
  neither ⊤ nor ⊥, so it is a real number; a 32-bit word w with 0 ≤ w signed has 0 ≤ w.toInt.
-/
import proofs.«429191_j17652315587030_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic
open Cert.Pre_finite_inputs

/-- The rank-0 shape has one index. -/
instance : Subsingleton S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) : ∃ r : ℝ, x = (r : EReal) := by
  rw [inf_eq_top] at h
  unfold Ideal.cmp at h
  rw [StableHlo.Predicate.ofBool_eq_one_iff] at h
  have h' : max x (-x) < ⊤ := by simpa using h
  induction x using EReal.rec with
  | bot => simp at h'
  | coe r => exact ⟨r, rfl⟩
  | top => simp at h'

/-- One float conjunct: if jnp.all(abs(x) < inf) is 1 then every entry of x is a real number. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : ∃ r : ℝ, x i = (r : EReal) :=
  real_of_abs_lt_inf (x i) (Host.reduce_andi_all _ _ hr hu _ e i)

/-- The integer conjunct: if jnp.all(w >= 0), signed, is 1 then every entry has a non-negative signed value. -/
theorem nonneg_of_all {s : Shape} {axes : List (Fin s.rank)} (x : IVec s 32) (hb : S_.BroadcastsInDim s (![] : Fin 0 → Fin s.rank))
    (hr : s.ReducesTo axes S_) (hu : 0 < S_.numel)
    (e : Host.reduce IntOp.andi
          (cmpi .sge x (broadcastInDim s ![] hb (constantI S_ 32 0#32)))
          (constantI S_ 1 1#1) hr hu ValueIdx.ix0 = 1#1)
    (i : s.Idx) : 0 ≤ (x i).toInt := by
  have h : IntOp.cmpi .sge (x i) 0#32 = 1#1 := Host.reduce_andi_all _ _ hr hu _ e i
  have h' := IntOp.cmpi_sge.1 h
  simpa using h'

/-- The precondition decoded: the entries of the first three float arrays are real numbers, the entries of the
    integer array are non-negative read signed (and likewise the other four float arrays). -/
theorem of_pre [Cert.Pre_finite_inputs.Facts]
    (x0 : FVec Ideal S8x100x512 .f32) (x1 : FVec Ideal S512x32000 .f32) (x2 : FVec Ideal S32000 .f32)
    (x3 : FVec Ideal S8x100x400 .f32) (x4 : FVec Ideal S8x100x1 .f32) (x5 : FVec Ideal S8x400x8 .f32)
    (x6 : FVec Ideal S8x400x8 .f32) (x7 : IVec S8x400x8 32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, 0 ≤ (x7 i).toInt)
      ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨h0, h1⟩, h2⟩, h3⟩, h4⟩, h5⟩, h6⟩, h7⟩ := e
  exact ⟨real_of_all x0 _ _ _ h0, real_of_all x1 _ _ _ h1, real_of_all x2 _ _ _ h2, nonneg_of_all x7 _ _ _ h7,
    real_of_all x3 _ _ _ h3, real_of_all x4 _ _ _ h4, real_of_all x5 _ _ _ h5, real_of_all x6 _ _ _ h6⟩

end Cert.PreFacts

end
-- ==== Proof.R0ValuePieces.lean ====
import proofs.«429191_j17652315587030_3_alg».proof.Proof.R0Body
import Idealize.ShloMosaic.Lib.Pipeline.Value
import Idealize.ShloMosaic.Lib.Tactic

/-!
  The first kernel's body, case by case: what each store leaves is the arithmetic of what the body loaded.

  At the first column tile the running column of row sums is reset to zero before the tile's row sums are
  added; at a middle tile the tile's row sums are added to what the tile before left; at the last tile the
  same, and the running column is then copied to the row-sum output. In every case the stored block is
  the block of exponentials of the three input blocks.
-/

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The zero offsets of a whole-buffer access. -/
theorem hz : (![0, 0] : Fin 2 → Nat) = fun _ => 0 := funext fun a => by fin_cases a <;> rfl

/-- First tile: the stored block is the exponentials of the three input blocks. -/
theorem out_A_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i)
    (x0 : Vec F S400x512 .f32) (x1 : Vec F S512x1280 .f32) (x2 : Vec F S1x1280 .f32) :
    out0_A_3 c i arg2 harg2 arg3 harg3 arg4 harg4 arg5 harg5 arg6 harg6 arg7 harg7 hc0 hc1 x0 x1 x2 = k0_pay2 x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- First tile: the running column is the tile's row sums added to the zero column. -/
theorem sout_A (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : cond0_0 i) (hc1 : ¬cond0_1 i)
    (x0 : Vec F S400x512 .f32) (x1 : Vec F S512x1280 .f32) (x2 : Vec F S1x1280 .f32) :
    sout0_A c i arg2 harg2 arg3 harg3 arg4 harg4 arg5 harg5 arg6 harg6 arg7 harg7 hc0 hc1 x0 x1 x2 = k0_pay3 x0 x1 x2 (k0_pay1 (F := F)) := by
  unfold sout0_A
  rw [View.read_writes_eq_canon _ _ _ (scover0_A c i arg2 harg2 arg3 harg3 arg4 harg4 arg5 harg5 arg6 harg6 arg7 harg7 hc0 hc1 x0 x1 x2)]
  unfold kernelRun0_A
  dsimp only
  sl_unfold_words
  rw [View.canon_cons_unit_zero (S := S400x1) hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- Middle tile: the stored block is the exponentials of the three input blocks. -/
theorem out_B_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i)
    (x0 : Vec F S400x512 .f32) (x1 : Vec F S512x1280 .f32) (x2 : Vec F S1x1280 .f32) (xs : Vec F S400x1 .f32) :
    out0_B_3 c i arg2 harg2 arg3 harg3 arg4 harg4 arg5 harg5 arg6 harg6 arg7 harg7 hc0 hc1 x0 x1 x2 xs = k0_pay2 x0 x1 x2 := by
  unfold out0_B_3
  rw [View.read_writes_eq_canon _ _ _ (cover0_B_3 c i arg2 harg2 arg3 harg3 arg4 harg4 arg5 harg5 arg6 harg6 arg7 harg7 hc0 hc1 x0 x1 x2 xs)]
  unfold kernelRun0_B
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- Middle tile: the running column is the tile's row sums added to what the tile before left. -/
theorem sout_B (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : ¬cond0_1 i)
    (x0 : Vec F S400x512 .f32) (x1 : Vec F S512x1280 .f32) (x2 : Vec F S1x1280 .f32) (xs : Vec F S400x1 .f32) :
    sout0_B c i arg2 harg2 arg3 harg3 arg4 harg4 arg5 harg5 arg6 harg6 arg7 harg7 hc0 hc1 x0 x1 x2 xs = k0_pay3 x0 x1 x2 xs := by
  unfold sout0_B
  rw [View.read_writes_eq_canon _ _ _ (scover0_B c i arg2 harg2 arg3 harg3 arg4 harg4 arg5 harg5 arg6 harg6 arg7 harg7 hc0 hc1 x0 x1 x2 xs)]
  unfold kernelRun0_B
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- Last tile: the stored block is the exponentials of the three input blocks. -/
theorem out_C_3 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i)
    (x0 : Vec F S400x512 .f32) (x1 : Vec F S512x1280 .f32) (x2 : Vec F S1x1280 .f32) (xs : Vec F S400x1 .f32) :
    out0_C_3 c i arg2 harg2 arg3 harg3 arg4 harg4 arg5 harg5 arg6 harg6 arg7 harg7 hc0 hc1 x0 x1 x2 xs = k0_pay2 x0 x1 x2 := by
  unfold out0_C_3
  rw [View.read_writes_eq_canon _ _ _ (cover0_C_3 c i arg2 harg2 arg3 harg3 arg4 harg4 arg5 harg5 arg6 harg6 arg7 harg7 hc0 hc1 x0 x1 x2 xs)]
  unfold kernelRun0_C
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- Last tile: the running column is the tile's row sums added to what the tile before left. -/
theorem sout_C (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i)
    (x0 : Vec F S400x512 .f32) (x1 : Vec F S512x1280 .f32) (x2 : Vec F S1x1280 .f32) (xs : Vec F S400x1 .f32) :
    sout0_C c i arg2 harg2 arg3 harg3 arg4 harg4 arg5 harg5 arg6 harg6 arg7 harg7 hc0 hc1 x0 x1 x2 xs = k0_pay3 x0 x1 x2 xs := by
  unfold sout0_C
  rw [View.read_writes_eq_canon _ _ _ (scover0_C c i arg2 harg2 arg3 harg3 arg4 harg4 arg5 harg5 arg6 harg6 arg7 harg7 hc0 hc1 x0 x1 x2 xs)]
  unfold kernelRun0_C
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

/-- Last tile: the row-sum output receives the running column just computed. -/
theorem out_C_4 (c : Dev nD) (i : grid0.Coords) (arg2 : Memref sig .tc .vmem S400x512 .f32) (harg2 : arg2.IsWhole) (arg3 : Memref sig .tc .vmem S512x1280 .f32) (harg3 : arg3.IsWhole) (arg4 : Memref sig .tc .vmem S1x1280 .f32) (harg4 : arg4.IsWhole) (arg5 : Memref sig .tc .vmem S400x1280 .f32) (harg5 : arg5.IsWhole) (arg6 : Memref sig .tc .vmem S400x1 .f32) (harg6 : arg6.IsWhole) (arg7 : Memref sig .tc .vmem S400x1 .f32) (harg7 : arg7.IsWhole) (hc0 : ¬cond0_0 i) (hc1 : cond0_1 i)
    (x0 : Vec F S400x512 .f32) (x1 : Vec F S512x1280 .f32) (x2 : Vec F S1x1280 .f32) (xs : Vec F S400x1 .f32) :
    out0_C_4 c i arg2 harg2 arg3 harg3 arg4 harg4 arg5 harg5 arg6 harg6 arg7 harg7 hc0 hc1 x0 x1 x2 xs = k0_pay3 x0 x1 x2 xs := by
  unfold out0_C_4
  rw [View.read_writes_eq_canon _ _ _ (cover0_C_4 c i arg2 harg2 arg3 harg3 arg4 harg4 arg5 harg5 arg6 harg6 arg7 harg7 hc0 hc1 x0 x1 x2 xs)]
  unfold kernelRun0_C
  dsimp only
  sl_unfold_words
  rw [View.canon_unit_zero hz]
  simp only [View.readAt_eq_ld, harg2.read_unread, harg3.read_unread, harg4.read_unread, harg7.read_unread,
    View.ld_unit_zero (S := S400x512) hz, View.ld_unit_zero (S := S512x1280) hz, View.ld_unit_zero (S := S1x1280) hz,
    View.ld_unit_zero (S := S400x1) hz, View.readCov_unit_zero (S := S400x1) _ hz]

end Cert.KernelIdeal.Val0

end
-- ==== Proof.R0Pay.lean ====
import proofs.«429191_j17652315587030_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Cert.KernelIdeal Cert.KernelIdeal.Gen Idealize.ShloMosaic Idealize.ShloMosaic.ValueIdx
open scoped BigOperators

/-! # The first kernel's arithmetic, read at one element

At one grid point the first kernel holds a block x0 of 400 rows of the flattened decoder states, a block x1 of 1280
columns of the projection matrix and the same columns x2 of the bias. Its stored block is
e(r, j) = exp (∑ h, x0(r, h) · x1(h, j) + x2(0, j)), and its running column of row sums grows by ∑ j, e(r, j). -/

/-! ## The zero column -/

/-- The column the row-sum scratch is reset to is zero at every row. -/
theorem pay1_apply (r : Fin 400) : k0_pay1 (F := Ideal) (ix2 r 0) = 0 := by
  unfold k0_pay1
  rw [shapeCast_self]
  exact Ideal.ofBits_zero_f32

/-! ## The product read at an index -/

theorem lhs_mm_0 (i : S400x1280.Idx) (q : dot_S400x512_S512x1280_S400x1280_1_0_0_1_n_n.contr.Idx) :
    (dot_S400x512_S512x1280_S400x1280_1_0_0_1_n_n.lhsIdx i q 0).val = (i 0).val := by
  unfold DotDims.lhsIdx
  rw [dif_neg (show ¬(0 : Fin S400x512.rank) ∈ dot_S400x512_S512x1280_S400x1280_1_0_0_1_n_n.lhsBatch by decide), dif_pos (show (0 : Fin S400x512.rank) ∈ dot_S400x512_S512x1280_S400x1280_1_0_0_1_n_n.lhsNonContracting by decide)]
  rfl
theorem lhs_mm_1 (i : S400x1280.Idx) (q : dot_S400x512_S512x1280_S400x1280_1_0_0_1_n_n.contr.Idx) :
    (dot_S400x512_S512x1280_S400x1280_1_0_0_1_n_n.lhsIdx i q 1).val = (q ⟨0, by decide⟩).val :=
  dot_S400x512_S512x1280_S400x1280_1_0_0_1_n_n.lhsIdx_val_of_single rfl i q
theorem rhs_mm_0 (i : S400x1280.Idx) (q : dot_S400x512_S512x1280_S400x1280_1_0_0_1_n_n.contr.Idx) :
    (dot_S400x512_S512x1280_S400x1280_1_0_0_1_n_n.rhsIdx i q 0).val = (q ⟨0, by decide⟩).val :=
  dot_S400x512_S512x1280_S400x1280_1_0_0_1_n_n.rhsIdx_val_of_single rfl i q
theorem rhs_mm_1 (i : S400x1280.Idx) (q : dot_S400x512_S512x1280_S400x1280_1_0_0_1_n_n.contr.Idx) :
    (dot_S400x512_S512x1280_S400x1280_1_0_0_1_n_n.rhsIdx i q 1).val = (i 1).val := by
  unfold DotDims.rhsIdx
  rw [dif_neg (show ¬(1 : Fin S512x1280.rank) ∈ dot_S400x512_S512x1280_S400x1280_1_0_0_1_n_n.rhsBatch by decide), dif_pos (show (1 : Fin S512x1280.rank) ∈ dot_S400x512_S512x1280_S400x1280_1_0_0_1_n_n.rhsNonContracting by decide)]
  rfl

/-- The matrix product onto a zero accumulator, at (r, j), is the sum over the contracted axis of the products. -/
theorem mm_apply (a : FVec Ideal S400x512 .bf16) (b : FVec Ideal S512x1280 .bf16) (r : Fin 400) (j : Fin 1280) :
    matmul dot_S400x512_S512x1280_S400x1280_1_0_0_1_n_n none a b (constant (F := Ideal) S400x1280 .f32 0x00000000#32) (ix2 r j)
      = ∑ h : Fin 512, a (ix2 r h) * b (ix2 h j) := by
  simp only [matmul]
  rw [Ideal.matmul_constant_zero_apply, ← Equiv.sum_comp (ValueIdx.contrEquiv1 dot_S400x512_S512x1280_S400x1280_1_0_0_1_n_n 512 rfl rfl).symm]
  refine Finset.sum_congr rfl fun k _ => ?_
  have hk := ValueIdx.contrEquiv1_symm_val dot_S400x512_S512x1280_S400x1280_1_0_0_1_n_n 512 rfl rfl k
  have el : dot_S400x512_S512x1280_S400x1280_1_0_0_1_n_n.lhsIdx (ix2 r j) ((ValueIdx.contrEquiv1 dot_S400x512_S512x1280_S400x1280_1_0_0_1_n_n 512 rfl rfl).symm k) = ix2 r k := funext fun ax => Fin.ext (by
    match ax with
    | ⟨0, _⟩ => exact lhs_mm_0 _ _
    | ⟨1, _⟩ => exact (lhs_mm_1 _ _).trans hk)
  have er : dot_S400x512_S512x1280_S400x1280_1_0_0_1_n_n.rhsIdx (ix2 r j) ((ValueIdx.contrEquiv1 dot_S400x512_S512x1280_S400x1280_1_0_0_1_n_n 512 rfl rfl).symm k) = ix2 k j := funext fun ax => Fin.ext (by
    match ax with
    | ⟨0, _⟩ => exact (rhs_mm_0 _ _).trans hk
    | ⟨1, _⟩ => exact rhs_mm_1 _ _)
  rw [el, er]

/-! ## The stored block -/

/-- The stored block at (r, j): the exponential of the product's element plus the bias of column j. -/
theorem pay2_apply (x0 : Vec Ideal S400x512 .f32) (x1 : Vec Ideal S512x1280 .f32) (x2 : Vec Ideal S1x1280 .f32) (r : Fin 400) (j : Fin 1280) :
    k0_pay2 (F := Ideal) x0 x1 x2 (ix2 r j) = Ideal.exp ((∑ h : Fin 512, x0 (ix2 r h) * x1 (ix2 h j)) + x2 (ix2 0 j)) := by
  unfold k0_pay2
  simp only [shapeCast_self]
  refine congrArg Ideal.exp ?_
  refine congrArg₂ (· + ·) ?_ ?_
  · exact mm_apply _ _ r j
  · exact broadcastTo_1b_ab_apply x2 _ r j

/-! ## The running row sums -/

section Column
variable {α : Type}

/-- An [a] array cast to [a, 1] reads, at (i, u), the operand at i, whatever the unit coordinate u:
    both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Column

/-- The sum over the lanes of a [400, 1280] block, at row r, is the sum over the 1280 columns of the block at (r, j). -/
theorem rowsum_apply (src : FVec Ideal S400x1280 .f32) (h : S400x1280.Reduces [1] S400) (hφ : FKind.Formats .f32)
    (hacc : (0x00000000#32 : BitVec (FTy.bits .f32)) = FKind.add.neutral .f32 hφ) (r : Fin 400) :
    multiReduction (F := Ideal) .add [1] S400 src 0x00000000#32 h hφ hacc (ix1 r) = ∑ j : Fin 1280, src (ix2 r j) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-- The new running column at row r: the old one plus the sum over the 1280 columns of the stored block's row r. -/
theorem pay3_apply (x0 : Vec Ideal S400x512 .f32) (x1 : Vec Ideal S512x1280 .f32) (x2 : Vec Ideal S1x1280 .f32) (xs : Vec Ideal S400x1 .f32) (r : Fin 400) :
    k0_pay3 (F := Ideal) x0 x1 x2 xs (ix2 r 0) = xs (ix2 r 0) + ∑ j : Fin 1280, k0_pay2 (F := Ideal) x0 x1 x2 (ix2 r j) := by
  unfold k0_pay3
  simp only [shapeCast_self]
  refine congrArg₂ (· + ·) rfl ?_
  refine (shapeCast_a_a1_apply _ _ r 0).trans ?_
  exact rowsum_apply _ _ _ _ r

/-! ## Sums over tiles of columns, and a left-nested sum

Two facts about sums with no program in them: the 32000 columns are 25 tiles of 1280, and adding terms one at a
time from zero is the finite sum. Extended-real addition is commutative and associative, so neither needs finiteness. -/

/-- A column v of the 32000 is column v mod 1280 of tile v div 1280. -/
def tileEquiv : Fin 25 × Fin 1280 ≃ Fin 32000 where
  toFun p := ⟨p.1.val * 1280 + p.2.val, by have := p.1.isLt; have := p.2.isLt; omega⟩
  invFun v := (⟨v.val / 1280, by have := v.isLt; omega⟩, ⟨v.val % 1280, by omega⟩)
  left_inv p := by
    obtain ⟨a, b⟩ := p
    have ha := a.isLt
    have hb := b.isLt
    refine Prod.ext (Fin.ext ?_) (Fin.ext ?_)
    · show (a.val * 1280 + b.val) / 1280 = a.val
      omega
    · show (a.val * 1280 + b.val) % 1280 = b.val
      omega
  right_inv v := by
    refine Fin.ext ?_
    show v.val / 1280 * 1280 + v.val % 1280 = v.val
    omega

/-- Summing tile by tile, then within the tile, is summing over all the columns. -/
theorem sum_tiles (f : Fin 32000 → EReal) :
    (∑ vt : Fin 25, ∑ j : Fin 1280, f ⟨vt.val * 1280 + j.val, by have := vt.isLt; have := j.isLt; omega⟩) = ∑ v : Fin 32000, f v := by
  rw [← Equiv.sum_comp tileEquiv f, Fintype.sum_prod_type]
  rfl

/-- Adding g 0, g 1, …, g (n − 1) one after another onto zero gives their sum. -/
theorem foldl_add (n : ℕ) (g : ℕ → EReal) :
    (List.range n).foldl (fun a k => a + g k) 0 = ∑ k ∈ Finset.range n, g k := by
  induction n with
  | zero => rfl
  | succ n ih =>
    rw [List.range_succ, List.foldl_append, ih, Finset.sum_range_succ]
    rfl

end Cert.KernelIdeal.Pay0
-- ==== Proof.R0ValueBlocks.lean ====
import proofs.«429191_j17652315587030_3_alg».proof.Proof.R0Body
import proofs.«429191_j17652315587030_3_alg».proof.Proof.R0Pay
import Idealize.ShloMosaic.Lib.Pipeline.Value
import Idealize.ShloMosaic.Lib.ValueIdx

/-!
  The first kernel's input blocks as parts of its arrays, and its arithmetic at one point of the grid.

  The grid is 2 row tiles by 25 column tiles; point t is row tile t / 25, column tile t % 25. At point t the
  kernel holds rows 400 (t / 25) … of the flattened decoder states, columns 1280 (t % 25) … of the projection
  matrix and the same columns of the bias. Its stored block is the exponential of the logit at those rows and
  columns, and its running column grows by the sum of that block's rows.
-/

set_option maxRecDepth 16384

noncomputable section

open scoped BigOperators

namespace Cert.KernelIdeal.Val0

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The grid has fifty points. -/
theorem N0 : cfg0.N = 50 := rfl

/-- The block indices of the five windows at point t: the row tile is t / 25, the column tile t % 25. -/
theorem idx_facts : ∀ t : Fin cfg0.N,
    win0_0.index t (0 : Fin 2) = t.val / 25 ∧ win0_0.index t (1 : Fin 2) = 0
    ∧ win0_1.index t (0 : Fin 2) = 0 ∧ win0_1.index t (1 : Fin 2) = t.val % 25
    ∧ win0_2.index t (0 : Fin 2) = 0 ∧ win0_2.index t (1 : Fin 2) = t.val % 25
    ∧ win0_3.index t (0 : Fin 2) = t.val / 25 ∧ win0_3.index t (1 : Fin 2) = t.val % 25
    ∧ win0_4.index t (0 : Fin 2) = t.val / 25 ∧ win0_4.index t (1 : Fin 2) = 0 :=
  (by decide +kernel : ∀ t : Fin grid0.N, _)

/-- The three input blocks at point t, and the three arrays they are blocks of: the flattened decoder
    states, the projection matrix and the bias row. -/
abbrev xblk0 (c : Dev nD) (t : Fin cfg0.N) : Vec Ideal S400x512 .f32 := iblk0 V c 0 t
abbrev xblk1 (c : Dev nD) (t : Fin cfg0.N) : Vec Ideal S512x1280 .f32 := iblk0 V c 1 t
abbrev xblk2 (c : Dev nD) (t : Fin cfg0.N) : Vec Ideal S1x1280 .f32 := iblk0 V c 2 t
abbrev arrD (c : Dev nD) : S800x512.Idx → EReal := V c main_v1
abbrev arrW (c : Dev nD) : S512x32000.Idx → EReal := V c main_arg1
abbrev arrB (c : Dev nD) : S1x32000.Idx → EReal := V c main_v0

/-- Row r of the states' block at point t is row 400 (t / 25) + r of the states. -/
theorem xblk0_apply (c : Dev nD) (t : Fin cfg0.N) (r : Fin 400) (h : Fin 512) (ρ : Fin 800)
    (hρ : ρ.val = 400 * (t.val / 25) + r.val) :
    xblk0 V c t (ix2 r h) = arrD V c (ix2 ρ h) := by
  obtain ⟨e0, e1, -⟩ := idx_facts t
  unfold xblk0 iblk0
  rw [View.read_apply]
  show V c main_v1 _ = V c main_v1 _
  congr 1
  funext a
  apply Fin.ext
  match a with
  | ⟨0, _⟩ => show win0_0.index t (0 : Fin 2) * 400 + 1 * r.val = ρ.val; rw [e0, hρ]; omega
  | ⟨1, _⟩ => show win0_0.index t (1 : Fin 2) * 512 + 1 * h.val = h.val; rw [e1]; omega

/-- Column j of the matrix's block at point t is column 1280 (t % 25) + j of the matrix. -/
theorem xblk1_apply (c : Dev nD) (t : Fin cfg0.N) (h : Fin 512) (j : Fin 1280) (v : Fin 32000)
    (hv : v.val = (t.val % 25) * 1280 + j.val) :
    xblk1 V c t (ix2 h j) = arrW V c (ix2 h v) := by
  obtain ⟨-, -, e2, e3, -⟩ := idx_facts t
  unfold xblk1 iblk0
  rw [View.read_apply]
  show V c main_arg1 _ = V c main_arg1 _
  congr 1
  funext a
  apply Fin.ext
  match a with
  | ⟨0, _⟩ => show win0_1.index t (0 : Fin 2) * 512 + 1 * h.val = h.val; rw [e2]; omega
  | ⟨1, _⟩ => show win0_1.index t (1 : Fin 2) * 1280 + 1 * j.val = v.val; rw [e3, hv]; omega

/-- Column j of the bias's block at point t is column 1280 (t % 25) + j of the bias. -/
theorem xblk2_apply (c : Dev nD) (t : Fin cfg0.N) (j : Fin 1280) (v : Fin 32000)
    (hv : v.val = (t.val % 25) * 1280 + j.val) :
    xblk2 V c t (ix2 0 j) = arrB V c (ix2 0 v) := by
  obtain ⟨-, -, -, -, e4, e5, -⟩ := idx_facts t
  unfold xblk2 iblk0
  rw [View.read_apply]
  show V c main_v0 _ = V c main_v0 _
  congr 1
  funext a
  apply Fin.ext
  match a with
  | ⟨0, _⟩ => show win0_2.index t (0 : Fin 2) * 1 + 1 * 0 = 0; rw [e4]
  | ⟨1, _⟩ => show win0_2.index t (1 : Fin 2) * 1280 + 1 * j.val = v.val; rw [e5, hv]; omega

/-- The exponential of the logit of row ρ of the states at vocabulary entry v. -/
def E (c : Dev nD) (ρ : Fin 800) (v : Fin 32000) : EReal :=
  Ideal.exp ((∑ h : Fin 512, arrD V c (ix2 ρ h) * arrW V c (ix2 h v)) + arrB V c (ix2 0 v))

/-- The same over natural numbers, zero outside the ranges. -/
def En (c : Dev nD) (ρ v : ℕ) : EReal := if h : ρ < 800 ∧ v < 32000 then E V c ⟨ρ, h.1⟩ ⟨v, h.2⟩ else 0

theorem En_eq (c : Dev nD) (ρ : Fin 800) (v : Fin 32000) (a b : ℕ) (ha : a = ρ.val) (hb : b = v.val) :
    En V c a b = E V c ρ v := by
  subst ha; subst hb
  unfold En
  rw [dif_pos ⟨ρ.isLt, v.isLt⟩]

/-- The sum of the exponentials of row ρ over column tile k. -/
def tileSum (c : Dev nD) (ρ k : ℕ) : EReal := ∑ j : Fin 1280, En V c ρ (k * 1280 + j.val)

/-- The stored block at point t, at (r, j): the exponential at row 400 (t / 25) + r, entry 1280 (t % 25) + j. -/
theorem pay2_at (c : Dev nD) (t : Fin cfg0.N) (r : Fin 400) (j : Fin 1280) (ρ : Fin 800) (v : Fin 32000)
    (hρ : ρ.val = 400 * (t.val / 25) + r.val) (hv : v.val = (t.val % 25) * 1280 + j.val) :
    k0_pay2 (F := Ideal) (xblk0 V c t) (xblk1 V c t) (xblk2 V c t) (ix2 r j) = E V c ρ v := by
  refine (Pay0.pay2_apply (xblk0 V c t) (xblk1 V c t) (xblk2 V c t) r j).trans ?_
  unfold E
  refine congrArg Ideal.exp (congrArg₂ (· + ·) (Finset.sum_congr rfl fun h _ => ?_) ?_)
  · rw [xblk0_apply V c t r h ρ hρ, xblk1_apply V c t h j v hv]
  · exact xblk2_apply V c t j v hv

/-- The new running column at point t, at row r: the old one plus the tile's sum of exponentials of that row. -/
theorem pay3_at (c : Dev nD) (t : Fin cfg0.N) (xs : Vec Ideal S400x1 .f32) (r : Fin 400) :
    k0_pay3 (F := Ideal) (xblk0 V c t) (xblk1 V c t) (xblk2 V c t) xs (ix2 r 0)
      = xs (ix2 r 0) + tileSum V c (400 * (t.val / 25) + r.val) (t.val % 25) := by
  have ht : t.val < 50 := t.isLt
  refine (Pay0.pay3_apply (xblk0 V c t) (xblk1 V c t) (xblk2 V c t) xs r).trans ?_
  refine congrArg (xs (ix2 r 0) + ·) ?_
  unfold tileSum
  refine Finset.sum_congr rfl fun j _ => ?_
  have hr := r.isLt
  have hj := j.isLt
  rw [pay2_at V c t r j ⟨400 * (t.val / 25) + r.val, by omega⟩ ⟨(t.val % 25) * 1280 + j.val, by omega⟩ rfl rfl]
  exact (En_eq V c _ _ _ _ rfl rfl).symm

end Cert.KernelIdeal.Val0

end
-- ==== Proof.R0ValueScratch.lean ====
import proofs.«429191_j17652315587030_3_alg».proof.Proof.R0ValuePieces
import proofs.«429191_j17652315587030_3_alg».proof.Proof.R0ValueBlocks

/-!
  What the first kernel's buffers hold after each point of its grid.

  The stored block after point t is the block of exponentials at t's rows and columns, whichever of the three
  cases of the body t falls in. The running column of row sums, reset at the first column tile of a row tile,
  holds after point t the sum of the exponentials over the column tiles 0 … t % 25 (by induction on the point);
  so at the last column tile, where it is copied to the row-sum output, it holds the sum over the whole
  vocabulary.
-/

set_option maxRecDepth 16384

noncomputable section

open scoped BigOperators

namespace Cert.KernelIdeal.Val0

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The stored block after point t, at (r, j): the exponential at row 400 (t / 25) + r, entry 1280 (t % 25) + j,
    whichever of the three cases the point is. -/
theorem win3_at (c : Dev nD) (t : Fin cfg0.N) (r : Fin 400) (j : Fin 1280) (ρ : Fin 800) (v : Fin 32000)
    (hρ : ρ.val = 400 * (t.val / 25) + r.val) (hv : v.val = (t.val % 25) * 1280 + j.val) :
    ((outsAt0 V c t.val t.isLt).1 : Vec Ideal S400x1280 .f32) (ix2 r j) = E V c ρ v := by
  by_cases h0 : t.val % 25 = 0
  · have h1 : ¬t.val % 25 = 24 := by omega
    rw [outsAt0_A V c t h0 h1]
    dsimp only
    refine (congrFun (out_A_3 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)) (ix2 r j)).trans ?_
    exact pay2_at V c t r j ρ v hρ hv
  · by_cases h1 : t.val % 25 = 24
    · rw [outsAt0_C V c t h0 h1]
      dsimp only
      refine (congrFun (out_C_3 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) (ix2 r j)).trans ?_
      exact pay2_at V c t r j ρ v hρ hv
    · rw [outsAt0_B V c t h0 h1]
      dsimp only
      refine (congrFun (out_B_3 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) (ix2 r j)).trans ?_
      exact pay2_at V c t r j ρ v hρ hv

/-- After point n the running column at row r holds the sums of the exponentials of row 400 (n / 25) + r over
    the column tiles 0, …, n % 25: by induction on the point, the first tile of a row tile starting from zero. -/
theorem scratch_at (c : Dev nD) : ∀ (n : ℕ) (hn : n < cfg0.N) (r : Fin 400),
    ((outsAt0 V c n hn).2.2 : Vec Ideal S400x1 .f32) (ix2 r 0)
      = ∑ k ∈ Finset.range (n % 25 + 1), tileSum V c (400 * (n / 25) + r.val) k := by
  intro n
  induction n using Nat.strong_induction_on with
  | _ n ih =>
    intro hn r
    by_cases h0 : n % 25 = 0
    · have h1 : ¬n % 25 = 24 := by omega
      rw [outsAt0_A V c ⟨n, hn⟩ h0 h1]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0 (Memref.isWhole_whole _) ((hcond0_0 ⟨n, hn⟩).mpr h0) (fun h => h1 ((hcond0_1 ⟨n, hn⟩).mp h)) (iblk0 V c 0 ⟨n, hn⟩) (iblk0 V c 1 ⟨n, hn⟩) (iblk0 V c 2 ⟨n, hn⟩)) (ix2 r 0)).trans ?_
      refine (pay3_at V c ⟨n, hn⟩ (k0_pay1 (F := Ideal)) r).trans ?_
      rw [Pay0.pay1_apply, zero_add]
      show tileSum V c (400 * (n / 25) + r.val) (n % 25) = _
      rw [h0, Finset.sum_range_one]
    · have e1 : (n - 1) % 25 + 1 = n % 25 := by omega
      have e2 : (n - 1) / 25 = n / 25 := by omega
      have hp : n - 1 < n := by omega
      by_cases h1 : n % 25 = 24
      · rw [outsAt0_C V c ⟨n, hn⟩ h0 h1]
        dsimp only
        refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0 (Memref.isWhole_whole _) (fun h => h0 ((hcond0_0 ⟨n, hn⟩).mp h)) ((hcond0_1 ⟨n, hn⟩).mpr h1) (iblk0 V c 0 ⟨n, hn⟩) (iblk0 V c 1 ⟨n, hn⟩) (iblk0 V c 2 ⟨n, hn⟩) (outsAt0 V c (n - 1) (Nat.lt_of_le_of_lt (Nat.sub_le n 1) hn)).2.2) (ix2 r 0)).trans ?_
        refine (pay3_at V c ⟨n, hn⟩ (outsAt0 V c (n - 1) (Nat.lt_of_le_of_lt (Nat.sub_le n 1) hn)).2.2 r).trans ?_
        show (outsAt0 V c (n - 1) _).2.2 (ix2 r 0) + tileSum V c (400 * (n / 25) + r.val) (n % 25) = _
        rw [ih (n - 1) hp _ r, e1, e2, Finset.sum_range_succ]
      · rw [outsAt0_B V c ⟨n, hn⟩ h0 h1]
        dsimp only
        refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0 (Memref.isWhole_whole _) (fun h => h0 ((hcond0_0 ⟨n, hn⟩).mp h)) (fun h => h1 ((hcond0_1 ⟨n, hn⟩).mp h)) (iblk0 V c 0 ⟨n, hn⟩) (iblk0 V c 1 ⟨n, hn⟩) (iblk0 V c 2 ⟨n, hn⟩) (outsAt0 V c (n - 1) (Nat.lt_of_le_of_lt (Nat.sub_le n 1) hn)).2.2) (ix2 r 0)).trans ?_
        refine (pay3_at V c ⟨n, hn⟩ (outsAt0 V c (n - 1) (Nat.lt_of_le_of_lt (Nat.sub_le n 1) hn)).2.2 r).trans ?_
        show (outsAt0 V c (n - 1) _).2.2 (ix2 r 0) + tileSum V c (400 * (n / 25) + r.val) (n % 25) = _
        rw [ih (n - 1) hp _ r, e1, e2, Finset.sum_range_succ]

/-- At the last column tile of a row tile the row-sum output's block, at row r, holds the sum of the exponentials
    of row 400 (t / 25) + r over the whole vocabulary. -/
theorem win4_at (c : Dev nD) (t : Fin cfg0.N) (h1 : t.val % 25 = 24) (r : Fin 400) (ρ : Fin 800)
    (hρ : ρ.val = 400 * (t.val / 25) + r.val) :
    ((outsAt0 V c t.val t.isLt).2.1 : Vec Ideal S400x1 .f32) (ix2 r 0) = ∑ v : Fin 32000, E V c ρ v := by
  have h0 : ¬t.val % 25 = 0 := by omega
  have e : ((outsAt0 V c t.val t.isLt).2.1 : Vec Ideal S400x1 .f32) (ix2 r 0)
      = ((outsAt0 V c t.val t.isLt).2.2 : Vec Ideal S400x1 .f32) (ix2 r 0) := by
    rw [outsAt0_C V c t h0 h1]
    dsimp only
    exact (congrFun (out_C_4 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) (ix2 r 0)).trans
      (congrFun (sout_C (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) (ix2 r 0)).symm
  rw [e, scratch_at V c t.val t.isLt r, h1]
  show ∑ k ∈ Finset.range 25, tileSum V c (400 * (t.val / 25) + r.val) k = _
  rw [← Pay0.sum_tiles (fun v => E V c ρ v), Finset.sum_range]
  refine Finset.sum_congr rfl fun k _ => ?_
  unfold tileSum
  refine Finset.sum_congr rfl fun j _ => ?_
  exact En_eq V c ρ _ _ _ hρ.symm rfl

end Cert.KernelIdeal.Val0

end
-- ==== Proof.R0Value.lean ====
import proofs.«429191_j17652315587030_3_alg».proof.Proof.R0ValueScratch

/-!
  The two arrays the first kernel leaves.

  Every entry of the exponentials' array is written back by the point of its row tile and column tile, with the
  exponential of the logit at that entry; every row of the row-sum array is written back by the point of its
  row tile at the last column tile, with the sum of that row's exponentials over the whole vocabulary. So after
  the region the first array holds exp (states · matrix + bias) entry by entry and the second its row sums.
-/

set_option maxRecDepth 16384

noncomputable section

open scoped BigOperators

namespace Cert.KernelIdeal.Val0

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- What the exponentials' array ends holding: at (ρ, v), the exponential of the logit of row ρ at entry v. -/
abbrev G3 (c : Dev nD) : S800x32000.Idx → EReal := fun i => E V c (i 0) (i 1)
/-- What the row-sum array ends holding: at row ρ, the sum of those exponentials over the vocabulary. -/
abbrev G4 (c : Dev nD) : S800x1.Idx → EReal := fun i => ∑ v : Fin 32000, E V c (i 0) v

/-- What point t writes back to the exponentials' array is its block of G3. -/
theorem flushed3_eq (c : Dev nD) (t : Fin cfg0.N) :
    (dat0 V c).flushed 3 t = ((cfg0.win 3).blk t).view.read (Elt Ideal) (G3 V c) := by
  obtain ⟨-, -, -, -, -, -, e6, e7, -⟩ := idx_facts t
  show (cfg0.win 3).cut (grid0.coords t) ((dat0 V c).after 3 t) = _
  rw [after0_3]
  funext y
  obtain ⟨r, j, rfl⟩ : ∃ (r : Fin 400) (j : Fin 1280), y = ix2 r j := ⟨y 0, y 1, eq_ix2 y⟩
  rw [View.read_apply]
  show ((outsAt0 V c t.val t.isLt).1 : Vec Ideal S400x1280 .f32) (ix2 r j) = G3 V c (((cfg0.win 3).blk t).view.emb (ix2 r j))
  refine win3_at V c t r j _ _ ?_ ?_
  · show win0_3.index t (0 : Fin 2) * 400 + 1 * r.val = _
    rw [e6]; omega
  · show win0_3.index t (1 : Fin 2) * 1280 + 1 * j.val = _
    rw [e7]; omega

/-- An index of the exponentials' array is in point t's block iff each coordinate is in the block's range. -/
theorem mem_blk3 (t : Fin cfg0.N) (i : S800x32000.Idx) :
    i ∈ ((cfg0.win 3).blk t).view.set ↔ ∀ a : Fin 2, win0_3.index t a * S400x1280.size a ≤ (i a).val ∧ (i a).val < win0_3.index t a * S400x1280.size a + S400x1280.size a := by
  show i ∈ ((View.whole main_v2_0).slice (win0_3.rect t)).set ↔ _
  rw [View.set_slice_whole, Rect.mem_set_unit]
  exact Iff.rfl

/-- Entry (ρ, v) is written back by the point of row tile ρ / 400 and column tile v / 1280. -/
theorem cover3 (i : S800x32000.Idx) :
    ∃ t : Fin cfg0.N, (cfg0.win 3).flush t = true ∧ i ∈ ((cfg0.win 3).blk t).view.set := by
  have hi0 : (i 0).val < 800 := (i 0).isLt
  have hi1 : (i 1).val < 32000 := (i 1).isLt
  have ht : 25 * ((i 0).val / 400) + (i 1).val / 1280 < cfg0.N := by show _ < 50; omega
  obtain ⟨-, -, -, -, -, -, e6, e7, -⟩ := idx_facts ⟨_, ht⟩
  refine ⟨⟨_, ht⟩, flush0_3 _, ?_⟩
  rw [mem_blk3]
  intro a
  match a with
  | ⟨0, _⟩ =>
    show win0_3.index ⟨_, ht⟩ (0 : Fin 2) * 400 ≤ (i 0).val ∧ (i 0).val < win0_3.index ⟨_, ht⟩ (0 : Fin 2) * 400 + 400
    rw [e6]; dsimp only; omega
  | ⟨1, _⟩ =>
    show win0_3.index ⟨_, ht⟩ (1 : Fin 2) * 1280 ≤ (i 1).val ∧ (i 1).val < win0_3.index ⟨_, ht⟩ (1 : Fin 2) * 1280 + 1280
    rw [e7]; dsimp only; omega

/-- The exponentials' array after the region. -/
theorem final3 (c : Dev nD) : (dat0 V c).arrAt 3 cfg0.N = G3 V c :=
  (dat0 V c).arrAt_eq_of_cover 3 (G3 V c) (fun t _ => flushed3_eq V c t) cover3

/-- If the row-sum output's block at point t is, row by row, the value of a function g of the array's index at
    that row, what point t writes back is its block of g. -/
theorem flushed4_eq_of (c : Dev nD) (g : S800x1.Idx → EReal) (t : Fin cfg0.N)
    (hg : ∀ (r : Fin 400) (i : S800x1.Idx), (i 0).val = 400 * (t.val / 25) + r.val →
      ((outsAt0 V c t.val t.isLt).2.1 : Vec Ideal S400x1 .f32) (ix2 r (0 : Fin 1)) = g i) :
    (dat0 V c).flushed 4 t = ((cfg0.win 4).blk t).view.read (Elt Ideal) g := by
  obtain ⟨-, -, -, -, -, -, -, -, e8, e9⟩ := idx_facts t
  show (cfg0.win 4).cut (grid0.coords t) ((dat0 V c).after 4 t) = _
  rw [after0_4]
  funext y
  obtain ⟨r, u, rfl⟩ : ∃ (r : Fin 400) (u : Fin 1), y = ix2 r u := ⟨y 0, y 1, eq_ix2 y⟩
  obtain rfl : u = (0 : Fin 1) := Subsingleton.elim _ _
  rw [View.read_apply]
  show ((outsAt0 V c t.val t.isLt).2.1 : Vec Ideal S400x1 .f32) (ix2 r (0 : Fin 1)) = g (((cfg0.win 4).blk t).view.emb (ix2 r (0 : Fin 1)))
  refine hg r _ ?_
  show win0_4.index t (0 : Fin 2) * 400 + 1 * r.val = _
  rw [e8]; omega

/-- What a point at the last column tile writes back to the row-sum array is its block of G4. -/
theorem flushed4_eq (c : Dev nD) (t : Fin cfg0.N) (hf : (cfg0.win 4).flush t = true) :
    (dat0 V c).flushed 4 t = ((cfg0.win 4).blk t).view.read (Elt Ideal) (G4 V c) :=
  flushed4_eq_of V c (G4 V c) t fun r i hi => win4_at V c t ((flush0_4 t).mp hf) r (i 0) hi

/-- An index of the row-sum array is in point t's block iff each coordinate is in the block's range. -/
theorem mem_blk4 (t : Fin cfg0.N) (i : S800x1.Idx) :
    i ∈ ((cfg0.win 4).blk t).view.set ↔ ∀ a : Fin 2, win0_4.index t a * S400x1.size a ≤ (i a).val ∧ (i a).val < win0_4.index t a * S400x1.size a + S400x1.size a := by
  show i ∈ ((View.whole main_v2_1).slice (win0_4.rect t)).set ↔ _
  rw [View.set_slice_whole, Rect.mem_set_unit]
  exact Iff.rfl

/-- Row ρ is written back by the point of row tile ρ / 400 at the last column tile. -/
theorem cover4 (i : S800x1.Idx) :
    ∃ t : Fin cfg0.N, (cfg0.win 4).flush t = true ∧ i ∈ ((cfg0.win 4).blk t).view.set := by
  have hi0 : (i 0).val < 800 := (i 0).isLt
  have hi1 : (i 1).val < 1 := (i 1).isLt
  have ht : 25 * ((i 0).val / 400) + 24 < cfg0.N := by show _ < 50; omega
  obtain ⟨-, -, -, -, -, -, -, -, e8, e9⟩ := idx_facts ⟨_, ht⟩
  refine ⟨⟨_, ht⟩, (flush0_4 _).mpr (by dsimp only; omega), ?_⟩
  rw [mem_blk4]
  intro a
  match a with
  | ⟨0, _⟩ =>
    show win0_4.index ⟨_, ht⟩ (0 : Fin 2) * 400 ≤ (i 0).val ∧ (i 0).val < win0_4.index ⟨_, ht⟩ (0 : Fin 2) * 400 + 400
    rw [e8]; dsimp only; omega
  | ⟨1, _⟩ =>
    show win0_4.index ⟨_, ht⟩ (1 : Fin 2) * 1 ≤ (i 1).val ∧ (i 1).val < win0_4.index ⟨_, ht⟩ (1 : Fin 2) * 1 + 1
    rw [e9]; omega

/-- The row-sum array after the region. -/
theorem final4 (c : Dev nD) : (dat0 V c).arrAt 4 cfg0.N = G4 V c :=
  (dat0 V c).arrAt_eq_of_cover 4 (G4 V c) (flushed4_eq V c) cover4

/-- The exponentials' array after the first kernel, entry by entry: at (r, v), the exponential of the logit of
    row r of the flattened decoder states at vocabulary entry v. -/
theorem arr3_apply (c : Dev nD) (x0 : S800x512.Idx → EReal) (x1 : S512x32000.Idx → EReal) (x2 : S1x32000.Idx → EReal) :
    x0 = V c main_v1 → x1 = V c main_arg1 → x2 = V c main_v0 → ∀ (r : Fin 800) (v : Fin 32000),
    (dat0 V c).arrAt 3 cfg0.N (ix2 r v) = Ideal.exp ((∑ h : Fin 512, x0 (ix2 r h) * x1 (ix2 h v)) + x2 (ix2 0 v)) := by
  intro h0 h1 h2 r v
  subst h0; subst h1; subst h2
  exact (congrFun (final3 V c) (ix2 r v)).trans rfl

/-- The row-sum array after the first kernel, row by row: at row r, the sum over the vocabulary of those
    exponentials. -/
theorem arr4_apply (c : Dev nD) (x0 : S800x512.Idx → EReal) (x1 : S512x32000.Idx → EReal) (x2 : S1x32000.Idx → EReal) :
    x0 = V c main_v1 → x1 = V c main_arg1 → x2 = V c main_v0 → ∀ (r : Fin 800),
    (dat0 V c).arrAt 4 cfg0.N (ix2 r 0) = ∑ v : Fin 32000, Ideal.exp ((∑ h : Fin 512, x0 (ix2 r h) * x1 (ix2 h v)) + x2 (ix2 0 v)) := by
  intro h0 h1 h2 r
  subst h0; subst h1; subst h2
  exact (congrFun (final4 V c) (ix2 r 0)).trans rfl

end Cert.KernelIdeal.Val0

end
-- ==== Proof.R1Pay.lean ====
/-
  The second kernel's arithmetic at one grid point, read at an index. At the grid point whose vocabulary tile
  number is vt (tile offset vt * 1280) the body stores, at decoder step t and column j of the tile,
    log ( p[t] * (sum over s of weights[t,s] * tile[s,j]) + (1 - p[t]) * (expo[t,j] / total[t]) ),
  where tile[s,j] is the sum over the eight slots k of trans[s,k] * (1 if probs[s,k] exceeds the threshold else 0),
  kept where the 32-bit word idx[s,k] - vt * 1280 equals the word j, and 0 elsewhere. Since j < 1280 and
  vt * 1280 + j < 32000 < 2^31, that word equation holds exactly when idx[s,k] read signed is vt * 1280 + j.
-/
import proofs.«429191_j17652315587030_3_alg».proof.Proof.Gen.KernelIdeal.Skeleton
import proofs.«429191_j17652315587030_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.Pay1

open Cert.KernelIdeal Cert.KernelIdeal.Gen Idealize.ShloMosaic Idealize.ShloMosaic.ValueIdx

/-- The body's stored value as one term over the seven loaded blocks. -/
def blend {F : FTy → Type} [FloatOps F] (i : grid1.Coords) (x0 : Vec F S1x100x1280 .f32) (x1 : Vec F S1x100x1 .f32)
    (x2 : Vec F S1x100x400 .f32) (x3 : Vec F S1x100x1 .f32) (x4 x5 : Vec F S1x400x8 .f32) (x6 : Vec F S1x400x8 .i32) :
    FVec F S1x100x1280 .f32 :=
  k1_pay1 (k1_pay2 x0 x1)
    (k1_pay11 (k1_pay3 x4 x5) (k1_pay4 i x6) (iota .tc S400x1280 32 [1] iota_S400x1280_d1_w32)
      (k1_pay7 (k1_pay3 x4 x5) (k1_pay4 i x6) (iota .tc S400x1280 32 [1] iota_S400x1280_d1_w32) (k1_pay5 i x4 x5 x6) (k1_pay6 i x6))
      (k1_pay8 (k1_pay4 i x6) (iota .tc S400x1280 32 [1] iota_S400x1280_d1_w32)) (k1_pay9 (k1_pay3 x4 x5)) (k1_pay10 (F := F)) x2)
    x3

/-- A comparison bit widened to 32 bits and converted to a float is 1 where the comparison holds and 0 elsewhere. -/
theorem gate_word (a : EReal) :
    (FloatOps.sitofp (F := Ideal) .f32 ((FloatOps.cmpf (F := Ideal) (φ := .f32) .ogt a (FloatOps.ofBits .f32 0x3D4CCCCD#32)).setWidth 32) : EReal)
      = if Cert.Spec.thr < a then (1 : EReal) else 0 := by
  show (((((Ideal.cmp .ogt a Cert.Spec.thr).setWidth 32).toInt : ℤ) : ℝ) : EReal) = _
  unfold Ideal.cmp
  by_cases h : Cert.Spec.thr < a
  · simp [h]
  · simp [h]

/-- The gated translation probability at source position s, slot k. -/
theorem pay3_apply (x4 x5 : Vec Ideal S1x400x8 .f32) (s : Fin 400) (k : Fin 8) :
    k1_pay3 (F := Ideal) x4 x5 (ix2 s k)
      = x4 (ix3 0 s k) * (if Cert.Spec.thr < x5 (ix3 0 s k) then (1 : EReal) else 0) := by
  unfold k1_pay3
  show shapeCast S400x8 x4 shapeCasts_S1x400x8_S400x8 (ix2 s k)
      * FloatOps.sitofp (F := Ideal) .f32 ((FloatOps.cmpf (F := Ideal) (φ := .f32) .ogt
          (shapeCast S400x8 x5 shapeCasts_S1x400x8_S400x8 (ix2 s k)) (FloatOps.ofBits .f32 0x3D4CCCCD#32)).setWidth 32) = _
  rw [shapeCast_1ab_ab_apply, shapeCast_1ab_ab_apply, gate_word]

/-- The index word minus the tile offset, at source position s, slot k. -/
theorem pay4_apply (i : grid1.Coords) (x6 : Vec Ideal S1x400x8 .i32) (s : Fin 400) (k : Fin 8) :
    k1_pay4 (F := Ideal) i x6 (ix2 s k) = x6 (ix3 0 s k) - BitVec.ofNat 32 (i 1).val * 1280#32 := by
  unfold k1_pay4
  show shapeCast S400x8 x6 shapeCasts_S1x400x8_S400x8 (ix2 s k) - _ = _
  rw [shapeCast_1ab_ab_apply]
  rfl

/-- The word compare the body makes: a - vt * 1280 = j as 32-bit words exactly when a read signed is vt * 1280 + j
    (vt < 25, j < 1280, so vt * 1280 + j < 2^31 and that sum does not wrap). -/
theorem word_eq_iff (a : BitVec 32) (vt j : Nat) (hvt : vt < 25) (hj : j < 1280) :
    IntOp.cmpi .eq (a - BitVec.ofNat 32 vt * 1280#32) (BitVec.ofNat 32 j) = 1#1 ↔ a.toInt = ((vt * 1280 + j : ℕ) : ℤ) := by
  rw [IntOp.cmpi_eq]
  constructor
  · intro h
    have ha : a = BitVec.ofNat 32 (vt * 1280 + j) := by bv_omega
    rw [ha, StableHlo.Predicate.toInt_ofNat_small _ (by omega)]
  · intro h
    have ha : a = BitVec.ofNat 32 (vt * 1280 + j) := by
      rw [← BitVec.ofInt_toInt (x := a), h, BitVec.ofInt_natCast]
    rw [ha]
    bv_omega

/-! ## Column layouts read at an index -/

section Layout
variable {α : Type}

/-- An [a, 1] column cast to the vector [a] reads, at s, the column at (s, 0). -/
theorem shapeCast_a1_a_apply {a : ℕ} (x : (⟨2, ![a, 1]⟩ : Shape).Idx → α) (h : (⟨2, ![a, 1]⟩ : Shape).ShapeCasts ⟨1, ![a]⟩)
    (s : Fin a) : shapeCast ⟨1, ![a]⟩ x h (ix1 s) = x (ix2 s (0 : Fin 1)) :=
  shapeCast_apply x h _ _ (by
    rw [Shape.rowMajor_val_two, Shape.rowMajor_val_one]
    show s.val * 1 + 0 = s.val
    omega)

/-- A vector [a] cast to the column [a, 1] reads, at (s, u), the vector at s. -/
theorem shapeCast_a_a1_apply {a : ℕ} (x : (⟨1, ![a]⟩ : Shape).Idx → α) (h : (⟨1, ![a]⟩ : Shape).ShapeCasts ⟨2, ![a, 1]⟩)
    (s : Fin a) (u : Fin 1) : shapeCast ⟨2, ![a, 1]⟩ x h (ix2 s u) = x (ix1 s) :=
  shapeCast_apply x h _ _ (by
    have hu : u.val = 0 := by omega
    rw [Shape.rowMajor_val_two, Shape.rowMajor_val_one]
    show s.val = s.val * 1 + u.val
    omega)

/-- An [a, 1] column broadcast to [a, b] reads, at (s, j), the column at (s, 0). -/
theorem broadcastTo_a1_ab_apply {a b : ℕ} (x : (⟨2, ![a, 1]⟩ : Shape).Idx → α) (h : (⟨2, ![a, 1]⟩ : Shape).Broadcasts ⟨2, ![a, b]⟩)
    (s : Fin a) (j : Fin b) : broadcastTo ⟨2, ![a, b]⟩ x h (ix2 s j) = x (ix2 s (0 : Fin 1)) := by
  refine broadcastTo_apply x h (ix2 s j) (ix2 s (0 : Fin 1)) fun ax => ?_
  match ax with
  | ⟨0, _⟩ =>
    show s.val = if a = 1 then 0 else s.val
    split
    · have := s.isLt; omega
    · rfl
  | ⟨1, _⟩ => rfl

end Layout

/-! ## One slot of the tile -/

section Slot
variable {α : Type}

/-- Column k of a [400, 8] array, cut out, flattened, made a column again and broadcast along the tile, read at (s, j),
    is the array at (s, k). -/
theorem col_apply (v : S400x8.Idx → α) (o : ℕ) (h : S400x8.Slices ![0, o] S400x1) (k : Fin 8) (hk : k.val = o)
    (s : Fin 400) (j : Fin 1280) :
    broadcastTo S400x1280 (shapeCast S400x1 (shapeCast S400 (extractStridedSlice S400x1 ![0, o] v h) shapeCasts_S400x1_S400)
        shapeCasts_S400_S400x1) broadcasts_S400x1_S400x1280 (ix2 s j) = v (ix2 s k) := by
  rw [broadcastTo_a1_ab_apply, shapeCast_a_a1_apply, shapeCast_a1_a_apply]
  exact slice2_axis1_apply o v h s 0 k (by simpa using hk)

/-- The same through one more cast of the column to its own shape, which is the identity. -/
theorem col_apply' (v : S400x8.Idx → α) (o : ℕ) (h : S400x8.Slices ![0, o] S400x1) (k : Fin 8) (hk : k.val = o)
    (s : Fin 400) (j : Fin 1280) :
    broadcastTo S400x1280 (shapeCast S400x1 (shapeCast S400x1 (shapeCast S400 (extractStridedSlice S400x1 ![0, o] v h) shapeCasts_S400x1_S400)
        shapeCasts_S400_S400x1) shapeCasts_S400x1_S400x1) broadcasts_S400x1_S400x1280 (ix2 s j) = v (ix2 s k) := by
  rw [shapeCast_self]
  exact col_apply v o h k hk s j

/-- The zero column broadcast along the tile is 0 everywhere. -/
theorem zero_col_apply (q : S400x1280.Idx) :
    broadcastTo S400x1280 (shapeCast S400x1 (broadcast S400x1 (Scalar.ofBits (F := Ideal) .f32 0x00000000#32)) shapeCasts_S400x1_S400x1)
        broadcasts_S400x1_S400x1280 q = (0 : EReal) := by
  rw [shapeCast_self]
  exact Ideal.ofBits_zero_f32

end Slot

/-- A vector word compare read at an index. -/
theorem cmpi_apply {s : Shape} {w : ℕ} (p : CmpIPredicate) (a b : IVec s w) (i : s.Idx) :
    cmpi p a b i = IntOp.cmpi p (a i) (b i) := rfl

/-- Slots 1 to 3 added to the running tile, at (s, j). -/
theorem pay7_apply (v15 : FVec Ideal S400x8 .f32) (v19 : IVec S400x8 32) (v20 : IVec S400x1280 32)
    (v36 : FVec Ideal S400x1280 .f32) (v38 : IVec S400 32) (s : Fin 400) (j : Fin 1280) :
    k1_pay7 (F := Ideal) v15 v19 v20 v36 v38 (ix2 s j)
      = ((v36 (ix2 s j) + Scalar.select (IntOp.cmpi .eq (v38 (ix1 s)) (v20 (ix2 s j))) (v15 (ix2 s 1)) 0)
          + Scalar.select (IntOp.cmpi .eq (v19 (ix2 s 2)) (v20 (ix2 s j))) (v15 (ix2 s 2)) 0)
          + Scalar.select (IntOp.cmpi .eq (v19 (ix2 s 3)) (v20 (ix2 s j))) (v15 (ix2 s 3)) 0 := by
  unfold k1_pay7
  simp only [addf_apply, select_apply, cmpi_apply]
  rw [col_apply' v15 1 slices_S400x8_o0_1_S400x1 1 rfl, col_apply' v15 2 slices_S400x8_o0_2_S400x1 2 rfl,
    col_apply' v15 3 slices_S400x8_o0_3_S400x1 3 rfl, col_apply v19 2 slices_S400x8_o0_2_S400x1 2 rfl,
    col_apply v19 3 slices_S400x8_o0_3_S400x1 3 rfl, zero_col_apply, broadcastTo_a1_ab_apply, shapeCast_a_a1_apply]

/-- Slot 0, added to the zero tile. -/
theorem pay5_apply (i : grid1.Coords) (x4 x5 : Vec Ideal S1x400x8 .f32) (x6 : Vec Ideal S1x400x8 .i32) (s : Fin 400) (j : Fin 1280) :
    k1_pay5 (F := Ideal) i x4 x5 x6 (ix2 s j)
      = 0 + Scalar.select (IntOp.cmpi .eq (k1_pay4 (F := Ideal) i x6 (ix2 s 0))
              (iota .tc S400x1280 32 [1] iota_S400x1280_d1_w32 (ix2 s j))) (k1_pay3 (F := Ideal) x4 x5 (ix2 s 0)) 0 := by
  unfold k1_pay5
  simp only [addf_apply, select_apply, cmpi_apply, broadcast_apply]
  rw [col_apply' (k1_pay3 (F := Ideal) x4 x5) 0 slices_S400x8_o0_0_S400x1 0 rfl,
    col_apply (k1_pay4 (F := Ideal) i x6) 0 slices_S400x8_o0_0_S400x1 0 rfl, zero_col_apply]
  exact congrArg (· + _) Ideal.ofBits_zero_f32

/-- Slot 1's index column, flattened. -/
theorem pay6_apply (i : grid1.Coords) (x6 : Vec Ideal S1x400x8 .i32) (s : Fin 400) :
    k1_pay6 (F := Ideal) i x6 (ix1 s) = k1_pay4 (F := Ideal) i x6 (ix2 s 1) := by
  unfold k1_pay6
  exact (shapeCast_a1_a_apply _ shapeCasts_S400x1_S400 s).trans
    (slice2_axis1_apply 1 (k1_pay4 (F := Ideal) i x6) slices_S400x8_o0_1_S400x1 s 0 1 rfl)

/-- Slot 4's word compare. -/
theorem pay8_apply (v19 : IVec S400x8 32) (v20 : IVec S400x1280 32) (s : Fin 400) (j : Fin 1280) :
    k1_pay8 v19 v20 (ix2 s j) = IntOp.cmpi .eq (v19 (ix2 s 4)) (v20 (ix2 s j)) := by
  unfold k1_pay8
  simp only [cmpi_apply]
  rw [col_apply v19 4 slices_S400x8_o0_4_S400x1 4 rfl]

/-- Slot 4's value column. -/
theorem pay9_apply (v15 : FVec Ideal S400x8 .f32) (s : Fin 400) (j : Fin 1280) :
    k1_pay9 (F := Ideal) v15 (ix2 s j) = v15 (ix2 s 4) := by
  unfold k1_pay9
  exact col_apply' v15 4 slices_S400x8_o0_4_S400x1 4 rfl s j

/-- Slot 4's zero column. -/
theorem pay10_apply (q : S400x1280.Idx) : k1_pay10 (F := Ideal) q = (0 : EReal) := by
  unfold k1_pay10
  exact zero_col_apply q

/-! ## The product of the weights block with the tile -/

/-- The product's operand indices at output index j and contraction index q, axis by axis. -/
theorem lhs_mm_0 (j : S100x1280.Idx) (q : dot_S100x400_S400x1280_S100x1280_1_0_0_1_n_n.contr.Idx) :
    (dot_S100x400_S400x1280_S100x1280_1_0_0_1_n_n.lhsIdx j q 0).val = (j 0).val := by
  unfold DotDims.lhsIdx
  rw [dif_neg (show ¬(0 : Fin S100x400.rank) ∈ dot_S100x400_S400x1280_S100x1280_1_0_0_1_n_n.lhsBatch by decide), dif_pos (show (0 : Fin S100x400.rank) ∈ dot_S100x400_S400x1280_S100x1280_1_0_0_1_n_n.lhsNonContracting by decide)]
  rfl
theorem lhs_mm_1 (j : S100x1280.Idx) (q : dot_S100x400_S400x1280_S100x1280_1_0_0_1_n_n.contr.Idx) :
    (dot_S100x400_S400x1280_S100x1280_1_0_0_1_n_n.lhsIdx j q 1).val = (q ⟨0, by decide⟩).val :=
  dot_S100x400_S400x1280_S100x1280_1_0_0_1_n_n.lhsIdx_val_of_single rfl j q
theorem rhs_mm_0 (j : S100x1280.Idx) (q : dot_S100x400_S400x1280_S100x1280_1_0_0_1_n_n.contr.Idx) :
    (dot_S100x400_S400x1280_S100x1280_1_0_0_1_n_n.rhsIdx j q 0).val = (q ⟨0, by decide⟩).val :=
  dot_S100x400_S400x1280_S100x1280_1_0_0_1_n_n.rhsIdx_val_of_single rfl j q
theorem rhs_mm_1 (j : S100x1280.Idx) (q : dot_S100x400_S400x1280_S100x1280_1_0_0_1_n_n.contr.Idx) :
    (dot_S100x400_S400x1280_S100x1280_1_0_0_1_n_n.rhsIdx j q 1).val = (j 1).val := by
  unfold DotDims.rhsIdx
  rw [dif_neg (show ¬(1 : Fin S400x1280.rank) ∈ dot_S100x400_S400x1280_S100x1280_1_0_0_1_n_n.rhsBatch by decide), dif_pos (show (1 : Fin S400x1280.rank) ∈ dot_S100x400_S400x1280_S100x1280_1_0_0_1_n_n.rhsNonContracting by decide)]
  rfl

/-- The [100, 400] by [400, 1280] product onto a zero accumulator, at (t, j): the sum over the 400 source positions. -/
theorem mm_apply (A : FVec Ideal S100x400 .bf16) (B : FVec Ideal S400x1280 .bf16) (t : Fin 100) (j : Fin 1280) :
    matmul dot_S100x400_S400x1280_S100x1280_1_0_0_1_n_n none A B (constant (F := Ideal) S100x1280 .f32 0x00000000#32) (ix2 t j)
      = ∑ s : Fin 400, A (ix2 t s) * B (ix2 s j) := by
  simp only [matmul]
  rw [Ideal.matmul_constant_zero_apply, ← Equiv.sum_comp (contrEquiv1 dot_S100x400_S400x1280_S100x1280_1_0_0_1_n_n 400 rfl rfl).symm]
  refine Finset.sum_congr rfl fun s _ => ?_
  have hk := contrEquiv1_symm_val dot_S100x400_S400x1280_S100x1280_1_0_0_1_n_n 400 rfl rfl s
  have el : dot_S100x400_S400x1280_S100x1280_1_0_0_1_n_n.lhsIdx (ix2 t j) ((contrEquiv1 dot_S100x400_S400x1280_S100x1280_1_0_0_1_n_n 400 rfl rfl).symm s) = ix2 t s := funext fun a => Fin.ext (by
    match a with
    | ⟨0, _⟩ => exact lhs_mm_0 _ _
    | ⟨1, _⟩ => exact (lhs_mm_1 _ _).trans hk)
  have er : dot_S100x400_S400x1280_S100x1280_1_0_0_1_n_n.rhsIdx (ix2 t j) ((contrEquiv1 dot_S100x400_S400x1280_S100x1280_1_0_0_1_n_n 400 rfl rfl).symm s) = ix2 s j := funext fun a => Fin.ext (by
    match a with
    | ⟨0, _⟩ => exact (rhs_mm_0 _ _).trans hk
    | ⟨1, _⟩ => exact rhs_mm_1 _ _)
  rw [el, er]

/-- Slots 4 to 7 added to the running tile, then the product with the weights block, at (t, j). -/
theorem pay11_apply (v15 : FVec Ideal S400x8 .f32) (v19 : IVec S400x8 32) (v20 : IVec S400x1280 32)
    (v81 : FVec Ideal S400x1280 .f32) (v89 : IVec S400x1280 1) (v92 v94 : FVec Ideal S400x1280 .f32)
    (v142 : Vec Ideal S1x100x400 .f32) (t : Fin 100) (j : Fin 1280) :
    k1_pay11 (F := Ideal) v15 v19 v20 v81 v89 v92 v94 v142 (ix2 t j)
      = ∑ s : Fin 400, v142 (ix3 0 t s) *
          ((((v81 (ix2 s j) + Scalar.select (v89 (ix2 s j)) (v92 (ix2 s j)) (v94 (ix2 s j)))
            + Scalar.select (IntOp.cmpi .eq (v19 (ix2 s 5)) (v20 (ix2 s j))) (v15 (ix2 s 5)) 0)
            + Scalar.select (IntOp.cmpi .eq (v19 (ix2 s 6)) (v20 (ix2 s j))) (v15 (ix2 s 6)) 0)
            + Scalar.select (IntOp.cmpi .eq (v19 (ix2 s 7)) (v20 (ix2 s j))) (v15 (ix2 s 7)) 0) := by
  unfold k1_pay11
  refine (mm_apply _ _ t j).trans ?_
  refine Finset.sum_congr rfl fun s _ => ?_
  simp only [truncf_apply, addf_apply, select_apply, cmpi_apply]
  rw [shapeCast_1ab_ab_apply, col_apply' v15 5 slices_S400x8_o0_5_S400x1 5 rfl, col_apply' v15 6 slices_S400x8_o0_6_S400x1 6 rfl,
    col_apply' v15 7 slices_S400x8_o0_7_S400x1 7 rfl, col_apply v19 5 slices_S400x8_o0_5_S400x1 5 rfl,
    col_apply v19 6 slices_S400x8_o0_6_S400x1 6 rfl, col_apply v19 7 slices_S400x8_o0_7_S400x1 7 rfl, zero_col_apply]

/-! ## The quotient and the final logarithm -/

/-- The generator's share: the exponential over the row total, at (t, j). -/
theorem pay2_apply (x0 : Vec Ideal S1x100x1280 .f32) (x1 : Vec Ideal S1x100x1 .f32) (t : Fin 100) (j : Fin 1280) :
    k1_pay2 (F := Ideal) x0 x1 (ix2 t j) = Ideal.div (x0 (ix3 0 t j)) (x1 (ix3 0 t 0)) := by
  unfold k1_pay2
  simp only [divf_apply]
  rw [shapeCast_1ab_ab_apply, broadcastTo_a1_ab_apply, shapeCast_1ab_ab_apply]

/-- A vector logarithm read at an index. -/
theorem log_apply {s : Shape} {φ : FTy} (a : FVec Ideal s φ) (i : s.Idx) : log a i = Ideal.log (a i) := rfl

/-- The blend and its logarithm, at (0, t, j). -/
theorem pay1_apply (v6 v146 : FVec Ideal S100x1280 .f32) (v147 : Vec Ideal S1x100x1 .f32) (t : Fin 100) (j : Fin 1280) :
    k1_pay1 (F := Ideal) v6 v146 v147 (ix3 0 t j)
      = Ideal.log (v147 (ix3 0 t 0) * v146 (ix2 t j) + (Cert.Spec.one - v147 (ix3 0 t 0)) * v6 (ix2 t j)) := by
  unfold k1_pay1
  rw [shapeCast_ab_1ab_apply]
  simp only [log_apply, addf_apply, mulf_apply]
  rw [broadcastTo_a1_ab_apply, broadcastTo_a1_ab_apply, shapeCast_1ab_ab_apply]
  simp only [subf_apply, broadcast_apply]
  rw [shapeCast_1ab_ab_apply]
  rfl

/-! ## The tile and the whole stored value -/

/-- One slot: the gated translation probability where idx[s,k] read signed is the tile offset plus j, 0 elsewhere. -/
theorem slot_eq (i : grid1.Coords) (x4 x5 : Vec Ideal S1x400x8 .f32) (x6 : Vec Ideal S1x400x8 .i32)
    (s : Fin 400) (k : Fin 8) (j : Fin 1280) :
    Scalar.select (IntOp.cmpi .eq (k1_pay4 (F := Ideal) i x6 (ix2 s k)) ((iota .tc S400x1280 32 [1] iota_S400x1280_d1_w32) (ix2 s j)))
        (k1_pay3 (F := Ideal) x4 x5 (ix2 s k)) (0 : EReal)
      = if (x6 (ix3 0 s k)).toInt = (((i 1).val * 1280 + j.val : ℕ) : ℤ)
          then x4 (ix3 0 s k) * (if Cert.Spec.thr < x5 (ix3 0 s k) then (1 : EReal) else 0) else 0 := by
  rw [pay4_apply, pay3_apply, iota_single_apply]
  unfold Scalar.select
  exact if_congr (word_eq_iff _ _ _ (i 1).isLt j.isLt) rfl rfl

/-- The accumulated tile at (s, j): the sum over the eight slots. -/
theorem tile_apply (i : grid1.Coords) (x4 x5 : Vec Ideal S1x400x8 .f32) (x6 : Vec Ideal S1x400x8 .i32)
    (s : Fin 400) (j : Fin 1280) :
    ((((k1_pay7 (F := Ideal) (k1_pay3 x4 x5) (k1_pay4 (F := Ideal) i x6) (iota .tc S400x1280 32 [1] iota_S400x1280_d1_w32) (k1_pay5 i x4 x5 x6) (k1_pay6 (F := Ideal) i x6) (ix2 s j)
        + Scalar.select (k1_pay8 (k1_pay4 (F := Ideal) i x6) (iota .tc S400x1280 32 [1] iota_S400x1280_d1_w32) (ix2 s j)) (k1_pay9 (F := Ideal) (k1_pay3 x4 x5) (ix2 s j))
            (k1_pay10 (F := Ideal) (ix2 s j)))
        + Scalar.select (IntOp.cmpi .eq (k1_pay4 (F := Ideal) i x6 (ix2 s 5)) ((iota .tc S400x1280 32 [1] iota_S400x1280_d1_w32) (ix2 s j))) (k1_pay3 (F := Ideal) x4 x5 (ix2 s 5)) 0)
        + Scalar.select (IntOp.cmpi .eq (k1_pay4 (F := Ideal) i x6 (ix2 s 6)) ((iota .tc S400x1280 32 [1] iota_S400x1280_d1_w32) (ix2 s j))) (k1_pay3 (F := Ideal) x4 x5 (ix2 s 6)) 0)
        + Scalar.select (IntOp.cmpi .eq (k1_pay4 (F := Ideal) i x6 (ix2 s 7)) ((iota .tc S400x1280 32 [1] iota_S400x1280_d1_w32) (ix2 s j))) (k1_pay3 (F := Ideal) x4 x5 (ix2 s 7)) 0)
      = ∑ k : Fin 8, if (x6 (ix3 0 s k)).toInt = (((i 1).val * 1280 + j.val : ℕ) : ℤ)
          then x4 (ix3 0 s k) * (if Cert.Spec.thr < x5 (ix3 0 s k) then (1 : EReal) else 0) else 0 := by
  rw [pay7_apply, pay5_apply, pay6_apply, pay8_apply, pay9_apply, pay10_apply]
  rw [slot_eq i x4 x5 x6 s 0 j, slot_eq i x4 x5 x6 s 1 j, slot_eq i x4 x5 x6 s 2 j, slot_eq i x4 x5 x6 s 3 j,
    slot_eq i x4 x5 x6 s 4 j, slot_eq i x4 x5 x6 s 5 j, slot_eq i x4 x5 x6 s 6 j, slot_eq i x4 x5 x6 s 7 j,
    Fin.sum_univ_eight, zero_add]

/-- The stored value at (0, t, j). -/
theorem blend_apply (i : grid1.Coords) (x0 : Vec Ideal S1x100x1280 .f32) (x1 : Vec Ideal S1x100x1 .f32)
    (x2 : Vec Ideal S1x100x400 .f32) (x3 : Vec Ideal S1x100x1 .f32) (x4 x5 : Vec Ideal S1x400x8 .f32)
    (x6 : Vec Ideal S1x400x8 .i32) (t : Fin 100) (j : Fin 1280) :
    blend (F := Ideal) i x0 x1 x2 x3 x4 x5 x6 (ix3 0 t j)
      = Ideal.log (x3 (ix3 0 t 0) * (∑ s : Fin 400, x2 (ix3 0 t s) * (∑ k : Fin 8,
            if (x6 (ix3 0 s k)).toInt = (((i 1).val * 1280 + j.val : ℕ) : ℤ)
              then x4 (ix3 0 s k) * (if Cert.Spec.thr < x5 (ix3 0 s k) then (1 : EReal) else 0) else 0))
          + (Cert.Spec.one - x3 (ix3 0 t 0)) * Ideal.div (x0 (ix3 0 t j)) (x1 (ix3 0 t 0))) := by
  unfold blend
  rw [pay1_apply, pay11_apply, pay2_apply]
  refine congrArg Ideal.log (congrArg (· + _) (congrArg (_ * ·) (Finset.sum_congr rfl fun s _ => ?_)))
  exact congrArg (_ * ·) (tile_apply i x4 x5 x6 s j)

end Cert.KernelIdeal.Pay1

end
-- ==== Proof.R1Store.lean ====
import proofs.«429191_j17652315587030_3_alg».proof.Proof.R1Body
import proofs.«429191_j17652315587030_3_alg».proof.Proof.R1Pay
import Idealize.ShloMosaic.Lib.Pipeline.Value
import Idealize.ShloMosaic.Lib.Tactic

/-!
  The second kernel's body: what its one store leaves in the output block is the blend of the seven loaded blocks.
-/

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The zero offsets of a whole-buffer access. -/
theorem hz : (![0, 0, 0] : Fin 3 → Nat) = fun _ => 0 := funext fun a => by fin_cases a <;> rfl

/-- The stored block is the blend of the loaded blocks. -/
theorem out_eq_blend (c : Dev nD) (i : grid1.Coords) (arg2 : Memref sig .tc .vmem S1x100x1280 .f32) (harg2 : arg2.IsWhole) (arg3 : Memref sig .tc .vmem S1x100x1 .f32) (harg3 : arg3.IsWhole) (arg4 : Memref sig .tc .vmem S1x100x400 .f32) (harg4 : arg4.IsWhole) (arg5 : Memref sig .tc .vmem S1x100x1 .f32) (harg5 : arg5.IsWhole) (arg6 : Memref sig .tc .vmem S1x400x8 .f32) (harg6 : arg6.IsWhole) (arg7 : Memref sig .tc .vmem S1x400x8 .f32) (harg7 : arg7.IsWhole) (arg8 : Memref sig .tc .vmem S1x400x8 .i32) (harg8 : arg8.IsWhole) (arg9 : Memref sig .tc .vmem S1x100x1280 .f32) (harg9 : arg9.IsWhole)
    (x0 : Vec F S1x100x1280 .f32) (x1 : Vec F S1x100x1 .f32) (x2 : Vec F S1x100x400 .f32) (x3 : Vec F S1x100x1 .f32) (x4 : Vec F S1x400x8 .f32) (x5 : Vec F S1x400x8 .f32) (x6 : Vec F S1x400x8 .i32) :
    out1_7 c i arg2 harg2 arg3 harg3 arg4 harg4 arg5 harg5 arg6 harg6 arg7 harg7 arg8 harg8 arg9 harg9 x0 x1 x2 x3 x4 x5 x6 = Cert.KernelIdeal.Pay1.blend i x0 x1 x2 x3 x4 x5 x6 := by
  unfold out1_7
  rw [View.read_writes_eq_canon _ _ _ (cover1_7 c i arg2 harg2 arg3 harg3 arg4 harg4 arg5 harg5 arg6 harg6 arg7 harg7 arg8 harg8 arg9 harg9 x0 x1 x2 x3 x4 x5 x6)]
  unfold kernelRun1
  dsimp only
  sl_unfold_words
  rw [View.canon_unit_zero hz]
  simp only [View.readAt_eq_ld, harg2.read_unread, harg3.read_unread, harg4.read_unread, harg5.read_unread,
    harg6.read_unread, harg7.read_unread, harg8.read_unread,
    View.ld_unit_zero (S := S1x100x1280) hz, View.ld_unit_zero (S := S1x100x1) hz, View.ld_unit_zero (S := S1x100x400) hz,
    View.ld_unit_zero (S := S1x400x8) hz]
  rfl

end Cert.KernelIdeal.Val1

end
-- ==== Proof.R1Blocks.lean ====
import proofs.«429191_j17652315587030_3_alg».proof.Proof.R1Body
import Idealize.ShloMosaic.Lib.Pipeline.Value
import Idealize.ShloMosaic.Lib.ValueIdx
import Idealize.ShloMosaic.Lib.Tactic

/-!
  The second kernel's blocks inside their arrays.

  The grid has 8 * 25 points; point n = 25 * b + vt works on batch b and vocabulary tile vt. The window of the
  exponentials and the output window move with both: their block at point n is rows (b, all 100 steps, columns
  vt * 1280 … vt * 1280 + 1279). The other six windows move with b only: their block is batch b, whole.
  An entry (0, t, j) of a block is the entry (b, t, vt * 1280 + j), respectively (b, t, j), of its array.
  Every index (b, t, v) of the output lies in the block of point 25 * b + v / 1280, at column v % 1280.
-/

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The printed index maps, decided over the grid: batch and tile of a point. -/
theorem idx_facts : ∀ t : Fin cfg1.N,
    (win1_0.index t (0 : Fin 3) = t.val / 25 ∧ win1_0.index t (1 : Fin 3) = 0 ∧ win1_0.index t (2 : Fin 3) = t.val % 25)
    ∧ (win1_1.index t (0 : Fin 3) = t.val / 25 ∧ win1_1.index t (1 : Fin 3) = 0 ∧ win1_1.index t (2 : Fin 3) = 0)
    ∧ (win1_2.index t (0 : Fin 3) = t.val / 25 ∧ win1_2.index t (1 : Fin 3) = 0 ∧ win1_2.index t (2 : Fin 3) = 0)
    ∧ (win1_3.index t (0 : Fin 3) = t.val / 25 ∧ win1_3.index t (1 : Fin 3) = 0 ∧ win1_3.index t (2 : Fin 3) = 0)
    ∧ (win1_4.index t (0 : Fin 3) = t.val / 25 ∧ win1_4.index t (1 : Fin 3) = 0 ∧ win1_4.index t (2 : Fin 3) = 0)
    ∧ (win1_5.index t (0 : Fin 3) = t.val / 25 ∧ win1_5.index t (1 : Fin 3) = 0 ∧ win1_5.index t (2 : Fin 3) = 0)
    ∧ (win1_6.index t (0 : Fin 3) = t.val / 25 ∧ win1_6.index t (1 : Fin 3) = 0 ∧ win1_6.index t (2 : Fin 3) = 0)
    ∧ (win1_7.index t (0 : Fin 3) = t.val / 25 ∧ win1_7.index t (1 : Fin 3) = 0 ∧ win1_7.index t (2 : Fin 3) = t.val % 25)
    ∧ ((grid1.coords t) 1).val = t.val % 25 :=
  (by decide +kernel : ∀ t : Fin grid1.N, _)

/-- The block of exponentials at point n: entry (0, t, j) is entry (b, t, vt * 1280 + j) of the array. -/
theorem blkE_apply (c : Dev nD) (n : Fin cfg1.N) (b : Fin 8) (hb : b.val = n.val / 25) (t : Fin 100) (j : Fin 1280)
    (v : Fin 32000) (hv : v.val = n.val % 25 * 1280 + j.val) :
    (iblk1 V c 0 n : Vec F S1x100x1280 .f32) (ix3 0 t j) = (V c main_v3 : S8x100x32000.Idx → Elt F .f32) (ix3 b t v) := by
  obtain ⟨⟨e0, e1, e2⟩, -⟩ := idx_facts n
  unfold iblk1
  rw [View.read_apply]
  show V c main_v3 _ = V c main_v3 _
  refine congrArg _ (funext fun a => Fin.ext ?_)
  match a with
  | ⟨0, _⟩ => show win1_0.index n (0 : Fin 3) * 1 + 1 * 0 = b.val; omega
  | ⟨1, _⟩ => show win1_0.index n (1 : Fin 3) * 100 + 1 * t.val = t.val; omega
  | ⟨2, _⟩ => show win1_0.index n (2 : Fin 3) * 1280 + 1 * j.val = v.val; omega

/-- The block of row sums at point n is batch b of the array: entry (0, t, 0) is entry (b, t, 0). -/
theorem blkT_apply (c : Dev nD) (n : Fin cfg1.N) (b : Fin 8) (hb : b.val = n.val / 25) (t : Fin 100) :
    (iblk1 V c 1 n : Vec F S1x100x1 .f32) (ix3 0 t 0) = (V c main_v4 : S8x100x1.Idx → Elt F .f32) (ix3 b t 0) := by
  obtain ⟨-, ⟨e0, e1, e2⟩, -⟩ := idx_facts n
  unfold iblk1
  rw [View.read_apply]
  show V c main_v4 _ = V c main_v4 _
  refine congrArg _ (funext fun a => Fin.ext ?_)
  match a with
  | ⟨0, _⟩ => show win1_1.index n (0 : Fin 3) * 1 + 1 * 0 = b.val; omega
  | ⟨1, _⟩ => show win1_1.index n (1 : Fin 3) * 100 + 1 * t.val = t.val; omega
  | ⟨2, _⟩ => show win1_1.index n (2 : Fin 3) * 1 + 1 * 0 = 0; omega

/-- The block of attention weights at point n is batch b of the array. -/
theorem blkW_apply (c : Dev nD) (n : Fin cfg1.N) (b : Fin 8) (hb : b.val = n.val / 25) (t : Fin 100) (s : Fin 400) :
    (iblk1 V c 2 n : Vec F S1x100x400 .f32) (ix3 0 t s) = (V c main_arg3 : S8x100x400.Idx → Elt F .f32) (ix3 b t s) := by
  obtain ⟨-, -, ⟨e0, e1, e2⟩, -⟩ := idx_facts n
  unfold iblk1
  rw [View.read_apply]
  show V c main_arg3 _ = V c main_arg3 _
  refine congrArg _ (funext fun a => Fin.ext ?_)
  match a with
  | ⟨0, _⟩ => show win1_2.index n (0 : Fin 3) * 1 + 1 * 0 = b.val; omega
  | ⟨1, _⟩ => show win1_2.index n (1 : Fin 3) * 100 + 1 * t.val = t.val; omega
  | ⟨2, _⟩ => show win1_2.index n (2 : Fin 3) * 400 + 1 * s.val = s.val; omega

/-- The block of gates at point n is batch b of the array. -/
theorem blkP_apply (c : Dev nD) (n : Fin cfg1.N) (b : Fin 8) (hb : b.val = n.val / 25) (t : Fin 100) :
    (iblk1 V c 3 n : Vec F S1x100x1 .f32) (ix3 0 t 0) = (V c main_arg4 : S8x100x1.Idx → Elt F .f32) (ix3 b t 0) := by
  obtain ⟨-, -, -, ⟨e0, e1, e2⟩, -⟩ := idx_facts n
  unfold iblk1
  rw [View.read_apply]
  show V c main_arg4 _ = V c main_arg4 _
  refine congrArg _ (funext fun a => Fin.ext ?_)
  match a with
  | ⟨0, _⟩ => show win1_3.index n (0 : Fin 3) * 1 + 1 * 0 = b.val; omega
  | ⟨1, _⟩ => show win1_3.index n (1 : Fin 3) * 100 + 1 * t.val = t.val; omega
  | ⟨2, _⟩ => show win1_3.index n (2 : Fin 3) * 1 + 1 * 0 = 0; omega

/-- The block of translation probabilities at point n is batch b of the array. -/
theorem blkTr_apply (c : Dev nD) (n : Fin cfg1.N) (b : Fin 8) (hb : b.val = n.val / 25) (s : Fin 400) (k : Fin 8) :
    (iblk1 V c 4 n : Vec F S1x400x8 .f32) (ix3 0 s k) = (V c main_arg5 : S8x400x8.Idx → Elt F .f32) (ix3 b s k) := by
  obtain ⟨-, -, -, -, ⟨e0, e1, e2⟩, -⟩ := idx_facts n
  unfold iblk1
  rw [View.read_apply]
  show V c main_arg5 _ = V c main_arg5 _
  refine congrArg _ (funext fun a => Fin.ext ?_)
  match a with
  | ⟨0, _⟩ => show win1_4.index n (0 : Fin 3) * 1 + 1 * 0 = b.val; omega
  | ⟨1, _⟩ => show win1_4.index n (1 : Fin 3) * 400 + 1 * s.val = s.val; omega
  | ⟨2, _⟩ => show win1_4.index n (2 : Fin 3) * 8 + 1 * k.val = k.val; omega

/-- The block of source probabilities at point n is batch b of the array. -/
theorem blkPr_apply (c : Dev nD) (n : Fin cfg1.N) (b : Fin 8) (hb : b.val = n.val / 25) (s : Fin 400) (k : Fin 8) :
    (iblk1 V c 5 n : Vec F S1x400x8 .f32) (ix3 0 s k) = (V c main_arg6 : S8x400x8.Idx → Elt F .f32) (ix3 b s k) := by
  obtain ⟨-, -, -, -, -, ⟨e0, e1, e2⟩, -⟩ := idx_facts n
  unfold iblk1
  rw [View.read_apply]
  show V c main_arg6 _ = V c main_arg6 _
  refine congrArg _ (funext fun a => Fin.ext ?_)
  match a with
  | ⟨0, _⟩ => show win1_5.index n (0 : Fin 3) * 1 + 1 * 0 = b.val; omega
  | ⟨1, _⟩ => show win1_5.index n (1 : Fin 3) * 400 + 1 * s.val = s.val; omega
  | ⟨2, _⟩ => show win1_5.index n (2 : Fin 3) * 8 + 1 * k.val = k.val; omega

/-- The block of copy indices at point n is batch b of the array. -/
theorem blkIx_apply (c : Dev nD) (n : Fin cfg1.N) (b : Fin 8) (hb : b.val = n.val / 25) (s : Fin 400) (k : Fin 8) :
    (iblk1 V c 6 n : Vec F S1x400x8 .i32) (ix3 0 s k) = (V c main_arg7 : S8x400x8.Idx → Elt F .i32) (ix3 b s k) := by
  obtain ⟨-, -, -, -, -, -, ⟨e0, e1, e2⟩, -⟩ := idx_facts n
  unfold iblk1
  rw [View.read_apply]
  show V c main_arg7 _ = V c main_arg7 _
  refine congrArg _ (funext fun a => Fin.ext ?_)
  match a with
  | ⟨0, _⟩ => show win1_6.index n (0 : Fin 3) * 1 + 1 * 0 = b.val; omega
  | ⟨1, _⟩ => show win1_6.index n (1 : Fin 3) * 400 + 1 * s.val = s.val; omega
  | ⟨2, _⟩ => show win1_6.index n (2 : Fin 3) * 8 + 1 * k.val = k.val; omega

/-- An index of the output array is in point n's block iff each coordinate is in the block's range on its axis. -/
theorem mem_blk7 (n : Fin cfg1.N) (i : S8x100x32000.Idx) :
    i ∈ ((cfg1.win 7).blk n).view.set ↔ ∀ a : Fin 3, win1_7.index n a * S1x100x1280.size a ≤ (i a).val ∧ (i a).val < win1_7.index n a * S1x100x1280.size a + S1x100x1280.size a := by
  show i ∈ ((View.whole main_v5).slice (win1_7.rect n)).set ↔ _
  rw [View.set_slice_whole, Rect.mem_set_unit]
  exact Iff.rfl

/-- The point whose block holds (b, t, v): batch b, tile v / 1280. -/
def pointOf (b : Fin 8) (v : Fin 32000) : Fin cfg1.N :=
  ⟨25 * b.val + v.val / 1280, by have hN : cfg1.N = 200 := N_1; have := b.isLt; have := v.isLt; omega⟩

theorem pointOf_val (b : Fin 8) (v : Fin 32000) : (pointOf b v).val = 25 * b.val + v.val / 1280 := rfl

/-- THE COVER: every index of the output array is in the block of the point of its batch and tile, a point that writes back. -/
theorem cover7 (b : Fin 8) (t : Fin 100) (v : Fin 32000) :
    (cfg1.win 7).flush (pointOf b v) = true ∧ (ix3 b t v : S8x100x32000.Idx) ∈ ((cfg1.win 7).blk (pointOf b v)).view.set := by
  refine ⟨flush1_7 _, ?_⟩
  rw [mem_blk7]
  obtain ⟨-, -, -, -, -, -, -, ⟨e0, e1, e2⟩, -⟩ := idx_facts (pointOf b v)
  have hp := pointOf_val b v
  have hb := b.isLt
  have ht := t.isLt
  have hv := v.isLt
  intro a
  match a with
  | ⟨0, _⟩ => show win1_7.index (pointOf b v) (0 : Fin 3) * 1 ≤ b.val ∧ b.val < win1_7.index (pointOf b v) (0 : Fin 3) * 1 + 1; omega
  | ⟨1, _⟩ => show win1_7.index (pointOf b v) (1 : Fin 3) * 100 ≤ t.val ∧ t.val < win1_7.index (pointOf b v) (1 : Fin 3) * 100 + 100; omega
  | ⟨2, _⟩ => show win1_7.index (pointOf b v) (2 : Fin 3) * 1280 ≤ v.val ∧ v.val < win1_7.index (pointOf b v) (2 : Fin 3) * 1280 + 1280; omega

end Cert.KernelIdeal.Val1

end
-- ==== Proof.R1Value.lean ====
import proofs.«429191_j17652315587030_3_alg».proof.Proof.R1Store
import proofs.«429191_j17652315587030_3_alg».proof.Proof.R1Blocks
import proofs.«429191_j17652315587030_3_alg».proof.Proof.R1Pay

/-!
  The second kernel's output array after its run, index by index.

  Point n = 25 * b + vt stores the blend of its seven blocks into block (b, all steps, tile vt) of the output; a block's
  entries are entries of the arrays the region found, so what the point writes back is its block of ONE function of
  those arrays: at (b, t, v),
    log ( p[b,t] * (sum over s of weights[b,t,s] * (sum over the slots k with idx[b,s,k] = v of the gated trans[b,s,k]))
          + (1 - p[b,t]) * (expo[b,t,v] / total[b,t]) ).
  The blocks of the 200 points tile the array, so the array ends holding that function.
-/

set_option maxRecDepth 16384

noncomputable section

open scoped BigOperators

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The value at batch b, step t, vocabulary entry v, of seven arrays: the exponentials e, their row sums z, the
    attention weights, the gates p, the translation and source probabilities, the copy indices. -/
def outVal (e : S8x100x32000.Idx → EReal) (z : S8x100x1.Idx → EReal) (wts : S8x100x400.Idx → EReal) (p : S8x100x1.Idx → EReal) (tr pr : S8x400x8.Idx → EReal) (idx : S8x400x8.Idx → BitVec 32) (b : Fin 8) (t : Fin 100) (v : Fin 32000) : EReal :=
  Ideal.log (p (ix3 b t 0) * (∑ s : Fin 400, wts (ix3 b t s) * (∑ k : Fin 8, if (idx (ix3 b s k)).toInt = (v.val : ℤ) then tr (ix3 b s k) * (if Cert.Spec.thr < pr (ix3 b s k) then (1 : EReal) else 0) else 0))
        + (Cert.Spec.one - p (ix3 b t 0)) * Ideal.div (e (ix3 b t v)) (z (ix3 b t 0)))

/-- The same as one array. -/
def outArr (e : S8x100x32000.Idx → EReal) (z : S8x100x1.Idx → EReal) (wts : S8x100x400.Idx → EReal) (p : S8x100x1.Idx → EReal) (tr pr : S8x400x8.Idx → EReal) (idx : S8x400x8.Idx → BitVec 32) : S8x100x32000.Idx → EReal :=
  fun i => outVal e z wts p tr pr idx (i 0) (i 1) (i 2)

/-- The blend of point n's blocks, at an entry of the block, is the array function, of the arrays the region finds, at
    the entry's place in the array. -/
theorem point_value (c : Dev nD) (e : S8x100x32000.Idx → EReal) (z : S8x100x1.Idx → EReal) (wts : S8x100x400.Idx → EReal) (p : S8x100x1.Idx → EReal) (tr pr : S8x400x8.Idx → EReal) (idx : S8x400x8.Idx → BitVec 32)
    (he : e = V c main_v3) (hz : z = V c main_v4) (hw : wts = V c main_arg3) (hp : p = V c main_arg4) (htr : tr = V c main_arg5) (hpr : pr = V c main_arg6) (hidx : idx = V c main_arg7)
    (n : Fin cfg1.N) (y : S1x100x1280.Idx) (i : S8x100x32000.Idx)
    (h0 : (i 0).val = n.val / 25) (h1 : (i 1).val = (y 1).val) (h2 : (i 2).val = n.val % 25 * 1280 + (y 2).val) :
    Cert.KernelIdeal.Pay1.blend (F := Ideal) (grid1.coords n) (iblk1 V c 0 n) (iblk1 V c 1 n) (iblk1 V c 2 n) (iblk1 V c 3 n)
      (iblk1 V c 4 n) (iblk1 V c 5 n) (iblk1 V c 6 n) y = outArr e z wts p tr pr idx i := by
  obtain ⟨y0, t, j, rfl⟩ : ∃ (y0 : Fin 1) (t : Fin 100) (j : Fin 1280), y = ix3 y0 t j := ⟨y 0, y 1, y 2, eq_ix3 y⟩
  obtain rfl : y0 = 0 := Subsingleton.elim _ _
  obtain ⟨b, t', v, rfl⟩ : ∃ (b : Fin 8) (t' : Fin 100) (v : Fin 32000), i = ix3 b t' v := ⟨i 0, i 1, i 2, eq_ix3 i⟩
  obtain rfl : t = t' := Fin.ext h1.symm
  have hb : b.val = n.val / 25 := h0
  have hv : v.val = n.val % 25 * 1280 + j.val := h2
  obtain ⟨-, -, -, -, -, -, -, -, ec⟩ := idx_facts n
  have hcol : ((grid1.coords n) 1).val * 1280 + j.val = v.val := by rw [ec]; omega
  have fE : (iblk1 V c 0 n : Vec Ideal S1x100x1280 .f32) (ix3 0 t j) = e (ix3 b t v) := by
    rw [he]; exact blkE_apply V c n b hb t j v hv
  have fT : (iblk1 V c 1 n : Vec Ideal S1x100x1 .f32) (ix3 0 t 0) = z (ix3 b t 0) := by
    rw [hz]; exact blkT_apply V c n b hb t
  have fP : (iblk1 V c 3 n : Vec Ideal S1x100x1 .f32) (ix3 0 t 0) = p (ix3 b t 0) := by
    rw [hp]; exact blkP_apply V c n b hb t
  have fW : ∀ s : Fin 400, (iblk1 V c 2 n : Vec Ideal S1x100x400 .f32) (ix3 0 t s) = wts (ix3 b t s) := fun s => by
    rw [hw]; exact blkW_apply V c n b hb t s
  have fTr : ∀ (s : Fin 400) (k : Fin 8), (iblk1 V c 4 n : Vec Ideal S1x400x8 .f32) (ix3 0 s k) = tr (ix3 b s k) := fun s k => by
    rw [htr]; exact blkTr_apply V c n b hb s k
  have fPr : ∀ (s : Fin 400) (k : Fin 8), (iblk1 V c 5 n : Vec Ideal S1x400x8 .f32) (ix3 0 s k) = pr (ix3 b s k) := fun s k => by
    rw [hpr]; exact blkPr_apply V c n b hb s k
  have fIx : ∀ (s : Fin 400) (k : Fin 8), (iblk1 V c 6 n : Vec Ideal S1x400x8 .i32) (ix3 0 s k) = idx (ix3 b s k) := fun s k => by
    rw [hidx]; exact blkIx_apply V c n b hb s k
  refine (Cert.KernelIdeal.Pay1.blend_apply (grid1.coords n) (iblk1 V c 0 n) (iblk1 V c 1 n) (iblk1 V c 2 n) (iblk1 V c 3 n)
    (iblk1 V c 4 n) (iblk1 V c 5 n) (iblk1 V c 6 n) t j).trans ?_
  show _ = outVal e z wts p tr pr idx b t v
  unfold outVal
  rw [fE, fT, fP]
  refine congrArg Ideal.log (congrArg (· + _) (congrArg (_ * ·) (Finset.sum_congr rfl fun s _ => ?_)))
  rw [fW s]
  refine congrArg (_ * ·) (Finset.sum_congr rfl fun k _ => ?_)
  rw [fIx s k, fTr s k, fPr s k, hcol]

/-- WHAT POINT n WRITES BACK is its block of the array function. -/
theorem flushed_eq (c : Dev nD) (e : S8x100x32000.Idx → EReal) (z : S8x100x1.Idx → EReal) (wts : S8x100x400.Idx → EReal) (p : S8x100x1.Idx → EReal) (tr pr : S8x400x8.Idx → EReal) (idx : S8x400x8.Idx → BitVec 32)
    (he : e = V c main_v3) (hz : z = V c main_v4) (hw : wts = V c main_arg3) (hp : p = V c main_arg4) (htr : tr = V c main_arg5) (hpr : pr = V c main_arg6) (hidx : idx = V c main_arg7) (n : Fin cfg1.N) :
    (dat1 V c).flushed 7 n = ((cfg1.win 7).blk n).view.read (Elt Ideal) (outArr e z wts p tr pr idx) := by
  show (cfg1.win 7).cut (grid1.coords n) ((dat1 V c).after 7 n) = _
  rw [after1_7]
  unfold outAt1
  rw [out_eq_blend]
  funext y
  rw [View.read_apply]
  obtain ⟨-, -, -, -, -, -, -, ⟨e0, e1, e2⟩, -⟩ := idx_facts n
  refine point_value V c e z wts p tr pr idx he hz hw hp htr hpr hidx n y (((cfg1.win 7).blk n).view.emb y) ?_ ?_ ?_
  · show win1_7.index n (0 : Fin 3) * 1 + 1 * (y 0).val = n.val / 25
    have hy : (y 0).val < 1 := (y 0).isLt
    omega
  · show win1_7.index n (1 : Fin 3) * 100 + 1 * (y 1).val = (y 1).val
    omega
  · show win1_7.index n (2 : Fin 3) * 1280 + 1 * (y 2).val = n.val % 25 * 1280 + (y 2).val
    omega

/-- Every index of the output array is in some writing point's block. -/
theorem cover (i : S8x100x32000.Idx) : ∃ n : Fin cfg1.N, (cfg1.win 7).flush n = true ∧ i ∈ ((cfg1.win 7).blk n).view.set := by
  obtain ⟨b, t, v, rfl⟩ : ∃ (b : Fin 8) (t : Fin 100) (v : Fin 32000), i = ix3 b t v := ⟨i 0, i 1, i 2, eq_ix3 i⟩
  exact ⟨pointOf b v, cover7 b t v⟩

/-- THE OUTPUT ARRAY after the run is the array function of the arrays the region finds. -/
theorem final7 (c : Dev nD) (e : S8x100x32000.Idx → EReal) (z : S8x100x1.Idx → EReal) (wts : S8x100x400.Idx → EReal) (p : S8x100x1.Idx → EReal) (tr pr : S8x400x8.Idx → EReal) (idx : S8x400x8.Idx → BitVec 32)
    (he : e = V c main_v3) (hz : z = V c main_v4) (hw : wts = V c main_arg3) (hp : p = V c main_arg4) (htr : tr = V c main_arg5) (hpr : pr = V c main_arg6) (hidx : idx = V c main_arg7) :
    (dat1 V c).arrAt 7 cfg1.N = outArr e z wts p tr pr idx :=
  (dat1 V c).arrAt_eq_of_cover 7 (outArr e z wts p tr pr idx)
    (fun n _ => flushed_eq V c e z wts p tr pr idx he hz hw hp htr hpr hidx n) cover

/-- THE OUTPUT ARRAY AT AN INDEX. -/
theorem arr7_apply (c : Dev nD) (e : S8x100x32000.Idx → EReal) (z : S8x100x1.Idx → EReal) (wts : S8x100x400.Idx → EReal) (p : S8x100x1.Idx → EReal) (tr pr : S8x400x8.Idx → EReal) (idx : S8x400x8.Idx → BitVec 32) :
    e = V c main_v3 → z = V c main_v4 → wts = V c main_arg3 → p = V c main_arg4 → tr = V c main_arg5 → pr = V c main_arg6 → idx = V c main_arg7 →
    ∀ (b : Fin 8) (t : Fin 100) (v : Fin 32000),
    (dat1 V c).arrAt 7 cfg1.N (ix3 b t v)
      = Ideal.log (p (ix3 b t 0) * (∑ s : Fin 400, wts (ix3 b t s) * (∑ k : Fin 8, if (idx (ix3 b s k)).toInt = (v.val : ℤ) then tr (ix3 b s k) * (if Cert.Spec.thr < pr (ix3 b s k) then (1 : EReal) else 0) else 0))
        + (Cert.Spec.one - p (ix3 b t 0)) * Ideal.div (e (ix3 b t v)) (z (ix3 b t 0))) := by
  intro he hz hw hp htr hpr hidx b t v
  rw [final7 V c e z wts p tr pr idx he hz hw hp htr hpr hidx]
  rfl

end Cert.KernelIdeal.Val1

end
-- ==== Proof.KVal.lean ====
import proofs.«429191_j17652315587030_3_alg».proof.Proof.Run
import proofs.«429191_j17652315587030_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem
open scoped BigOperators

/-! # The result buffer is the specified function of the launch contents

The program is two reshapes, the first kernel's region, two reshapes, and the second kernel's region. Given what each
region leaves in its output arrays as a function of the contents it was entered with, the result buffer is read back
through the four reshapes to the launch contents, where it is the specification's function. -/

/-! ## Reshapes between [8, 100, n] and [800, n], read at an index -/

section Reshape
variable {α : Type}

/-- Row 100 b + t of the flattened array. -/
abbrev row (b : Fin 8) (t : Fin 100) : Fin 800 := ⟨100 * b.val + t.val, by have := b.isLt; have := t.isLt; omega⟩

/-- An [8, 100, n] array flattened to [800, n] reads, at (100 b + t, j), the operand at (b, t, j). -/
theorem shapeCast_flat_apply {n : ℕ} (x : (⟨3, ![8, 100, n]⟩ : Shape).Idx → α)
    (h : (⟨3, ![8, 100, n]⟩ : Shape).ShapeCasts ⟨2, ![800, n]⟩) (b : Fin 8) (t : Fin 100) (j : Fin n) :
    shapeCast ⟨2, ![800, n]⟩ x h (ix2 (row b t) j) = x (ix3 b t j) :=
  shapeCast_apply x h _ _ (by
    rw [Shape.rowMajor_val_three, Shape.rowMajor_val_two]
    show (b.val * 100 + t.val) * n + j.val = (100 * b.val + t.val) * n + j.val
    rw [Nat.mul_comm b.val 100])

/-- An [800, n] array split to [8, 100, n] reads, at (b, t, j), the operand at (100 b + t, j). -/
theorem shapeCast_split_apply {n : ℕ} (x : (⟨2, ![800, n]⟩ : Shape).Idx → α)
    (h : (⟨2, ![800, n]⟩ : Shape).ShapeCasts ⟨3, ![8, 100, n]⟩) (b : Fin 8) (t : Fin 100) (j : Fin n) :
    shapeCast ⟨3, ![8, 100, n]⟩ x h (ix3 b t j) = x (ix2 (row b t) j) :=
  shapeCast_apply x h _ _ (by
    rw [Shape.rowMajor_val_three, Shape.rowMajor_val_two]
    show (100 * b.val + t.val) * n + j.val = (b.val * 100 + t.val) * n + j.val
    rw [Nat.mul_comm b.val 100])

end Reshape

/-! ## The specification, with the exponential and the normaliser named -/

/-- The specification at (b, t, v) is the logarithm of the blend, once the exponential and its row total are the specification's. -/
theorem out_eq (dec : Cert.Spec.SDec.Idx → EReal) (W : Cert.Spec.SW.Idx → EReal) (bias : Cert.Spec.SB.Idx → EReal)
    (wts : Cert.Spec.SWt.Idx → EReal) (p : Cert.Spec.SP.Idx → EReal) (tr pr : Cert.Spec.SK.Idx → EReal) (idx : Cert.Spec.SK.Idx → BitVec 32)
    (b : Fin 8) (t : Fin 100) (v : Fin 32000) (E T : EReal)
    (hE : E = Cert.Spec.expo dec W bias b t v) (hT : T = Cert.Spec.total dec W bias b t) :
    Ideal.log (p (ix3 b t 0) * (∑ s : Fin 400, wts (ix3 b t s) * (∑ k : Fin 8, if (idx (ix3 b s k)).toInt = (v.val : ℤ) then tr (ix3 b s k) * (if Cert.Spec.thr < pr (ix3 b s k) then (1 : EReal) else 0) else 0))
        + (Cert.Spec.one - p (ix3 b t 0)) * Ideal.div E T)
      = Cert.Spec.G dec W bias wts p tr pr idx (ix3 b t v) := by
  rw [hE, hT]
  show _ = Cert.Spec.out dec W bias wts p tr pr idx b t v
  unfold Cert.Spec.out Cert.Spec.mix Cert.Spec.copy Cert.Spec.gate
  rfl

section Buffers
variable (m : (ℓ : Loc nD τ sig) → Buf (Elt Ideal) ℓ) (c : Dev nD)

/-! ## The first region's entry contents -/

/-- The projection matrix is as launched. -/
theorem U1_main_arg1 : U1 m c main_arg1 = m ((c.tc : Thread nD τ).loc main_arg1) :=
  calc B1 m c (Proc.devRef .tc main_arg1) = B0 m c (Proc.devRef .tc main_arg1) := StableHlo.after_of_writes_sub hostOps0 _ hostOps0_writes (by decide)
    _ = m ((c.tc : Thread nD τ).loc main_arg1) := rfl

/-- The flattened decoder states are the launched ones reshaped. -/
theorem U1_main_v1 : (U1 m c main_v1 : S800x512.Idx → EReal)
    = shapeCast S800x512 (m ((c.tc : Thread nD τ).loc main_arg0) : S8x100x512.Idx → EReal) Facts₀.shapeCasts_S8x100x512_S800x512 := by
  show StableHlo.after hostOps0 _ (Proc.devRef .tc main_v1) = _
  after_results
  rfl

/-- The bias row is the launched bias reshaped. -/
theorem U1_main_v0 : (U1 m c main_v0 : S1x32000.Idx → EReal)
    = shapeCast S1x32000 (m ((c.tc : Thread nD τ).loc main_arg2) : S32000.Idx → EReal) Facts₀.shapeCasts_S32000_S1x32000 := by
  show StableHlo.after hostOps0 _ (Proc.devRef .tc main_v0) = _
  after_results
  rfl

/-- So the logit formed from the first region's entry contents at row 100 b + t is the specification's logit. -/
theorem logit_U1 (x0 : S800x512.Idx → EReal) (x1 : S512x32000.Idx → EReal) (x2 : S1x32000.Idx → EReal)
    (h0 : x0 = U1 m c main_v1) (h1 : x1 = U1 m c main_arg1) (h2 : x2 = U1 m c main_v0) (b : Fin 8) (t : Fin 100) (v : Fin 32000) :
    (∑ h : Fin 512, x0 (ix2 (row b t) h) * x1 (ix2 h v)) + x2 (ix2 0 v)
      = Cert.Spec.logit (m ((c.tc : Thread nD τ).loc main_arg0)) (m ((c.tc : Thread nD τ).loc main_arg1)) (m ((c.tc : Thread nD τ).loc main_arg2)) b t v := by
  subst h0 h1 h2
  unfold Cert.Spec.logit
  refine congrArg₂ (· + ·) (Finset.sum_congr rfl fun h _ => congrArg₂ (· * ·) ?_ ?_) ?_
  · exact (congrFun (U1_main_v1 m c) _).trans (shapeCast_flat_apply _ _ b t h)
  · exact congrFun (U1_main_arg1 m c) _
  · exact (congrFun (U1_main_v0 m c) _).trans (shapeCast_a_1a_apply _ _ 0 v)

/-! ## The second region's entry contents -/

/-- The attention weights are as launched. -/
theorem U3_main_arg3 : U3 m c main_arg3 = m ((c.tc : Thread nD τ).loc main_arg3) :=
  calc B3 m c (Proc.devRef .tc main_arg3) = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c.tc : Thread nD τ).loc main_arg3) := rfl
/-- The blend probabilities are as launched. -/
theorem U3_main_arg4 : U3 m c main_arg4 = m ((c.tc : Thread nD τ).loc main_arg4) :=
  calc B3 m c (Proc.devRef .tc main_arg4) = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c.tc : Thread nD τ).loc main_arg4) := rfl
/-- The translation probabilities are as launched. -/
theorem U3_main_arg5 : U3 m c main_arg5 = m ((c.tc : Thread nD τ).loc main_arg5) :=
  calc B3 m c (Proc.devRef .tc main_arg5) = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c.tc : Thread nD τ).loc main_arg5) := rfl
/-- The source probabilities are as launched. -/
theorem U3_main_arg6 : U3 m c main_arg6 = m ((c.tc : Thread nD τ).loc main_arg6) :=
  calc B3 m c (Proc.devRef .tc main_arg6) = B2 m c (Proc.devRef .tc main_arg6) := StableHlo.after_of_writes_sub hostOps1 _ hostOps1_writes (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c.tc : Thread nD τ).loc main_arg6) := rfl
/-- The vocabulary indices are as launched. -/
theorem U3_main_arg7 : U3 m c main_arg7 = m ((c.tc : Thread nD τ).loc main_arg7) :=
  calc B3 m c (Proc.devRef .tc main_arg7) = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c.tc : Thread nD τ).loc main_arg7) := rfl

/-- The exponentials the second region reads are the first region's first output, split back to [8, 100, 32000]. -/
theorem U3_main_v3 : (U3 m c main_v3 : S8x100x32000.Idx → EReal)
    = shapeCast S8x100x32000 ((dat0 (U1 m) c).arrAt 3 cfg0.N : S800x32000.Idx → EReal) Facts₀.shapeCasts_S800x32000_S8x100x32000 := by
  have e : (U3 m c main_v3 : S8x100x32000.Idx → EReal)
      = shapeCast S8x100x32000 (B2 m c (Proc.devRef .tc main_v2_0) : S800x32000.Idx → EReal) Facts₀.shapeCasts_S800x32000_S8x100x32000 := by
    show StableHlo.after hostOps1 _ (Proc.devRef .tc main_v3) = _
    after_results
    rfl
  exact e.trans (congrArg (fun x : S800x32000.Idx → EReal => shapeCast S8x100x32000 x Facts₀.shapeCasts_S800x32000_S8x100x32000) (B2_arr m c 3))

/-- The row totals the second region reads are the first region's second output, split back to [8, 100, 1]. -/
theorem U3_main_v4 : (U3 m c main_v4 : S8x100x1.Idx → EReal)
    = shapeCast S8x100x1 ((dat0 (U1 m) c).arrAt 4 cfg0.N : S800x1.Idx → EReal) Facts₀.shapeCasts_S800x1_S8x100x1 := by
  have e : (U3 m c main_v4 : S8x100x1.Idx → EReal)
      = shapeCast S8x100x1 (B2 m c (Proc.devRef .tc main_v2_1) : S800x1.Idx → EReal) Facts₀.shapeCasts_S800x1_S8x100x1 := by
    show StableHlo.after hostOps1 _ (Proc.devRef .tc main_v4) = _
    after_results
    rfl
  exact e.trans (congrArg (fun x : S800x1.Idx → EReal => shapeCast S8x100x1 x Facts₀.shapeCasts_S800x1_S8x100x1) (B2_arr m c 4))

/-! ## The exponential and its row total, as the second region reads them -/

/-- The exponential the second region reads at (b, t, v) is the specification's. -/
theorem expo_U3
    (H3 : ∀ (V : (c : Dev nD) → (b : Ref sig .tc) → Buf (Elt Ideal) ((c : Thread nD τ).loc b)) (c : Dev nD)
      (x0 : S800x512.Idx → EReal) (x1 : S512x32000.Idx → EReal) (x2 : S1x32000.Idx → EReal),
      x0 = V c main_v1 → x1 = V c main_arg1 → x2 = V c main_v0 → ∀ (r : Fin 800) (v : Fin 32000),
      (dat0 V c).arrAt 3 cfg0.N (ix2 r v) = Ideal.exp ((∑ h : Fin 512, x0 (ix2 r h) * x1 (ix2 h v)) + x2 (ix2 0 v)))
    (e : S8x100x32000.Idx → EReal) (he : e = U3 m c main_v3) (b : Fin 8) (t : Fin 100) (v : Fin 32000) :
    e (ix3 b t v) = Cert.Spec.expo (m ((c.tc : Thread nD τ).loc main_arg0)) (m ((c.tc : Thread nD τ).loc main_arg1)) (m ((c.tc : Thread nD τ).loc main_arg2)) b t v := by
  subst he
  refine (congrFun (U3_main_v3 m c) _).trans ?_
  refine (shapeCast_split_apply _ _ b t v).trans ?_
  refine (H3 (U1 m) c _ _ _ rfl rfl rfl (row b t) v).trans ?_
  exact congrArg Ideal.exp (logit_U1 m c _ _ _ rfl rfl rfl b t v)

/-- The row total the second region reads at (b, t) is the specification's. -/
theorem total_U3
    (H4 : ∀ (V : (c : Dev nD) → (b : Ref sig .tc) → Buf (Elt Ideal) ((c : Thread nD τ).loc b)) (c : Dev nD)
      (x0 : S800x512.Idx → EReal) (x1 : S512x32000.Idx → EReal) (x2 : S1x32000.Idx → EReal),
      x0 = V c main_v1 → x1 = V c main_arg1 → x2 = V c main_v0 → ∀ (r : Fin 800),
      (dat0 V c).arrAt 4 cfg0.N (ix2 r 0) = ∑ v : Fin 32000, Ideal.exp ((∑ h : Fin 512, x0 (ix2 r h) * x1 (ix2 h v)) + x2 (ix2 0 v)))
    (z : S8x100x1.Idx → EReal) (hz : z = U3 m c main_v4) (b : Fin 8) (t : Fin 100) :
    z (ix3 b t 0) = Cert.Spec.total (m ((c.tc : Thread nD τ).loc main_arg0)) (m ((c.tc : Thread nD τ).loc main_arg1)) (m ((c.tc : Thread nD τ).loc main_arg2)) b t := by
  subst hz
  refine (congrFun (U3_main_v4 m c) _).trans ?_
  refine (shapeCast_split_apply _ _ b t 0).trans ?_
  refine (H4 (U1 m) c _ _ _ rfl rfl rfl (row b t)).trans ?_
  change @Eq EReal _ _
  exact Finset.sum_congr rfl fun v _ => congrArg Ideal.exp (logit_U1 m c _ _ _ rfl rfl rfl b t v)

end Buffers

/-! ## The result -/

/-- The result buffer, after the second region, is the specification's function of the launch contents. -/
theorem result_eq_G (m : (ℓ : Loc nD τ sig) → Buf (Elt Ideal) ℓ)
    (H3 : ∀ (V : (c : Dev nD) → (b : Ref sig .tc) → Buf (Elt Ideal) ((c : Thread nD τ).loc b)) (c : Dev nD)
      (x0 : S800x512.Idx → EReal) (x1 : S512x32000.Idx → EReal) (x2 : S1x32000.Idx → EReal),
      x0 = V c main_v1 → x1 = V c main_arg1 → x2 = V c main_v0 → ∀ (r : Fin 800) (v : Fin 32000),
      (dat0 V c).arrAt 3 cfg0.N (ix2 r v) = Ideal.exp ((∑ h : Fin 512, x0 (ix2 r h) * x1 (ix2 h v)) + x2 (ix2 0 v)))
    (H4 : ∀ (V : (c : Dev nD) → (b : Ref sig .tc) → Buf (Elt Ideal) ((c : Thread nD τ).loc b)) (c : Dev nD)
      (x0 : S800x512.Idx → EReal) (x1 : S512x32000.Idx → EReal) (x2 : S1x32000.Idx → EReal),
      x0 = V c main_v1 → x1 = V c main_arg1 → x2 = V c main_v0 → ∀ (r : Fin 800),
      (dat0 V c).arrAt 4 cfg0.N (ix2 r 0) = ∑ v : Fin 32000, Ideal.exp ((∑ h : Fin 512, x0 (ix2 r h) * x1 (ix2 h v)) + x2 (ix2 0 v)))
    (H7 : ∀ (V : (c : Dev nD) → (b : Ref sig .tc) → Buf (Elt Ideal) ((c : Thread nD τ).loc b)) (c : Dev nD)
      (e : S8x100x32000.Idx → EReal) (z : S8x100x1.Idx → EReal) (wts : S8x100x400.Idx → EReal) (p : S8x100x1.Idx → EReal)
      (tr pr : S8x400x8.Idx → EReal) (idx : S8x400x8.Idx → BitVec 32),
      e = V c main_v3 → z = V c main_v4 → wts = V c main_arg3 → p = V c main_arg4 → tr = V c main_arg5 → pr = V c main_arg6 → idx = V c main_arg7 →
      ∀ (b : Fin 8) (t : Fin 100) (v : Fin 32000),
      (dat1 V c).arrAt 7 cfg1.N (ix3 b t v)
        = Ideal.log (p (ix3 b t 0) * (∑ s : Fin 400, wts (ix3 b t s) * (∑ k : Fin 8, if (idx (ix3 b s k)).toInt = (v.val : ℤ) then tr (ix3 b s k) * (if Cert.Spec.thr < pr (ix3 b s k) then (1 : EReal) else 0) else 0))
            + (Cert.Spec.one - p (ix3 b t 0)) * Ideal.div (e (ix3 b t v)) (z (ix3 b t 0))))
    (c : Dev nD) :
    ((dat1 (U3 m) c).arrAt 7 cfg1.N : S8x100x32000.Idx → EReal)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  funext i
  obtain ⟨b, t, v, rfl⟩ : ∃ b t v, i = ix3 b t v := ⟨i 0, i 1, i 2, eq_ix3 i⟩
  refine (H7 (U3 m) c _ _ _ _ _ _ _ rfl rfl (U3_main_arg3 m c).symm (U3_main_arg4 m c).symm (U3_main_arg5 m c).symm
    (U3_main_arg6 m c).symm (U3_main_arg7 m c).symm b t v).trans ?_
  exact out_eq _ _ _ _ _ _ _ _ b t v _ _ (expo_U3 m c H3 _ rfl b t v) (total_U3 m c H4 _ rfl b t)

end Cert.KernelIdeal.KVal

end
-- ==== Proof.lean ====
/-
  The kernel against its reference, over the extended reals.

  Both programs compute, at batch b, decoder step t and vocabulary entry v,
    log ( p[b,t] * mix b t v + (1 - p[b,t]) * exp (logit b t v) / (sum over v' of exp (logit b t v')) ),
  where logit = dec · W + bias and mix blends, through the attention weights, the copy mass that the eight slots of a
  source position send to v (Spec.lean's G).

  The kernel is two launches. The first, on a grid of 2 row tiles by 25 vocabulary tiles, stores the exponentials of
  the logits tile by tile and keeps their row sums in a scratch that is zeroed at the first vocabulary tile, added to
  at every tile and copied out at the last: after its 50 points the exponentials' array holds exp (logit) everywhere
  and the row-sum array the sum over all 32000 entries (a sum of 25 partial sums of 1280 terms, regrouped).  The
  second, on a grid of 8 batches by 25 tiles, rebuilds the copy mass of its tile by comparing the index words,
  shifted by the tile's offset, with a column counter — which selects exactly the slots whose index, read signed, is
  the vocabulary entry —, multiplies by the attention weights, and blends with the quotient of the two arrays the
  first launch left.  The reference instead subtracts the row maximum before exponentiating (the shift cancels in
  the quotient because the logits of finite inputs are real numbers, so the maximum is real), and accumulates the
  copy mass by one scatter-add whose index vectors are the batch, the position and the index normalised as jnp does
  (negative indices wrap), which is the index itself once it is non-negative: the precondition.

  The frames: each launch's body is run symbolically case by case and the launches are composed with the reshapes
  between them, naming every buffer's contents at each boundary; the same text serves the word-level program.
-/
import proofs.«429191_j17652315587030_3_alg».proof.Defs
import proofs.«429191_j17652315587030_3_alg».proof.Proof.Gen.Kernel
import proofs.«429191_j17652315587030_3_alg».proof.Proof.Gen.KernelIdeal
import proofs.«429191_j17652315587030_3_alg».proof.Proof.Gen.ReferenceIdeal
import proofs.«429191_j17652315587030_3_alg».proof.Proof.Gen.Pre_finite_inputs
import proofs.«429191_j17652315587030_3_alg».proof.Proof.Gen.ReferenceIdeal.Run
import proofs.«429191_j17652315587030_3_alg».proof.Proof.Gen.ReferenceIdeal.Read
import proofs.«429191_j17652315587030_3_alg».proof.Proof.Run
import proofs.«429191_j17652315587030_3_alg».proof.Proof.BitsRun
import proofs.«429191_j17652315587030_3_alg».proof.Proof.RefValue
import proofs.«429191_j17652315587030_3_alg».proof.Proof.PreFacts
import proofs.«429191_j17652315587030_3_alg».proof.Proof.R0Value
import proofs.«429191_j17652315587030_3_alg».proof.Proof.R1Value
import proofs.«429191_j17652315587030_3_alg».proof.Proof.KVal
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does the program read at the exact instance. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's array G of the shared arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KVal.result_eq_G m Cert.KernelIdeal.Val0.arr3_apply Cert.KernelIdeal.Val0.arr4_apply Cert.KernelIdeal.Val1.arr7_apply c), (h c).2⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    obtain ⟨h0, h1, h2, h7, -⟩ := Cert.PreFacts.of_pre _ _ _ _ _ _ _ _ (hpre c)
    rw [(h c).1, Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.RefValue.ref_eq_G _ _ _ _ _ _ _ _ h0 h1 h2 h7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
